-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_3" .f32 0x3EAAAAAB#32 ((1 / 3 : ℝ) : EReal)
  ∧ IdealRules.named_const.Statement Cert.KernelIdeal.κ "inv_3" .f32 0x3EAAAAAB#32 ((1 / 3 : ℝ) : EReal)
  ∧ IdealRules.named_const.Statement Cert.KernelIdeal.κ "inv_3" .f32 0x3EAAAAAB#32 ((1 / 3 : ℝ) : EReal)
  ∧ IdealRules.named_const.Statement Cert.KernelIdeal.κ "inv_3" .f32 0x3EAAAAAB#32 ((1 / 3 : ℝ) : EReal)
  ∧ IdealRules.named_const.Statement Cert.KernelIdeal.κ "inv_3" .f32 0x3EAAAAAB#32 ((1 / 3 : ℝ) : EReal)
  ∧ IdealRules.named_const.Statement Cert.KernelIdeal.κ "inv_3" .f32 0x3EAAAAAB#32 ((1 / 3 : ℝ) : EReal)
  ∧ IdealRules.named_const.Statement Cert.KernelIdeal.κ "inv_3" .f32 0x3EAAAAAB#32 ((1 / 3 : ℝ) : EReal)
  ∧ IdealRules.named_const.Statement Cert.KernelIdeal.κ "inv_3" .f32 0x3EAAAAAB#32 ((1 / 3 : ℝ) : EReal)
  ∧ IdealRules.named_const.Statement Cert.KernelIdeal.κ "inv_3" .f32 0x3EAAAAAB#32 ((1 / 3 : ℝ) : EReal)
  ∧ IdealRules.named_const.Statement Cert.KernelIdeal.κ "inv_3" .f32 0x3EAAAAAB#32 ((1 / 3 : ℝ) : EReal)
  ∧ IdealRules.named_const.Statement Cert.KernelIdeal.κ "inv_3" .f32 0x3EAAAAAB#32 ((1 / 3 : ℝ) : EReal)
  ∧ IdealRules.named_const.Statement Cert.KernelIdeal.κ "inv_3" .f32 0x3EAAAAAB#32 ((1 / 3 : ℝ) : EReal)
  ∧ IdealRules.named_const.Statement Cert.KernelIdeal.κ "inv_3" .f32 0x3EAAAAAB#32 ((1 / 3 : ℝ) : EReal)
  ∧ IdealRules.named_const.Statement Cert.KernelIdeal.κ "inv_3" .f32 0x3EAAAAAB#32 ((1 / 3 : ℝ) : EReal)
  ∧ IdealRules.named_const.Statement Cert.KernelIdeal.κ "inv_3" .f32 0x3EAAAAAB#32 ((1 / 3 : ℝ) : EReal)
  ∧ IdealRules.named_const.Statement Cert.KernelIdeal.κ "inv_3" .f32 0x3EAAAAAB#32 ((1 / 3 : ℝ) : EReal)
  ∧ IdealRules.named_const.Statement Cert.KernelIdeal.κ "inv_3" .f32 0x3EAAAAAB#32 ((1 / 3 : ℝ) : EReal)
  ∧ IdealRules.named_const.Statement Cert.KernelIdeal.κ "inv_3" .f32 0x3EAAAAAB#32 ((1 / 3 : ℝ) : EReal)
  ∧ IdealRules.named_const.Statement Cert.KernelIdeal.κ "inv_3" .f32 0x3EAAAAAB#32 ((1 / 3 : ℝ) : EReal)
  ∧ IdealRules.named_const.Statement Cert.KernelIdeal.κ "inv_3" .f32 0x3EAAAAAB#32 ((1 / 3 : ℝ) : EReal)
  ∧ IdealRules.named_const.Statement Cert.KernelIdeal.κ "inv_3" .f32 0x3EAAAAAB#32 ((1 / 3 : ℝ) : EReal)
  ∧ IdealRules.named_const.Statement Cert.KernelIdeal.κ "inv_3" .f32 0x3EAAAAAB#32 ((1 / 3 : ℝ) : EReal)
  ∧ IdealRules.named_const.Statement Cert.KernelIdeal.κ "inv_3" .f32 0x3EAAAAAB#32 ((1 / 3 : ℝ) : EReal)
  ∧ IdealRules.named_const.Statement Cert.KernelIdeal.κ "inv_3" .f32 0x3EAAAAAB#32 ((1 / 3 : ℝ) : EReal)
  ∧ IdealRules.named_const.Statement Cert.KernelIdeal.κ "inv_3" .f32 0x3EAAAAAB#32 ((1 / 3 : ℝ) : EReal)
  ∧ IdealRules.named_const.Statement Cert.KernelIdeal.κ "inv_3" .f32 0x3EAAAAAB#32 ((1 / 3 : ℝ) : EReal)
  ∧ IdealRules.named_const.Statement Cert.KernelIdeal.κ "inv_3" .f32 0x3EAAAAAB#32 ((1 / 3 : ℝ) : EReal)
  ∧ IdealRules.named_const.Statement Cert.KernelIdeal.κ "inv_3" .f32 0x3EAAAAAB#32 ((1 / 3 : ℝ) : EReal)
  ∧ IdealRules.named_const.Statement Cert.KernelIdeal.κ "inv_3" .f32 0x3EAAAAAB#32 ((1 / 3 : ℝ) : EReal)
  ∧ IdealRules.named_const.Statement Cert.KernelIdeal.κ "inv_3" .f32 0x3EAAAAAB#32 ((1 / 3 : ℝ) : EReal)
  ∧ IdealRules.named_const.Statement Cert.KernelIdeal.κ "inv_3" .f32 0x3EAAAAAB#32 ((1 / 3 : ℝ) : EReal)
  ∧ IdealRules.named_const.Statement Cert.KernelIdeal.κ "inv_3" .f32 0x3EAAAAAB#32 ((1 / 3 : ℝ) : EReal)
  ∧ IdealRules.named_const.Statement Cert.KernelIdeal.κ "inv_3" .f32 0x3EAAAAAB#32 ((1 / 3 : ℝ) : EReal)
  ∧ IdealRules.named_const.Statement Cert.KernelIdeal.κ "inv_3" .f32 0x3EAAAAAB#32 ((1 / 3 : ℝ) : EReal)
  ∧ IdealRules.named_const.Statement Cert.KernelIdeal.κ "inv_3" .f32 0x3EAAAAAB#32 ((1 / 3 : ℝ) : EReal)
  ∧ IdealRules.named_const.Statement Cert.KernelIdeal.κ "inv_3" .f32 0x3EAAAAAB#32 ((1 / 3 : ℝ) : EReal)
  ∧ IdealRules.named_const.Statement Cert.KernelIdeal.κ "inv_3" .f32 0x3EAAAAAB#32 ((1 / 3 : ℝ) : EReal)
  ∧ IdealRules.named_const.Statement Cert.KernelIdeal.κ "inv_3" .f32 0x3EAAAAAB#32 ((1 / 3 : ℝ) : EReal)
  ∧ IdealRules.named_const.Statement Cert.KernelIdeal.κ "inv_3" .f32 0x3EAAAAAB#32 ((1 / 3 : ℝ) : EReal)
  ∧ IdealRules.named_const.Statement Cert.KernelIdeal.κ "inv_3" .f32 0x3EAAAAAB#32 ((1 / 3 : ℝ) : EReal)
  ∧ IdealRules.named_const.Statement Cert.KernelIdeal.κ "inv_3" .f32 0x3EAAAAAB#32 ((1 / 3 : ℝ) : EReal)
  ∧ IdealRules.named_const.Statement Cert.KernelIdeal.κ "inv_3" .f32 0x3EAAAAAB#32 ((1 / 3 : ℝ) : EReal)
  ∧ IdealRules.named_const.Statement Cert.KernelIdeal.κ "inv_441" .f32 0x3B149B93#32 ((1 / 441 : ℝ) : EReal)
  ∧ IdealRules.named_const.Statement Cert.KernelIdeal.κ "inv_21" .f32 0x3D430C31#32 ((1 / 21 : ℝ) : EReal)
  ∧ IdealRules.named_const.Statement Cert.KernelIdeal.κ "inv_22" .f32 0x3D3A2E8C#32 ((1 / 22 : ℝ) : EReal)
  ∧ IdealRules.named_const.Statement Cert.KernelIdeal.κ "inv_21" .f32 0x3D430C31#32 ((1 / 21 : ℝ) : EReal)
  ∧ IdealRules.named_const.Statement Cert.KernelIdeal.κ "inv_22" .f32 0x3D3A2E8C#32 ((1 / 22 : ℝ) : EReal)
  ∧ IdealRules.named_const.Statement Cert.KernelIdeal.κ "inv_21" .f32 0x3D430C31#32 ((1 / 21 : ℝ) : EReal)
  ∧ IdealRules.named_const.Statement Cert.KernelIdeal.κ "inv_22" .f32 0x3D3A2E8C#32 ((1 / 22 : ℝ) : EReal)
  ∧ IdealRules.named_const.Statement Cert.KernelIdeal.κ "three_w_cov" .f32 0x3F99999A#32 ((40265319 / 33554432 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x63 : Shape := ⟨2, ![262144, 63]⟩
abbrev S_ : Shape := ⟨0, ![]⟩

class Facts : Prop where
  bcast_S_S262144x63 : S_.BroadcastsInDim S262144x63 (![] : Fin 0 → Fin S262144x63.rank)
  reducesTo_S262144x63_S_d0_1 : S262144x63.ReducesTo [0, 1] S_
  h_S_ : 0 < S_.numel

variable [Facts]

def fn {F : FTy → Type} [FloatOps F] (main_arg0 : FVec F S262144x63 .f32) (main_arg1 : FVec F S262144x63 .f32) : IVec S_ 1 :=
  let main_v0 : FVec F S262144x63 .f32 := Host.absf main_arg0
  let main_cst : FVec F S_ .f32 := constant S_ .f32 0x7F800000#32
  let main_v1 : FVec F S262144x63 .f32 := broadcastInDim S262144x63 ![] bcast_S_S262144x63 main_cst
  let main_v2 : IVec S262144x63 1 := cmpf .olt main_v0 main_v1
  let main_c : IVec S_ 1 := constantI S_ 1 1#1
  let main_v3 : IVec S_ 1 := (fun x v => Host.reduce IntOp.andi x v reducesTo_S262144x63_S_d0_1 h_S_) main_v2 main_c
  let main_v4 : FVec F S262144x63 .f32 := Host.absf main_arg1
  let main_cst_0 : FVec F S_ .f32 := constant S_ .f32 0x7F800000#32
  let main_v5 : FVec F S262144x63 .f32 := broadcastInDim S262144x63 ![] bcast_S_S262144x63 main_cst_0
  let main_v6 : IVec S262144x63 1 := cmpf .olt main_v4 main_v5
  let main_c_1 : IVec S_ 1 := constantI S_ 1 1#1
  let main_v7 : IVec S_ 1 := (fun x v => Host.reduce IntOp.andi x v reducesTo_S262144x63_S_d0_1 h_S_) main_v6 main_c_1
  let main_v8 : IVec S_ 1 := andi main_v3 main_v7
  main_v8
-- ==== Kernel.lean ====
abbrev S262144x63 : Shape := ⟨2, ![262144, 63]⟩
abbrev S16x128 : Shape := ⟨2, ![16, 128]⟩
abbrev S2048x63 : Shape := ⟨2, ![2048, 63]⟩
abbrev S8x128 : Shape := ⟨2, ![8, 128]⟩
abbrev S1x1 : Shape := ⟨2, ![1, 1]⟩
abbrev S63x2048 : Shape := ⟨2, ![63, 2048]⟩
abbrev S3x2048 : Shape := ⟨2, ![3, 2048]⟩
abbrev S1x2048 : Shape := ⟨2, ![1, 2048]⟩
abbrev S21x2048 : Shape := ⟨2, ![21, 2048]⟩
abbrev S2048 : Shape := ⟨1, ![2048]⟩
abbrev S1 : Shape := ⟨1, ![1]⟩
abbrev S_ : Shape := ⟨0, ![]⟩

abbrev nBuf : Space → Nat
  | .hbm => 10
  | .vmem => 7
  | .smem => 0
  | _ => 0

abbrev bufTy : (tb : Table) → Fin (tcTables nBuf tb) → BufTy
  | .hbm, ⟨0, _⟩ => ⟨S262144x63, .f32⟩
  | .hbm, ⟨1, _⟩ => ⟨S262144x63, .f32⟩
  | .hbm, ⟨2, _⟩ => ⟨S16x128, .f32⟩
  | .hbm, ⟨3, _⟩ => ⟨S1x1, .f32⟩
  | .hbm, ⟨4, _⟩ => ⟨S_, .f32⟩
  | .hbm, ⟨5, _⟩ => ⟨S1x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S2048x63, .f32⟩
  | .local _ .vmem, ⟨1, _⟩ => ⟨S2048x63, .f32⟩
  | .local _ .vmem, ⟨2, _⟩ => ⟨S2048x63, .f32⟩
  | .local _ .vmem, ⟨3, _⟩ => ⟨S2048x63, .f32⟩
  | .local _ .vmem, ⟨4, _⟩ => ⟨S8x128, .f32⟩
  | .local _ .vmem, ⟨5, _⟩ => ⟨S8x128, .f32⟩
  | .local _ .vmem, ⟨6, _⟩ => ⟨S1x1, .f32⟩
  | _, _ => ⟨S262144x63, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 64], ![false, false]⟩

def k0_cond2 (i : grid0.Coords) : BitVec 1 :=
  let arg1 : BitVec 32 := BitVec.ofNat 32 (i 1).val
  let c63_i32 : BitVec 32 := 63#32
  let v2277 : BitVec 1 := Scalar.cmpi .eq arg1 c63_i32
  let v2278 : BitVec 32 := Scalar.extui v2277
  let c0_i32_471 : BitVec 32 := 0#32
  let v2279 : BitVec 1 := Scalar.cmpi .ne v2278 c0_i32_471
  v2279

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x63 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x63 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S2048x63_S2048x63_0_0 : ∀ a, (![0, 0] : Fin 2 → Nat) a + S2048x63.size a ≤ S2048x63.size a
  h_S2048x63 : 0 < S2048x63.numel
  transposes_S2048x63_p1_0_S63x2048 : S2048x63.Transposes [1, 0] S63x2048
  slices_S63x2048_o0_0_S3x2048 : S63x2048.Slices ![0, 0] S3x2048
  slices_S3x2048_o0_0_S1x2048 : S3x2048.Slices ![0, 0] S1x2048
  slices_S3x2048_o1_0_S1x2048 : S3x2048.Slices ![1, 0] S1x2048
  slices_S3x2048_o2_0_S1x2048 : S3x2048.Slices ![2, 0] S1x2048
  slices_S63x2048_o3_0_S3x2048 : S63x2048.Slices ![3, 0] S3x2048
  slices_S63x2048_o6_0_S3x2048 : S63x2048.Slices ![6, 0] S3x2048
  slices_S63x2048_o9_0_S3x2048 : S63x2048.Slices ![9, 0] S3x2048
  slices_S63x2048_o12_0_S3x2048 : S63x2048.Slices ![12, 0] S3x2048
  slices_S63x2048_o15_0_S3x2048 : S63x2048.Slices ![15, 0] S3x2048
  slices_S63x2048_o18_0_S3x2048 : S63x2048.Slices ![18, 0] S3x2048
  slices_S63x2048_o21_0_S3x2048 : S63x2048.Slices ![21, 0] S3x2048
  slices_S63x2048_o24_0_S3x2048 : S63x2048.Slices ![24, 0] S3x2048
  slices_S63x2048_o27_0_S3x2048 : S63x2048.Slices ![27, 0] S3x2048
  slices_S63x2048_o30_0_S3x2048 : S63x2048.Slices ![30, 0] S3x2048
  slices_S63x2048_o33_0_S3x2048 : S63x2048.Slices ![33, 0] S3x2048
  slices_S63x2048_o36_0_S3x2048 : S63x2048.Slices ![36, 0] S3x2048
  slices_S63x2048_o39_0_S3x2048 : S63x2048.Slices ![39, 0] S3x2048
  slices_S63x2048_o42_0_S3x2048 : S63x2048.Slices ![42, 0] S3x2048
  slices_S63x2048_o45_0_S3x2048 : S63x2048.Slices ![45, 0] S3x2048
  slices_S63x2048_o48_0_S3x2048 : S63x2048.Slices ![48, 0] S3x2048
  slices_S63x2048_o51_0_S3x2048 : S63x2048.Slices ![51, 0] S3x2048
  slices_S63x2048_o54_0_S3x2048 : S63x2048.Slices ![54, 0] S3x2048
  slices_S63x2048_o57_0_S3x2048 : S63x2048.Slices ![57, 0] S3x2048
  slices_S63x2048_o60_0_S3x2048 : S63x2048.Slices ![60, 0] S3x2048
  concatenates_S1x2048_S1x2048_S1x2048_S1x2048_S1x2048_S1x2048_S1x2048_S1x2048_S1x2048_S1x2048_S1x2048_S1x2048_S1x2048_S1x2048_S1x2048_S1x2048_S1x2048_S1x2048_S1x2048_S1x2048_S1x2048_S21x2048_d0 : Shape.Concatenates [S1x2048, S1x2048, S1x2048, S1x2048, S1x2048, S1x2048, S1x2048, S1x2048, S1x2048, S1x2048, S1x2048, S1x2048, S1x2048, S1x2048, S1x2048, S1x2048, S1x2048, S1x2048, S1x2048, S1x2048, S1x2048] S21x2048 0
  slices_S21x2048_o0_0_S1x2048 : S21x2048.Slices ![0, 0] S1x2048
  broadcasts_S1x2048_S21x2048 : S1x2048.Broadcasts S21x2048
  reduces_S21x2048_S2048 : S21x2048.Reduces [0] S2048
  shapeCasts_S2048_S1x2048 : S2048.ShapeCasts S1x2048
  slices_S21x2048_o1_0_S1x2048 : S21x2048.Slices ![1, 0] S1x2048
  slices_S21x2048_o2_0_S1x2048 : S21x2048.Slices ![2, 0] S1x2048
  slices_S21x2048_o3_0_S1x2048 : S21x2048.Slices ![3, 0] S1x2048
  slices_S21x2048_o4_0_S1x2048 : S21x2048.Slices ![4, 0] S1x2048
  slices_S21x2048_o5_0_S1x2048 : S21x2048.Slices ![5, 0] S1x2048
  slices_S21x2048_o6_0_S1x2048 : S21x2048.Slices ![6, 0] S1x2048
  slices_S21x2048_o7_0_S1x2048 : S21x2048.Slices ![7, 0] S1x2048
  slices_S21x2048_o8_0_S1x2048 : S21x2048.Slices ![8, 0] S1x2048
  slices_S21x2048_o9_0_S1x2048 : S21x2048.Slices ![9, 0] S1x2048
  slices_S21x2048_o10_0_S1x2048 : S21x2048.Slices ![10, 0] S1x2048
  slices_S21x2048_o11_0_S1x2048 : S21x2048.Slices ![11, 0] S1x2048
  slices_S21x2048_o12_0_S1x2048 : S21x2048.Slices ![12, 0] S1x2048
  slices_S21x2048_o13_0_S1x2048 : S21x2048.Slices ![13, 0] S1x2048
  slices_S21x2048_o14_0_S1x2048 : S21x2048.Slices ![14, 0] S1x2048
  slices_S21x2048_o15_0_S1x2048 : S21x2048.Slices ![15, 0] S1x2048
  slices_S21x2048_o16_0_S1x2048 : S21x2048.Slices ![16, 0] S1x2048
  slices_S21x2048_o17_0_S1x2048 : S21x2048.Slices ![17, 0] S1x2048
  slices_S21x2048_o18_0_S1x2048 : S21x2048.Slices ![18, 0] S1x2048
  slices_S21x2048_o19_0_S1x2048 : S21x2048.Slices ![19, 0] S1x2048
  slices_S21x2048_o20_0_S1x2048 : S21x2048.Slices ![20, 0] S1x2048
  reduces_S1x2048_S1 : S1x2048.Reduces [1] S1
  shapeCasts_S1_S1x1 : S1.ShapeCasts S1x1
  broadcasts_S1x1_S8x128 : S1x1.Broadcasts S8x128
  inb_S8x128_S8x128_0_0 : ∀ a, (![0, 0] : Fin 2 → Nat) a + S8x128.size a ≤ S8x128.size a
  h_S8x128 : 0 < S8x128.numel
  slices_S16x128_S1x1_0_0 : S16x128.Slices ![0, 0] S1x1
  shapeCasts_S1x1_S_ : S1x1.ShapeCasts S_
  slices_S16x128_S1x1_8_0 : S16x128.Slices ![8, 0] S1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x63.size a ≤ S262144x63.size a
  hwx0_0 : ∀ i : grid0.Coords, EltTy.bits .f32 = 32 ∨ (Rect.block (s := S262144x63) S2048x63.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x63.size a ≤ S262144x63.size a
  hwx0_1 : ∀ i : grid0.Coords, EltTy.bits .f32 = 32 ∨ (Rect.block (s := S262144x63) S2048x63.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)

variable [Facts₀]

abbrev win0_0 : Pipeline.Window sig grid0 :=
  Pipeline.Window.ofSpec (Memref.whole main_arg0) S2048x63.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x63.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S262144x63 : Shape := ⟨2, ![262144, 63]⟩
abbrev S262144x21x3 : Shape := ⟨3, ![262144, 21, 3]⟩
abbrev S_ : Shape := ⟨0, ![]⟩
abbrev S262144x21 : Shape := ⟨2, ![262144, 21]⟩
abbrev S262144x21x1 : Shape := ⟨3, ![262144, 21, 1]⟩
abbrev S262144x21x21 : Shape := ⟨3, ![262144, 21, 21]⟩
abbrev S262144 : Shape := ⟨1, ![262144]⟩
abbrev S262144x1x1 : Shape := ⟨3, ![262144, 1, 1]⟩
abbrev S262144x3 : Shape := ⟨2, ![262144, 3]⟩
abbrev S262144x1x3 : Shape := ⟨3, ![262144, 1, 3]⟩
abbrev S262144x22x3 : Shape := ⟨3, ![262144, 22, 3]⟩

abbrev nBuf : Space → Nat
  | .hbm => 98
  | .vmem => 0
  | .smem => 0
  | _ => 0

abbrev bufTy : (tb : Table) → Fin (tcTables nBuf tb) → BufTy
  | .hbm, ⟨0, _⟩ => ⟨S262144x63, .f32⟩
  | .hbm, ⟨1, _⟩ => ⟨S262144x63, .f32⟩
  | .hbm, ⟨2, _⟩ => ⟨S262144x21x3, .f32⟩
  | .hbm, ⟨3, _⟩ => ⟨S262144x21x3, .f32⟩
  | .hbm, ⟨4, _⟩ => ⟨S_, .f32⟩
  | .hbm, ⟨5, _⟩ => ⟨S262144x21, .f32⟩
  | .hbm, ⟨6, _⟩ => ⟨S262144x21x1, .f32⟩
  | .hbm, ⟨7, _⟩ => ⟨S_, .f32⟩
  | .hbm, ⟨8, _⟩ => ⟨S262144x21x1, .f32⟩
  | .hbm, ⟨9, _⟩ => ⟨S262144x21x1, .f32⟩
  | .hbm, ⟨10, _⟩ => ⟨S262144x21x3, .f32⟩
  | .hbm, ⟨11, _⟩ => ⟨S262144x21x3, .f32⟩
  | .hbm, ⟨12, _⟩ => ⟨S262144x21x21, .f32⟩
  | .hbm, ⟨13, _⟩ => ⟨S_, .f32⟩
  | .hbm, ⟨14, _⟩ => ⟨S262144x21x21, .f32⟩
  | .hbm, ⟨15, _⟩ => ⟨S262144x21x21, .f32⟩
  | .hbm, ⟨16, _⟩ => ⟨S_, .f32⟩
  | .hbm, ⟨17, _⟩ => ⟨S262144x21, .f32⟩
  | .hbm, ⟨18, _⟩ => ⟨S262144x21x1, .f32⟩
  | .hbm, ⟨19, _⟩ => ⟨S_, .f32⟩
  | .hbm, ⟨20, _⟩ => ⟨S262144x21x1, .f32⟩
  | .hbm, ⟨21, _⟩ => ⟨S262144x21x1, .f32⟩
  | .hbm, ⟨22, _⟩ => ⟨S262144x21x3, .f32⟩
  | .hbm, ⟨23, _⟩ => ⟨S262144x21x3, .f32⟩
  | .hbm, ⟨24, _⟩ => ⟨S262144x21x21, .f32⟩
  | .hbm, ⟨25, _⟩ => ⟨S_, .f32⟩
  | .hbm, ⟨26, _⟩ => ⟨S262144x21x21, .f32⟩
  | .hbm, ⟨27, _⟩ => ⟨S262144x21x21, .f32⟩
  | .hbm, ⟨28, _⟩ => ⟨S262144x21x21, .f32⟩
  | .hbm, ⟨29, _⟩ => ⟨S262144x21x21, .f32⟩
  | .hbm, ⟨30, _⟩ => ⟨S_, .f32⟩
  | .hbm, ⟨31, _⟩ => ⟨S262144x21x21, .f32⟩
  | .hbm, ⟨32, _⟩ => ⟨S262144x21x21, .i1⟩
  | .hbm, ⟨33, _⟩ => ⟨S_, .f32⟩
  | .hbm, ⟨34, _⟩ => ⟨S262144x21x21, .f32⟩
  | .hbm, ⟨35, _⟩ => ⟨S262144x21x21, .f32⟩
  | .hbm, ⟨36, _⟩ => ⟨S262144x21x21, .f32⟩
  | .hbm, ⟨37, _⟩ => ⟨S_, .f32⟩
  | .hbm, ⟨38, _⟩ => ⟨S262144x21x21, .f32⟩
  | .hbm, ⟨39, _⟩ => ⟨S262144x21x21, .f32⟩
  | .hbm, ⟨40, _⟩ => ⟨S_, .f32⟩
  | .hbm, ⟨41, _⟩ => ⟨S262144x21x21, .f32⟩
  | .hbm, ⟨42, _⟩ => ⟨S262144x21x21, .f32⟩
  | .hbm, ⟨43, _⟩ => ⟨S262144x21x21, .f32⟩
  | .hbm, ⟨44, _⟩ => ⟨S_, .f32⟩
  | .hbm, ⟨45, _⟩ => ⟨S262144, .f32⟩
  | .hbm, ⟨46, _⟩ => ⟨S262144x1x1, .f32⟩
  | .hbm, ⟨47, _⟩ => ⟨S_, .f32⟩
  | .hbm, ⟨48, _⟩ => ⟨S262144x1x1, .f32⟩
  | .hbm, ⟨49, _⟩ => ⟨S262144x1x1, .f32⟩
  | .hbm, ⟨50, _⟩ => ⟨S_, .f32⟩
  | .hbm, ⟨51, _⟩ => ⟨S262144x3, .f32⟩
  | .hbm, ⟨52, _⟩ => ⟨S262144x1x3, .f32⟩
  | .hbm, ⟨53, _⟩ => ⟨S_, .f32⟩
  | .hbm, ⟨54, _⟩ => ⟨S262144x1x3, .f32⟩
  | .hbm, ⟨55, _⟩ => ⟨S262144x1x3, .f32⟩
  | .hbm, ⟨56, _⟩ => ⟨S_, .f32⟩
  | .hbm, ⟨57, _⟩ => ⟨S262144x3, .f32⟩
  | .hbm, ⟨58, _⟩ => ⟨S262144x1x3, .f32⟩
  | .hbm, ⟨59, _⟩ => ⟨S_, .f32⟩
  | .hbm, ⟨60, _⟩ => ⟨S262144x1x3, .f32⟩
  | .hbm, ⟨61, _⟩ => ⟨S262144x1x3, .f32⟩
  | .hbm, ⟨62, _⟩ => ⟨S262144x22x3, .f32⟩
  | .hbm, ⟨63, _⟩ => ⟨S262144x22x3, .f32⟩
  | .hbm, ⟨64, _⟩ => ⟨S262144x22x3, .f32⟩
  | .hbm, ⟨65, _⟩ => ⟨S262144x22x3, .f32⟩
  | .hbm, ⟨66, _⟩ => ⟨S_, .f32⟩
  | .hbm, ⟨67, _⟩ => ⟨S262144x22x3, .f32⟩
  | .hbm, ⟨68, _⟩ => ⟨S262144x22x3, .i1⟩
  | .hbm, ⟨69, _⟩ => ⟨S_, .f32⟩
  | .hbm, ⟨70, _⟩ => ⟨S262144x22x3, .f32⟩
  | .hbm, ⟨71, _⟩ => ⟨S262144x22x3, .f32⟩
  | .hbm, ⟨72, _⟩ => ⟨S262144x22x3, .f32⟩
  | .hbm, ⟨73, _⟩ => ⟨S_, .f32⟩
  | .hbm, ⟨74, _⟩ => ⟨S262144x22x3, .f32⟩
  | .hbm, ⟨75, _⟩ => ⟨S262144x22x3, .f32⟩
  | .hbm, ⟨76, _⟩ => ⟨S_, .f32⟩
  | .hbm, ⟨77, _⟩ => ⟨S262144x22x3, .f32⟩
  | .hbm, ⟨78, _⟩ => ⟨S262144x22x3, .f32⟩
  | .hbm, ⟨79, _⟩ => ⟨S262144x22x3, .f32⟩
  | .hbm, ⟨80, _⟩ => ⟨S_, .f32⟩
  | .hbm, ⟨81, _⟩ => ⟨S262144x3, .f32⟩
  | .hbm, ⟨82, _⟩ => ⟨S262144x1x3, .f32⟩
  | .hbm, ⟨83, _⟩ => ⟨S_, .f32⟩
  | .hbm, ⟨84, _⟩ => ⟨S262144x1x3, .f32⟩
  | .hbm, ⟨85, _⟩ => ⟨S262144x1x3, .f32⟩
  | .hbm, ⟨86, _⟩ => ⟨S_, .f32⟩
  | .hbm, ⟨87, _⟩ => ⟨S262144x1x3, .f32⟩
  | .hbm, ⟨88, _⟩ => ⟨S262144x1x3, .f32⟩
  | .hbm, ⟨89, _⟩ => ⟨S_, .f32⟩
  | .hbm, ⟨90, _⟩ => ⟨S262144x1x1, .f32⟩
  | .hbm, ⟨91, _⟩ => ⟨S262144x1x1, .f32⟩
  | .hbm, ⟨92, _⟩ => ⟨S262144x1x3, .f32⟩
  | .hbm, ⟨93, _⟩ => ⟨S262144x1x3, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | _, _ => ⟨S262144x63, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_5 : Ref sig .tc := ⟨.hbm, 30, rfl⟩
abbrev main_v22 : Ref sig .tc := ⟨.hbm, 31, rfl⟩
abbrev main_v23 : Ref sig .tc := ⟨.hbm, 32, rfl⟩
abbrev main_cst_6 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_7 : Ref sig .tc := ⟨.hbm, 37, rfl⟩
abbrev main_v27 : Ref sig .tc := ⟨.hbm, 38, rfl⟩
abbrev main_v28 : Ref sig .tc := ⟨.hbm, 39, rfl⟩
abbrev main_cst_8 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_9 : Ref sig .tc := ⟨.hbm, 44, rfl⟩
abbrev main_v32 : Ref sig .tc := ⟨.hbm, 45, rfl⟩
abbrev main_v33 : Ref sig .tc := ⟨.hbm, 46, rfl⟩
abbrev main_cst_10 : Ref sig .tc := ⟨.hbm, 47, rfl⟩
abbrev main_v34 : Ref sig .tc := ⟨.hbm, 48, rfl⟩
abbrev main_v35 : Ref sig .tc := ⟨.hbm, 49, rfl⟩
abbrev main_cst_11 : Ref sig .tc := ⟨.hbm, 50, rfl⟩
abbrev main_v36 : Ref sig .tc := ⟨.hbm, 51, rfl⟩
abbrev main_v37 : Ref sig .tc := ⟨.hbm, 52, rfl⟩
abbrev main_cst_12 : Ref sig .tc := ⟨.hbm, 53, rfl⟩
abbrev main_v38 : Ref sig .tc := ⟨.hbm, 54, rfl⟩
abbrev main_v39 : Ref sig .tc := ⟨.hbm, 55, rfl⟩
abbrev main_cst_13 : Ref sig .tc := ⟨.hbm, 56, rfl⟩
abbrev main_v40 : Ref sig .tc := ⟨.hbm, 57, rfl⟩
abbrev main_v41 : Ref sig .tc := ⟨.hbm, 58, rfl⟩
abbrev main_cst_14 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_15 : Ref sig .tc := ⟨.hbm, 66, rfl⟩
abbrev main_v48 : Ref sig .tc := ⟨.hbm, 67, rfl⟩
abbrev main_v49 : Ref sig .tc := ⟨.hbm, 68, rfl⟩
abbrev main_cst_16 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_17 : Ref sig .tc := ⟨.hbm, 73, rfl⟩
abbrev main_v53 : Ref sig .tc := ⟨.hbm, 74, rfl⟩
abbrev main_v54 : Ref sig .tc := ⟨.hbm, 75, rfl⟩
abbrev main_cst_18 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_19 : Ref sig .tc := ⟨.hbm, 80, rfl⟩
abbrev main_v58 : Ref sig .tc := ⟨.hbm, 81, rfl⟩
abbrev main_v59 : Ref sig .tc := ⟨.hbm, 82, rfl⟩
abbrev main_cst_20 : Ref sig .tc := ⟨.hbm, 83, rfl⟩
abbrev main_v60 : Ref sig .tc := ⟨.hbm, 84, rfl⟩
abbrev main_v61 : Ref sig .tc := ⟨.hbm, 85, rfl⟩
abbrev main_cst_21 : Ref sig .tc := ⟨.hbm, 86, rfl⟩
abbrev main_v62 : Ref sig .tc := ⟨.hbm, 87, rfl⟩
abbrev main_v63 : Ref sig .tc := ⟨.hbm, 88, rfl⟩
abbrev main_cst_22 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_23 : Ref sig .tc := ⟨.hbm, 94, rfl⟩
abbrev main_v68 : Ref sig .tc := ⟨.hbm, 95, rfl⟩
abbrev main_cst_24 : Ref sig .tc := ⟨.hbm, 96, rfl⟩
abbrev main_v69 : Ref sig .tc := ⟨.hbm, 97, rfl⟩

abbrev nD : Nat := 1
abbrev τ : Topo := Topo.v7x

variable {F : FTy → Type} [FloatOps F]

class Facts₀ : Prop where
  shapeCasts_S262144x63_S262144x21x3 : S262144x63.ShapeCasts S262144x21x3
  reducesTo_S262144x21x3_S262144x21_d2 : S262144x21x3.ReducesTo [2] S262144x21
  h_S_ : 0 < S_.numel
  bcast_S262144x21_S262144x21x1_0_1 : S262144x21.BroadcastsInDim S262144x21x1 (![0, 1] : Fin 2 → Fin S262144x21x1.rank)
  bcast_S_S262144x21x1 : S_.BroadcastsInDim S262144x21x1 (![] : Fin 0 → Fin S262144x21x1.rank)
  bcast_S262144x21x1_S262144x21x3_0_1_2 : S262144x21x1.BroadcastsInDim S262144x21x3 (![0, 1, 2] : Fin 3 → Fin S262144x21x3.rank)
  bcast_S_S262144x21x21 : S_.BroadcastsInDim S262144x21x21 (![] : Fin 0 → Fin S262144x21x21.rank)
  reducesTo_S262144x21x21_S262144_d1_2 : S262144x21x21.ReducesTo [1, 2] S262144
  bcast_S262144_S262144x1x1_0 : S262144.BroadcastsInDim S262144x1x1 (![0] : Fin 1 → Fin S262144x1x1.rank)
  bcast_S_S262144x1x1 : S_.BroadcastsInDim S262144x1x1 (![] : Fin 0 → Fin S262144x1x1.rank)
  reducesTo_S262144x21x3_S262144x3_d1 : S262144x21x3.ReducesTo [1] S262144x3
  bcast_S262144x3_S262144x1x3_0_2 : S262144x3.BroadcastsInDim S262144x1x3 (![0, 2] : Fin 2 → Fin S262144x1x3.rank)
  bcast_S_S262144x1x3 : S_.BroadcastsInDim S262144x1x3 (![] : Fin 0 → Fin S262144x1x3.rank)
  concatenates_S262144x21x3_S262144x1x3_S262144x22x3_d1 : Shape.Concatenates [S262144x21x3, S262144x1x3] S262144x22x3 1
  bcast_S_S262144x22x3 : S_.BroadcastsInDim S262144x22x3 (![] : Fin 0 → Fin S262144x22x3.rank)
  reducesTo_S262144x22x3_S262144x3_d1 : S262144x22x3.ReducesTo [1] S262144x3
  bcast_S262144x1x1_S262144x1x3_0_1_2 : S262144x1x1.BroadcastsInDim S262144x1x3 (![0, 1, 2] : Fin 3 → Fin S262144x1x3.rank)
  reducesTo_S262144x1x3_S_d0_1_2 : S262144x1x3.ReducesTo [0, 1, 2] S_
  dot_S262144x21x3_S262144x21x3_S262144x21x21_2_2_1_1_0_0_wf : DotDims.WF S262144x21x3 S262144x21x3 S262144x21x21 [2] [2] [1] [1] [0] [0]

variable [Facts₀]

def dot_S262144x21x3_S262144x21x3_S262144x21x21_2_2_1_1_0_0 : DotDims S262144x21x3 S262144x21x3 S262144x21x21 where
  lhsContracting := [2]
  rhsContracting := [2]
  lhsNonContracting := [1]
  rhsNonContracting := [1]
  lhsBatch := [0]
  rhsBatch := [0]
  wf := dot_S262144x21x3_S262144x21x3_S262144x21x21_2_2_1_1_0_0_wf

class Facts : Prop extends Facts₀ where

variable [Facts]
-- ==== Proof.RefRead.lean ====
/-
  The reference program read back: its run, and each host operation of it read at an index
  (both generated modules), re-exported for the modules that compare it with the kernel.
-/
import proofs.«427709_j26388279067065_4_alg».proof.Proof.Gen.ReferenceIdeal.Run
import proofs.«427709_j26388279067065_4_alg».proof.Proof.Gen.ReferenceIdeal.Read
-- ==== Proof.Spec.lean ====
/-
  One sample of the loss, as a function of its two rows of 63 numbers (21 joints, 3 coordinates each;
  entry 3k + c is coordinate c of joint k), written twice.

  The first form groups the work by sample: each joint's coordinates are centred on their mean, the
  21 × 21 matrix of half inner products of centred joints is compared between the two rows entry by
  entry through the wing function, and the 441 values are averaged; per coordinate, the wing of the
  mean difference and the 21 wings of the joint differences are averaged over 22; the three
  coordinate averages are added and weighted, and the matrix average enters once with a weight that
  stands for three equal contributions.

  The second form is the same quantity per coordinate: the weighted coordinate average plus the
  weighted matrix average, the latter repeated for each of the three coordinates, means taken as
  quotients and the mean difference as a difference of means.

  The wing function is only ever applied to an absolute value, so it is defined here with the
  absolute value inside: below ten, ten times log(1 + |x| / 2); from ten on, |x| minus a constant.
-/
import Idealize.ShloMosaic.PureOps.Ideal
import Idealize.ShloMosaic.PureOps.Ideal.Laws
import Idealize.ShloMosaic.Lib.ValueIdx

noncomputable section

namespace Cert.JointLoss

open Idealize.ShloMosaic

/-- A row of 63 extended reals. -/
abbrev Row := Fin 63 → EReal

/-- Column of coordinate c of joint k. -/
def jc (k : Fin 21) (c : Fin 3) : Fin 63 := ⟨3 * k.val + c.val, by omega⟩

/-- The wing function of |x|: 10 · log(1 + |x| / 2) below 10, |x| + 7.9175949 from 10 on (the literals as printed). -/
def wing (x : EReal) : EReal :=
  Scalar.select (Ideal.cmp .olt (max x (-x)) (Ideal.ofBits .f32 0x41200000#32))
    (Ideal.ofBits .f32 0x41200000#32 * Ideal.log1p (Ideal.div (max x (-x)) (Ideal.ofBits .f32 0x40000000#32)))
    (max x (-x) - Ideal.ofBits .f32 0xC0FD5CF0#32)

/-! ## Grouped by sample -/

/-- Mean of joint k's three coordinates, as a product with 1/3. -/
def meanK (a : Row) (k : Fin 21) : EReal := (a (jc k 0) + a (jc k 1) + a (jc k 2)) * ((1 / 3 : ℝ) : EReal)

/-- Coordinate c of joint k, centred. -/
def cenK (a : Row) (k : Fin 21) (c : Fin 3) : EReal := a (jc k c) - meanK a k

/-- Half the inner product of centred joints i and k. -/
def covK (a : Row) (i k : Fin 21) : EReal :=
  (cenK a i 0 * cenK a k 0 + cenK a i 1 * cenK a k 1 + cenK a i 2 * cenK a k 2) * Ideal.ofBits .f32 0x3F000000#32

/-- Row i of the matrix comparison, summed over its 21 entries. -/
def rowK (a b : Row) (i : Fin 21) : EReal := ∑ k : Fin 21, wing (covK a i k - covK b i k)

/-- The matrix comparison averaged over its 441 entries. -/
def covLossK (a b : Row) : EReal := (∑ i : Fin 21, rowK a b i) * ((1 / 441 : ℝ) : EReal)

/-- Difference of the two rows at coordinate c of joint k. -/
def dif (a b : Row) (c : Fin 3) (k : Fin 21) : EReal := a (jc k c) - b (jc k c)

/-- Mean over the joints of the coordinate-c differences. -/
def centreK (a b : Row) (c : Fin 3) : EReal := (∑ k : Fin 21, dif a b c k) * ((1 / 21 : ℝ) : EReal)

/-- Coordinate c's average of 22 wings. -/
def lossK (a b : Row) (c : Fin 3) : EReal :=
  (wing (centreK a b c) + ∑ k : Fin 21, wing (dif a b c k)) * ((1 / 22 : ℝ) : EReal)

/-- One sample, grouped: 0.6 · (the three coordinate averages) + (3 · 0.4, as named) · the matrix average. -/
def combK (a b : Row) : EReal :=
  Ideal.ofBits .f32 0x3F19999A#32 * (lossK a b 0 + lossK a b 1 + lossK a b 2)
    + ((40265319 / 33554432 : ℝ) : EReal) * covLossK a b

/-! ## Per coordinate, means as quotients -/

/-- Mean of joint k's three coordinates, as a quotient by 3 of the sum started at zero. -/
def meanR (a : Row) (k : Fin 21) : EReal :=
  Ideal.div (Ideal.ofBits .f32 0x00000000#32 + ∑ c : Fin 3, a (jc k c)) (Ideal.ofBits .f32 0x40400000#32)

def cenR (a : Row) (k : Fin 21) (c : Fin 3) : EReal := a (jc k c) - meanR a k

/-- Inner product of centred joints i and k, over 2. -/
def covR (a : Row) (i k : Fin 21) : EReal :=
  Ideal.div (∑ c : Fin 3, cenR a i c * cenR a k c) (Ideal.ofBits .f32 0x40000000#32)

/-- The matrix comparison averaged: the sum over both matrix axes, started at zero, over 441. -/
def covLossR (a b : Row) : EReal :=
  Ideal.div (Ideal.ofBits .f32 0x00000000#32 + ∑ i : Fin 21, ∑ k : Fin 21, wing (covR a i k - covR b i k))
    (Ideal.ofBits .f32 0x43DC8000#32)

/-- Mean over the joints of coordinate c, as a quotient by 21. -/
def centreR (a : Row) (c : Fin 3) : EReal :=
  Ideal.div (Ideal.ofBits .f32 0x00000000#32 + ∑ k : Fin 21, a (jc k c)) (Ideal.ofBits .f32 0x41A80000#32)

/-- Entry k of the 22 points of coordinate c: the 21 joints, then the mean. -/
def pts (a : Row) (c : Fin 3) (k : Fin 22) : EReal :=
  if h : k.val < 21 then a (jc ⟨k.val, h⟩ c) else centreR a c

/-- Coordinate c's average of 22 wings, as a quotient by 22. -/
def lossR (a b : Row) (c : Fin 3) : EReal :=
  Ideal.div (Ideal.ofBits .f32 0x00000000#32 + ∑ k : Fin 22, wing (pts a c k - pts b c k)) (Ideal.ofBits .f32 0x41B00000#32)

/-- Coordinate c's term: 0.6 · its average + 0.4 · the matrix average. -/
def termR (a b : Row) (c : Fin 3) : EReal :=
  Ideal.ofBits .f32 0x3F19999A#32 * lossR a b c + Ideal.ofBits .f32 0x3ECCCCCD#32 * covLossR a b

/-! ## Rows of an array -/

/-- Row r of an [n, 63] array. -/
def rowAt {n : ℕ} (x : (⟨2, ![n, 63]⟩ : Shape).Idx → EReal) (r : Fin n) : Row := fun j => x (ValueIdx.ix2 r j)

end Cert.JointLoss

end
-- ==== Proof.RefValue.lean ====
/-
  The reference program's result as one formula of its two argument arrays: the sum over all samples
  and coordinates of the coordinate term of the sample's two rows, started at zero, over 786432.

  Each stage of the reference is read at an index (sample r, joint or point k, coordinate c) as the
  corresponding quantity of the sample's two rows: the centred coordinates, the half inner products,
  the wing of their difference, the matrix average; the coordinate means, the 22 points, the wing of
  their difference, the coordinate average; the coordinate term. The last stage sums the terms over
  every sample and coordinate and divides.
-/
import proofs.«427709_j26388279067065_4_alg».proof.Proof.RefRead
import proofs.«427709_j26388279067065_4_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Read Cert.JointLoss Idealize.ShloMosaic Idealize.ShloMosaic.ValueIdx

/-- An argument array: 262144 rows of 63 extended reals. -/
abbrev Arr := (⟨S262144x63, .f32⟩ : BufTy).Contents (Elt Ideal)

/-! ## Indices -/

/-- Two rank-3 indices with equal coordinates are equal. -/
theorem ext3 {n0 n1 n2 : Nat} (i j : (⟨3, ![n0, n1, n2]⟩ : Shape).Idx)
    (h0 : i 0 = j 0) (h1 : i 1 = j 1) (h2 : i 2 = j 2) : i = j := by
  funext a; match a with | ⟨0, _⟩ => exact h0 | ⟨1, _⟩ => exact h1 | ⟨2, _⟩ => exact h2

/-- Two rank-2 indices with equal coordinates are equal. -/
theorem ext2 {n0 n1 : Nat} (i j : (⟨2, ![n0, n1]⟩ : Shape).Idx)
    (h0 : i 0 = j 0) (h1 : i 1 = j 1) : i = j := by
  funext a; match a with | ⟨0, _⟩ => exact h0 | ⟨1, _⟩ => exact h1

/-- Entry (r, k, c) of the [262144, 21, 3] view is entry (r, 3k + c) of the array:
    ((21 r + k) · 3 + c) / 63 = r and ((21 r + k) · 3 + c) mod 63 = 3k + c. -/
theorem idx_v0 (r : Fin 262144) (k : Fin 21) (c : Fin 3) :
    idx_main_v0 (ix3 r k c) = ix2 r (jc k c) := by
  refine ext2 _ _ (Fin.ext ?_) (Fin.ext ?_)
  · show ((r.val * 21 + k.val) * 3 + c.val) / 63 = r.val
    have := k.isLt; have := c.isLt; omega
  · show ((r.val * 21 + k.val) * 3 + c.val) % 63 = 3 * k.val + c.val
    have := k.isLt; have := c.isLt; omega

/-! ## The first array's half inner products -/

theorem v0_at (x0 : Arr) (r : Fin 262144) (k : Fin 21) (c : Fin 3) :
    val_main_v0 (F := Ideal) x0 (ix3 r k c) = rowAt x0 r (jc k c) := by
  rw [val_main_v0_apply, idx_v0]; rfl

theorem v1_at (x1 : Arr) (r : Fin 262144) (k : Fin 21) (c : Fin 3) :
    val_main_v1 (F := Ideal) x1 (ix3 r k c) = rowAt x1 r (jc k c) := by
  rw [val_main_v1_apply]
  have : idx_main_v1 (ix3 r k c) = ix2 r (jc k c) := idx_v0 r k c
  rw [this]; rfl

theorem v2_at (x0 : Arr) (r : Fin 262144) (k : Fin 21) :
    val_main_v2 (F := Ideal) x0 (ix2 r k) = Ideal.ofBits .f32 0x00000000#32 + ∑ c : Fin 3, rowAt x0 r (jc k c) := by
  rw [val_main_v2_apply]
  refine congrArg₂ (· + ·) rfl (Finset.sum_congr rfl fun c _ => ?_)
  rw [show idx_main_v2 (ix2 r k) c = ix3 r k c from ext3 _ _ rfl rfl rfl, v0_at]

theorem v5_at (x0 : Arr) (r : Fin 262144) (k : Fin 21) (z : Fin 1) :
    val_main_v5 (F := Ideal) x0 (ix3 r k z) = meanR (rowAt x0 r) k := by
  rw [val_main_v5_apply, val_main_v3_apply, val_main_v4_apply,
    show idx_main_v3 (ix3 r k z) = ix2 r k from ext2 _ _ rfl rfl, v2_at]
  rfl

theorem v7_at (x0 : Arr) (r : Fin 262144) (k : Fin 21) (c : Fin 3) :
    val_main_v7 (F := Ideal) x0 (ix3 r k c) = cenR (rowAt x0 r) k c := by
  rw [val_main_v7_apply, val_main_v6_apply, v0_at,
    show idx_main_v6 (ix3 r k c) = ix3 r k (0 : Fin 1) from ext3 _ _ rfl rfl rfl, v5_at]
  rfl

theorem v10_at (x0 : Arr) (r : Fin 262144) (i k : Fin 21) :
    val_main_v10 (F := Ideal) x0 (ix3 r i k) = covR (rowAt x0 r) i k := by
  rw [val_main_v10_apply, val_main_v8_apply, val_main_v9_apply]
  have h : ∀ c : Fin 3, val_main_v7 (F := Ideal) x0 (lidx_main_v8 (ix3 r i k) c) * val_main_v7 (F := Ideal) x0 (ridx_main_v8 (ix3 r i k) c)
      = cenR (rowAt x0 r) i c * cenR (rowAt x0 r) k c := fun c => by
    rw [show lidx_main_v8 (ix3 r i k) c = ix3 r i c from ext3 _ _ rfl rfl rfl,
      show ridx_main_v8 (ix3 r i k) c = ix3 r k c from ext3 _ _ rfl rfl rfl, v7_at, v7_at]
  rw [Finset.sum_congr rfl fun c _ => h c]
  rfl

/-! ## The second array's half inner products -/

theorem v11_at (x1 : Arr) (r : Fin 262144) (k : Fin 21) :
    val_main_v11 (F := Ideal) x1 (ix2 r k) = Ideal.ofBits .f32 0x00000000#32 + ∑ c : Fin 3, rowAt x1 r (jc k c) := by
  rw [val_main_v11_apply]
  refine congrArg₂ (· + ·) rfl (Finset.sum_congr rfl fun c _ => ?_)
  rw [show idx_main_v11 (ix2 r k) c = ix3 r k c from ext3 _ _ rfl rfl rfl, v1_at]

theorem v14_at (x1 : Arr) (r : Fin 262144) (k : Fin 21) (z : Fin 1) :
    val_main_v14 (F := Ideal) x1 (ix3 r k z) = meanR (rowAt x1 r) k := by
  rw [val_main_v14_apply, val_main_v12_apply, val_main_v13_apply,
    show idx_main_v12 (ix3 r k z) = ix2 r k from ext2 _ _ rfl rfl, v11_at]
  rfl

theorem v16_at (x1 : Arr) (r : Fin 262144) (k : Fin 21) (c : Fin 3) :
    val_main_v16 (F := Ideal) x1 (ix3 r k c) = cenR (rowAt x1 r) k c := by
  rw [val_main_v16_apply, val_main_v15_apply, v1_at,
    show idx_main_v15 (ix3 r k c) = ix3 r k (0 : Fin 1) from ext3 _ _ rfl rfl rfl, v14_at]
  rfl

theorem v19_at (x1 : Arr) (r : Fin 262144) (i k : Fin 21) :
    val_main_v19 (F := Ideal) x1 (ix3 r i k) = covR (rowAt x1 r) i k := by
  rw [val_main_v19_apply, val_main_v17_apply, val_main_v18_apply]
  have h : ∀ c : Fin 3, val_main_v16 (F := Ideal) x1 (lidx_main_v17 (ix3 r i k) c) * val_main_v16 (F := Ideal) x1 (ridx_main_v17 (ix3 r i k) c)
      = cenR (rowAt x1 r) i c * cenR (rowAt x1 r) k c := fun c => by
    rw [show lidx_main_v17 (ix3 r i k) c = ix3 r i c from ext3 _ _ rfl rfl rfl,
      show ridx_main_v17 (ix3 r i k) c = ix3 r k c from ext3 _ _ rfl rfl rfl, v16_at, v16_at]
  rw [Finset.sum_congr rfl fun c _ => h c]
  rfl

/-! ## The matrix comparison -/

theorem v21_at (x0 x1 : Arr) (r : Fin 262144) (i k : Fin 21) :
    val_main_v21 (F := Ideal) x0 x1 (ix3 r i k)
      = max (covR (rowAt x0 r) i k - covR (rowAt x1 r) i k) (-(covR (rowAt x0 r) i k - covR (rowAt x1 r) i k)) := by
  rw [val_main_v21_apply, val_main_v20_apply, v10_at, v19_at]
  rfl

theorem v31_at (x0 x1 : Arr) (r : Fin 262144) (i k : Fin 21) :
    val_main_v31 (F := Ideal) x0 x1 (ix3 r i k) = wing (covR (rowAt x0 r) i k - covR (rowAt x1 r) i k) := by
  rw [val_main_v31_apply, val_main_v23_apply, val_main_v28_apply, val_main_v30_apply, val_main_v26_apply,
    val_main_v25_apply, val_main_v22_apply, val_main_v24_apply, val_main_v27_apply, val_main_v29_apply, v21_at]
  rfl

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The host's float sum of a rank-3 array over its last two axes, at sample r: the initial value plus the double sum. -/
theorem hostReduceAdd_12 {n a b : Nat} (h : (⟨3, ![n, a, b]⟩ : Shape).ReducesTo [1, 2] ⟨1, ![n]⟩)
    (x : (⟨3, ![n, a, b]⟩ : Shape).Idx → EReal) (init : EReal) (r : Fin n) :
    Ideal.hostReduceAdd h x init (ix1 r) = init + ∑ i : Fin a, ∑ k : Fin b, x (ix3 r i k) := by
  classical
  unfold Ideal.hostReduceAdd
  have hd : ∀ (r' : Fin n) (i : Fin a) (k : Fin b), h.drop (ix3 r' i k) = ix1 r ↔ r' = r := by
    intro r' i k
    have hv : (h.drop (ix3 r' i k) 0 : Nat) = r'.val := Shape.ReducesTo.drop_apply_val h _ 0
    constructor
    · intro e; rw [e] at hv; exact Fin.ext hv.symm
    · intro e; funext d; obtain rfl : d = 0 := Subsingleton.elim _ _; exact Fin.ext (by rw [hv, e]; rfl)
  rw [Finset.sum_filter, sum_idx3]
  simp only [hd]
  rw [Finset.sum_eq_single r]
  · simp
  · intro r' _ hne; simp [hne]
  · intro hh; exact absurd (Finset.mem_univ r) hh

theorem v32_at (x0 x1 : Arr) (r : Fin 262144) :
    val_main_v32 (F := Ideal) x0 x1 (ix1 r)
      = Ideal.ofBits .f32 0x00000000#32 + ∑ i : Fin 21, ∑ k : Fin 21, wing (covR (rowAt x0 r) i k - covR (rowAt x1 r) i k) := by
  unfold val_main_v32
  simp only [Host.reduceAdd, Ideal.hostReduceAdd_def]
  rw [hostReduceAdd_12]
  refine congrArg₂ (· + ·) rfl (Finset.sum_congr rfl fun i _ => Finset.sum_congr rfl fun k _ => ?_)
  exact v31_at x0 x1 r i k

theorem v35_at (x0 x1 : Arr) (r : Fin 262144) (z z' : Fin 1) :
    val_main_v35 (F := Ideal) x0 x1 (ix3 r z z') = covLossR (rowAt x0 r) (rowAt x1 r) := by
  rw [val_main_v35_apply, val_main_v33_apply, val_main_v34_apply,
    show idx_main_v33 (ix3 r z z') = ix1 r from (funext fun d => by match d with | ⟨0, _⟩ => rfl), v32_at]
  rfl

/-! ## The 22 points of a coordinate -/

theorem v36_at (x0 : Arr) (r : Fin 262144) (c : Fin 3) :
    val_main_v36 (F := Ideal) x0 (ix2 r c) = Ideal.ofBits .f32 0x00000000#32 + ∑ k : Fin 21, rowAt x0 r (jc k c) := by
  rw [val_main_v36_apply]
  refine congrArg₂ (· + ·) rfl (Finset.sum_congr rfl fun k _ => ?_)
  rw [show idx_main_v36 (ix2 r c) k = ix3 r k c from ext3 _ _ rfl rfl rfl, v0_at]

theorem v39_at (x0 : Arr) (r : Fin 262144) (z : Fin 1) (c : Fin 3) :
    val_main_v39 (F := Ideal) x0 (ix3 r z c) = centreR (rowAt x0 r) c := by
  rw [val_main_v39_apply, val_main_v37_apply, val_main_v38_apply,
    show idx_main_v37 (ix3 r z c) = ix2 r c from ext2 _ _ rfl rfl, v36_at]
  rfl

theorem v40_at (x1 : Arr) (r : Fin 262144) (c : Fin 3) :
    val_main_v40 (F := Ideal) x1 (ix2 r c) = Ideal.ofBits .f32 0x00000000#32 + ∑ k : Fin 21, rowAt x1 r (jc k c) := by
  rw [val_main_v40_apply]
  refine congrArg₂ (· + ·) rfl (Finset.sum_congr rfl fun k _ => ?_)
  rw [show idx_main_v40 (ix2 r c) k = ix3 r k c from ext3 _ _ rfl rfl rfl, v1_at]

theorem v43_at (x1 : Arr) (r : Fin 262144) (z : Fin 1) (c : Fin 3) :
    val_main_v43 (F := Ideal) x1 (ix3 r z c) = centreR (rowAt x1 r) c := by
  rw [val_main_v43_apply, val_main_v41_apply, val_main_v42_apply,
    show idx_main_v41 (ix3 r z c) = ix2 r c from ext2 _ _ rfl rfl, v40_at]
  rfl

/-- Joining a [n, 21, 3] array and a [n, 1, 3] array along the middle axis: entry k below 21 is the first array's,
    entry 21 the second's. -/
theorem concat_at (y : S262144x21x3.Idx → EReal) (w : S262144x1x3.Idx → EReal)
    (r : Fin 262144) (k : Fin 22) (c : Fin 3) :
    concatenate S262144x22x3 1 [⟨S262144x21x3, y⟩, ⟨S262144x1x3, w⟩] Gen.concatenates_S262144x21x3_S262144x1x3_S262144x22x3_d1 (ix3 r k c)
      = if h : k.val < 21 then y (ix3 r ⟨k.val, h⟩ c) else w (ix3 r (0 : Fin 1) c) := by
  by_cases h : k.val < 21
  · rw [dif_pos h]
    exact concatenate_pair_apply_left 1 y w _ (ix3 r k c) rfl (ix3 r ⟨k.val, h⟩ c)
      (fun b => by match b with | ⟨0, _⟩ => rfl | ⟨1, _⟩ => rfl | ⟨2, _⟩ => rfl)
  · rw [dif_neg h]
    refine concatenate_pair_apply_right 1 y w _ (ix3 r k c) rfl rfl (ix3 r (0 : Fin 1) c)
      (fun b hb => by
        match b with
        | ⟨0, _⟩ => rfl
        | ⟨1, _⟩ => exact absurd rfl hb
        | ⟨2, _⟩ => rfl) ?_
    show 0 + 21 = k.val
    have := k.isLt; omega

theorem v44_at (x0 : Arr) (r : Fin 262144) (k : Fin 22) (c : Fin 3) :
    val_main_v44 (F := Ideal) x0 (ix3 r k c) = pts (rowAt x0 r) c k := by
  unfold val_main_v44
  rw [concat_at]
  unfold pts
  by_cases h : k.val < 21
  · rw [dif_pos h, dif_pos h, v0_at]
  · rw [dif_neg h, dif_neg h, v39_at]

theorem v45_at (x1 : Arr) (r : Fin 262144) (k : Fin 22) (c : Fin 3) :
    val_main_v45 (F := Ideal) x1 (ix3 r k c) = pts (rowAt x1 r) c k := by
  unfold val_main_v45
  rw [concat_at]
  unfold pts
  by_cases h : k.val < 21
  · rw [dif_pos h, dif_pos h, v1_at]
  · rw [dif_neg h, dif_neg h, v43_at]

theorem v47_at (x0 x1 : Arr) (r : Fin 262144) (k : Fin 22) (c : Fin 3) :
    val_main_v47 (F := Ideal) x0 x1 (ix3 r k c)
      = max (pts (rowAt x0 r) c k - pts (rowAt x1 r) c k) (-(pts (rowAt x0 r) c k - pts (rowAt x1 r) c k)) := by
  rw [val_main_v47_apply, val_main_v46_apply, v44_at, v45_at]
  rfl

theorem v57_at (x0 x1 : Arr) (r : Fin 262144) (k : Fin 22) (c : Fin 3) :
    val_main_v57 (F := Ideal) x0 x1 (ix3 r k c) = wing (pts (rowAt x0 r) c k - pts (rowAt x1 r) c k) := by
  rw [val_main_v57_apply, val_main_v49_apply, val_main_v54_apply, val_main_v56_apply, val_main_v52_apply,
    val_main_v51_apply, val_main_v48_apply, val_main_v50_apply, val_main_v53_apply, val_main_v55_apply, v47_at]
  rfl

theorem v58_at (x0 x1 : Arr) (r : Fin 262144) (c : Fin 3) :
    val_main_v58 (F := Ideal) x0 x1 (ix2 r c)
      = Ideal.ofBits .f32 0x00000000#32 + ∑ k : Fin 22, wing (pts (rowAt x0 r) c k - pts (rowAt x1 r) c k) := by
  rw [val_main_v58_apply]
  refine congrArg₂ (· + ·) rfl (Finset.sum_congr rfl fun k _ => ?_)
  rw [show idx_main_v58 (ix2 r c) k = ix3 r k c from ext3 _ _ rfl rfl rfl, v57_at]

theorem v61_at (x0 x1 : Arr) (r : Fin 262144) (z : Fin 1) (c : Fin 3) :
    val_main_v61 (F := Ideal) x0 x1 (ix3 r z c) = lossR (rowAt x0 r) (rowAt x1 r) c := by
  rw [val_main_v61_apply, val_main_v59_apply, val_main_v60_apply,
    show idx_main_v59 (ix3 r z c) = ix2 r c from ext2 _ _ rfl rfl, v58_at]
  rfl

/-! ## The coordinate term and the total -/

theorem v67_at (x0 x1 : Arr) (r : Fin 262144) (z : Fin 1) (c : Fin 3) :
    val_main_v67 (F := Ideal) x0 x1 (ix3 r z c) = termR (rowAt x0 r) (rowAt x1 r) c := by
  rw [val_main_v67_apply, val_main_v63_apply, val_main_v66_apply, val_main_v65_apply, val_main_v62_apply,
    val_main_v64_apply, v61_at,
    show idx_main_v66 (ix3 r z c) = ix3 r (0 : Fin 1) (0 : Fin 1) from ext3 _ _ rfl rfl rfl, v35_at]
  rfl

/-- The reference's result at Ideal. -/
theorem ref_value (x0 x1 : (⟨S262144x63, .f32⟩ : BufTy).Contents (Elt Ideal)) (i : S_.Idx) :
    val_main_v69 (F := Ideal) x0 x1 i
      = Ideal.div (Ideal.ofBits .f32 0x00000000#32
          + ∑ r : Fin 262144, ∑ c : Fin 3, termR (rowAt x0 r) (rowAt x1 r) c) (Ideal.ofBits .f32 0x49400000#32) := by
  rw [val_main_v69_apply, val_main_v68_apply, sum_idx3]
  have h : ∀ r : Fin 262144, ∑ z : Fin 1, ∑ c : Fin 3, val_main_v67 (F := Ideal) x0 x1 (ix3 r z c)
      = ∑ c : Fin 3, termR (rowAt x0 r) (rowAt x1 r) c := fun r => by
    rw [Fin.sum_univ_one]
    exact Finset.sum_congr rfl fun c _ => v67_at x0 x1 r 0 c
  rw [Finset.sum_congr rfl fun r _ => h r]
  rfl

end Cert.ReferenceIdeal.RefValue

end
-- ==== Proof.SampleEq.lean ====
/-
  On rows of real numbers the three coordinate terms of a sample add up to its grouped form.
-/
import proofs.«427709_j26388279067065_4_alg».proof.Proof.Spec

noncomputable section

namespace Cert.JointLoss

open Idealize.ShloMosaic

/-! ## The literals as real numbers -/

theorem lit3 : Ideal.ofBits .f32 0x40400000#32 = ((3 : ℝ) : EReal) := by
  simp [Ideal.ofBits, Ideal.ieee]; rw [← EReal.coe_mul, EReal.coe_eq_coe_iff]; norm_num

theorem lit2 : Ideal.ofBits .f32 0x40000000#32 = ((2 : ℝ) : EReal) := by
  simp [Ideal.ofBits, Ideal.ieee]; rw [← EReal.coe_mul, EReal.coe_eq_coe_iff]; norm_num

theorem litHalf : Ideal.ofBits .f32 0x3F000000#32 = ((1 / 2 : ℝ) : EReal) := by
  simp [Ideal.ofBits, Ideal.ieee]; rw [← EReal.coe_mul, EReal.coe_eq_coe_iff]; norm_num

theorem lit441 : Ideal.ofBits .f32 0x43DC8000#32 = ((441 : ℝ) : EReal) := by
  simp [Ideal.ofBits, Ideal.ieee]; rw [← EReal.coe_mul, EReal.coe_eq_coe_iff]; norm_num

theorem lit21 : Ideal.ofBits .f32 0x41A80000#32 = ((21 : ℝ) : EReal) := by
  simp [Ideal.ofBits, Ideal.ieee]; rw [← EReal.coe_mul, EReal.coe_eq_coe_iff]; norm_num

theorem lit22 : Ideal.ofBits .f32 0x41B00000#32 = ((22 : ℝ) : EReal) := by
  simp [Ideal.ofBits, Ideal.ieee]; rw [← EReal.coe_mul, EReal.coe_eq_coe_iff]; norm_num

theorem lit10 : Ideal.ofBits .f32 0x41200000#32 = ((10 : ℝ) : EReal) := by
  simp [Ideal.ofBits, Ideal.ieee]; rw [← EReal.coe_mul, EReal.coe_eq_coe_iff]; norm_num

/-- The wing's offset constant is some real number. -/
theorem litC : ∃ r : ℝ, Ideal.ofBits .f32 0xC0FD5CF0#32 = (r : EReal) := by
  simp [Ideal.ofBits, Ideal.ieee]
  exact ⟨_, by rw [← EReal.coe_mul, ← EReal.coe_neg]⟩

/-- The weight 0.6 is some real number. -/
theorem lit06 : ∃ r : ℝ, Ideal.ofBits .f32 0x3F19999A#32 = (r : EReal) := by
  simp [Ideal.ofBits, Ideal.ieee]
  exact ⟨_, by rw [← EReal.coe_mul]⟩

theorem lit04 : Ideal.ofBits .f32 0x3ECCCCCD#32 = ((13421773 / 33554432 : ℝ) : EReal) := by
  simp [Ideal.ofBits, Ideal.ieee]; rw [← EReal.coe_mul, EReal.coe_eq_coe_iff]; norm_num

/-! ## Sums of real numbers -/

/-- The coercion of a finite sum of reals is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-! ## The matrix part: equal on all extended reals -/

theorem meanR_eq (a : Row) (k : Fin 21) : meanR a k = meanK a k := by
  unfold meanR meanK
  rw [lit3, Ideal.div_coe (by norm_num), Ideal.ofBits_zero_f32, zero_add, Fin.sum_univ_three]

theorem cenR_eq (a : Row) (k : Fin 21) (c : Fin 3) : cenR a k c = cenK a k c := by
  unfold cenR cenK
  rw [meanR_eq]

theorem covR_eq (a : Row) (i k : Fin 21) : covR a i k = covK a i k := by
  unfold covR covK
  rw [lit2, Ideal.div_coe (by norm_num), litHalf, Fin.sum_univ_three]
  simp only [cenR_eq]

theorem covLossR_eq (a b : Row) : covLossR a b = covLossK a b := by
  unfold covLossR covLossK rowK
  rw [lit441, Ideal.div_coe (by norm_num), Ideal.ofBits_zero_f32, zero_add]
  simp only [covR_eq]

/-! ## The wing of a real number is a real number -/

theorem wing_real (r : ℝ) : ∃ s : ℝ, wing (r : EReal) = (s : EReal) := by
  have hmax : max (r : EReal) (-(r : EReal)) = ((|r| : ℝ) : EReal) := by
    rw [← EReal.coe_neg, ← EReal.coe_strictMono.monotone.map_max]; rfl
  obtain ⟨c, hc⟩ := litC
  unfold wing
  rw [hmax, lit10, lit2, hc]
  unfold Scalar.select
  split_ifs
  · rw [Ideal.div_coe (by norm_num), ← EReal.coe_mul]
    unfold Ideal.log1p
    have h1 : (1 : EReal) = ((1 : ℝ) : EReal) := rfl
    rw [h1, ← EReal.coe_add, Ideal.log_coe]
    have hpos : ¬ (1 + |r| * (1 / 2) ≤ 0) := by
      have := abs_nonneg r
      linarith
    rw [if_neg hpos, ← EReal.coe_mul]
    exact ⟨_, rfl⟩
  · exact ⟨|r| - c, by rw [EReal.coe_sub]⟩

/-! ## Quantities that are real numbers -/

/-- An extended real that is the coercion of a real number. -/
def IsReal (x : EReal) : Prop := ∃ r : ℝ, x = (r : EReal)

theorem IsReal.coe (r : ℝ) : IsReal (r : EReal) := ⟨r, rfl⟩

theorem IsReal.add {x y : EReal} (hx : IsReal x) (hy : IsReal y) : IsReal (x + y) := by
  obtain ⟨p, rfl⟩ := hx; obtain ⟨q, rfl⟩ := hy; exact ⟨p + q, (EReal.coe_add p q).symm⟩

theorem IsReal.sub {x y : EReal} (hx : IsReal x) (hy : IsReal y) : IsReal (x - y) := by
  obtain ⟨p, rfl⟩ := hx; obtain ⟨q, rfl⟩ := hy; exact ⟨p - q, (EReal.coe_sub p q).symm⟩

theorem IsReal.mul {x y : EReal} (hx : IsReal x) (hy : IsReal y) : IsReal (x * y) := by
  obtain ⟨p, rfl⟩ := hx; obtain ⟨q, rfl⟩ := hy; exact ⟨p * q, (EReal.coe_mul p q).symm⟩

theorem IsReal.sum {ι : Type} (s : Finset ι) {f : ι → EReal} (h : ∀ i, IsReal (f i)) :
    IsReal (∑ i ∈ s, f i) := by
  choose g hg using h
  exact ⟨∑ i ∈ s, g i, by rw [coe_sum]; exact Finset.sum_congr rfl fun i _ => hg i⟩

theorem IsReal.wing {x : EReal} (hx : IsReal x) : IsReal (wing x) := by
  obtain ⟨r, rfl⟩ := hx; exact wing_real r

section Rows

variable (a b : Row) (ha : ∀ j, ∃ r : ℝ, a j = (r : EReal)) (hb : ∀ j, ∃ r : ℝ, b j = (r : EReal))

include ha in
theorem meanK_real (k : Fin 21) : IsReal (meanK a k) := by
  have h : ∀ j, IsReal (a j) := ha
  exact (((h _).add (h _)).add (h _)).mul (IsReal.coe _)

include ha in
theorem cenK_real (k : Fin 21) (c : Fin 3) : IsReal (cenK a k c) :=
  IsReal.sub (ha _) (meanK_real a ha k)

include ha in
theorem covK_real (i k : Fin 21) : IsReal (covK a i k) := by
  unfold covK
  rw [litHalf]
  have h := cenK_real a ha
  exact ((((h i 0).mul (h k 0)).add ((h i 1).mul (h k 1))).add ((h i 2).mul (h k 2))).mul (IsReal.coe _)

include ha hb in
theorem covLossK_real : IsReal (covLossK a b) := by
  unfold covLossK rowK
  exact (IsReal.sum _ fun i => IsReal.sum _ fun k =>
    ((covK_real a ha i k).sub (covK_real b hb i k)).wing).mul (IsReal.coe _)

include ha hb in
theorem dif_real (c : Fin 3) (k : Fin 21) : IsReal (dif a b c k) := IsReal.sub (ha _) (hb _)

include ha hb in
theorem centreK_real (c : Fin 3) : IsReal (centreK a b c) :=
  (IsReal.sum _ fun k => dif_real a b ha hb c k).mul (IsReal.coe _)

include ha hb in
theorem lossK_real (c : Fin 3) : IsReal (lossK a b c) :=
  ((centreK_real a b ha hb c).wing.add (IsReal.sum _ fun k => (dif_real a b ha hb c k).wing)).mul
    (IsReal.coe _)

/-! ## The coordinate part: equal on rows of reals -/

include ha hb in
/-- The difference of the two means is the mean of the differences. -/
theorem centre_eq (c : Fin 3) : centreR a c - centreR b c = centreK a b c := by
  choose ra hra using ha
  choose rb hrb using hb
  unfold centreR centreK dif
  rw [lit21, Ideal.div_coe (by norm_num), Ideal.div_coe (by norm_num), Ideal.ofBits_zero_f32,
    zero_add, zero_add]
  simp only [hra, hrb]
  simp only [← EReal.coe_sub, ← coe_sum, ← EReal.coe_mul]
  rw [EReal.coe_eq_coe_iff, Finset.sum_sub_distrib]
  ring

theorem pts_castSucc (c : Fin 3) (k : Fin 21) : pts a c k.castSucc = a (jc k c) := by
  unfold pts
  rw [dif_pos (show k.castSucc.val < 21 from k.isLt)]
  rfl

theorem pts_last (c : Fin 3) : pts a c (Fin.last 21) = centreR a c := by
  unfold pts
  rw [dif_neg (by simp)]

include ha hb in
theorem lossR_eq (c : Fin 3) : lossR a b c = lossK a b c := by
  unfold lossR lossK
  rw [lit22, Ideal.div_coe (by norm_num), Ideal.ofBits_zero_f32, zero_add, Fin.sum_univ_castSucc]
  simp only [pts_castSucc, pts_last]
  rw [centre_eq a b ha hb c, add_comm]
  rfl

end Rows

/-- On rows of real numbers the three coordinate terms add up to the grouped form. -/
theorem sample_eq (a b : Row) (ha : ∀ j, ∃ r : ℝ, a j = (r : EReal)) (hb : ∀ j, ∃ r : ℝ, b j = (r : EReal)) :
    ∑ c : Fin 3, termR a b c = combK a b := by
  obtain ⟨w, hw⟩ := lit06
  choose l hl using lossK_real a b ha hb
  obtain ⟨v, hv⟩ := covLossK_real a b ha hb
  rw [Fin.sum_univ_three]
  unfold termR combK
  simp only [lossR_eq a b ha hb, covLossR_eq, hl, hv, hw, lit04]
  simp only [← EReal.coe_mul, ← EReal.coe_add]
  rw [EReal.coe_eq_coe_iff]
  ring

end Cert.JointLoss

end
-- ==== Proof.Finite.lean ====
/-
  From the printed precondition to real entries. The precondition says, for each of the two arrays, that
  every entry's absolute value max x (-x) is strictly below +∞ (the f32 word 0x7F800000), reduced by "and" over
  both axes. An extended real whose absolute value is below ⊤ is neither ⊤ nor ⊥, so it is a real number.
-/
import proofs.«427709_j26388279067065_4_alg».proof.Pre_finite_inputs
import Idealize.ShloMosaic.Lib.ReduceAll
import Idealize.ShloMosaic.Lib.IdealHost
import Mathlib.Data.EReal.Basic

namespace Cert.JointLoss

open Idealize.ShloMosaic

/-- The f32 word `0x7F800000` is `+∞`. -/
private theorem ofBits_inf : Ideal.ofBits .f32 0x7F800000#32 = (⊤ : EReal) := by
  simp [Ideal.ofBits, Ideal.ieee]

/-- An extended real whose absolute value is below `⊤` is a real number. -/
private theorem real_of_abs_lt_top (x : EReal) (h : max x (-x) < ⊤) : ∃ r : ℝ, x = (r : EReal) := by
  induction x using EReal.rec with
  | bot => simp at h
  | coe r => exact ⟨r, rfl⟩
  | top => simp at h

/-- A comparison word of the ideal instance that is 1 says the strict inequality. -/
private theorem lt_of_cmp_olt {x y : EReal} (h : Ideal.cmp .olt x y = 1#1) : x < y := by
  unfold Ideal.cmp at h
  by_contra hn
  simp [hn] at h

private instance : Subsingleton Cert.Pre_finite_inputs.S_.Idx := ⟨fun a b => funext fun d => d.elim0⟩

variable [Cert.Pre_finite_inputs.Facts]

theorem real_of_pre (x0 x1 : FVec Ideal Cert.Pre_finite_inputs.S262144x63 .f32)
    (h : Cert.Pre_finite_inputs.fn (F := Ideal) x0 x1 = fun _ => 1#1) :
    (∀ i, ∃ r : ℝ, x0 i = (r : EReal)) ∧ (∀ i, ∃ r : ℝ, x1 i = (r : EReal)) := by
  have h0 := congrFun h ValueIdx.ix0
  dsimp only [Cert.Pre_finite_inputs.fn] at h0
  obtain ⟨ha, hb⟩ := IntOp.andi_eq_one.1 h0
  refine ⟨fun i => ?_, fun i => ?_⟩
  · have e := Host.reduce_andi_all _ _ _ _ _ ha i
    refine real_of_abs_lt_top _ ?_
    have := lt_of_cmp_olt e
    rwa [ValueIdx.broadcastInDim_scalar_apply, show constant (F := Ideal) Cert.Pre_finite_inputs.S_ .f32 0x7F800000#32 ValueIdx.ix0 = Ideal.ofBits .f32 0x7F800000#32 from rfl, ofBits_inf] at this
  · have e := Host.reduce_andi_all _ _ _ _ _ hb i
    refine real_of_abs_lt_top _ ?_
    have := lt_of_cmp_olt e
    rwa [ValueIdx.broadcastInDim_scalar_apply, show constant (F := Ideal) Cert.Pre_finite_inputs.S_ .f32 0x7F800000#32 ValueIdx.ix0 = Ideal.ofBits .f32 0x7F800000#32 from rfl, ofBits_inf] at this

end Cert.JointLoss
-- ==== Proof.LibLaneOps.lean ====
/-
  Arrays of shape [k, w] whose last axis indexes independent samples ("lanes"): the layout
  operations a kernel body applies to them, each read at one entry.  A block of rows is the
  operand's rows shifted by the offset; a sum over the row axis at lane l is the sum of column
  l; a sum over the lane axis at row r is the sum of row r; a stack of one-row arrays read at
  row k is piece k's only row.  Nothing here mentions a program.
-/
import Idealize.ShloMosaic.Lib.Pipeline.Value
import Idealize.ShloMosaic.Lib.ValueIdx
import Idealize.ShloMosaic.Lib.ValueLayout
import Idealize.ShloMosaic.PureOps.Ideal.Laws

noncomputable section

namespace Cert.LaneOps

open Idealize.ShloMosaic Idealize.ShloMosaic.ValueIdx

variable {α : Type}

/-- Rows o, o+1, … of an [n, w] array: entry (r, l) of the slice is entry (o + r, l) of the operand. -/
theorem slice_rows_apply {n s w : ℕ} (o : ℕ) (x : (⟨2, ![n, w]⟩ : Shape).Idx → α)
    (h : (⟨2, ![n, w]⟩ : Shape).Slices ![o, 0] ⟨2, ![s, w]⟩) (r : Fin s) (l : Fin w) :
    extractStridedSlice ⟨2, ![s, w]⟩ ![o, 0] x h (ix2 r l)
      = x (ix2 ⟨o + r.val, Nat.lt_of_lt_of_le (Nat.add_lt_add_left r.isLt o) (h.2 0)⟩ l) :=
  extractStridedSlice_apply _ x h _ _ fun a => match a with
    | ⟨0, _⟩ => rfl
    | ⟨1, _⟩ => (Nat.zero_add _).symm

section AtIdeal
variable {φ : FTy}

/-- The source index over lane l with row k put back is (k, l). -/
theorem lift_rows {n w : ℕ} (h : (⟨2, ![n, w]⟩ : Shape).Reduces [0] ⟨1, ![w]⟩) (l : Fin w) (k : Fin n) :
    h.lift (ix1 l) k = ix2 k l := by
  funext c
  apply Fin.ext
  show h.liftVal (ix1 l) k.val c = (ix2 k l c).val
  unfold Shape.Reduces.liftVal
  match c with
  | ⟨0, _⟩ =>
    show (if _hc : (0 : ℕ) = 0 then k.val else _) = k.val
    rw [dif_pos rfl]
  | ⟨1, _⟩ =>
    show (if _hc : (1 : ℕ) = 0 then k.val else if _hlt : (1 : ℕ) < 0 then _ else l.val) = l.val
    rw [dif_neg Nat.one_ne_zero, dif_neg (Nat.not_lt_zero 1)]

/-- A sum over the row axis, at lane l: the sum of column l. -/
theorem sum_rows_apply {n w : ℕ} (src : FVec Ideal ⟨2, ![n, w]⟩ φ) (acc : BitVec φ.bits)
    (h : (⟨2, ![n, w]⟩ : Shape).Reduces [0] ⟨1, ![w]⟩) (hφ : FKind.Formats φ) (hacc : acc = FKind.add.neutral φ hφ)
    (l : Fin w) :
    multiReduction .add [0] ⟨1, ![w]⟩ src acc h hφ hacc (ix1 l) = ∑ k : Fin n, src (ix2 k l) := by
  rw [Ideal.multiReduction_add_single src acc h hφ hacc (ix1 l)]
  exact Finset.sum_congr rfl fun k _ => congrArg src (lift_rows h l k)

/-- The source index over row r with lane l put back is (r, l). -/
theorem lift_lanes {n w : ℕ} (h : (⟨2, ![n, w]⟩ : Shape).Reduces [1] ⟨1, ![n]⟩) (r : Fin n) (l : Fin w) :
    h.lift (ix1 r) l = ix2 r l := by
  funext c
  apply Fin.ext
  show h.liftVal (ix1 r) l.val c = (ix2 r l c).val
  unfold Shape.Reduces.liftVal
  match c with
  | ⟨0, _⟩ =>
    show (if _hc : (0 : ℕ) = 1 then l.val else if _hlt : (0 : ℕ) < 1 then r.val else _) = r.val
    rw [dif_neg Nat.zero_ne_one, dif_pos Nat.zero_lt_one]
  | ⟨1, _⟩ =>
    show (if _hc : (1 : ℕ) = 1 then l.val else _) = l.val
    rw [dif_pos rfl]

/-- A sum over the lane axis, at row r: the sum of row r. -/
theorem sum_lanes_apply {n w : ℕ} (src : FVec Ideal ⟨2, ![n, w]⟩ φ) (acc : BitVec φ.bits)
    (h : (⟨2, ![n, w]⟩ : Shape).Reduces [1] ⟨1, ![n]⟩) (hφ : FKind.Formats φ) (hacc : acc = FKind.add.neutral φ hφ)
    (r : Fin n) :
    multiReduction .add [1] ⟨1, ![n]⟩ src acc h hφ hacc (ix1 r) = ∑ l : Fin w, src (ix2 r l) := by
  rw [Ideal.multiReduction_add_single src acc h hφ hacc (ix1 r)]
  exact Finset.sum_congr rfl fun l _ => congrArg src (lift_lanes h r l)

/-- The exact sum over the row axis, at lane l: the sum of column l. -/
theorem reduceAdd_rows_apply {n w : ℕ} (src : (⟨2, ![n, w]⟩ : Shape).Idx → EReal)
    (h : (⟨2, ![n, w]⟩ : Shape).Reduces [0] ⟨1, ![w]⟩) (l : Fin w) :
    Ideal.reduceAdd h src (ix1 l) = ∑ k : Fin n, src (ix2 k l) := by
  rw [Ideal.reduceAdd_single h src (ix1 l)]
  exact Finset.sum_congr rfl fun k _ => congrArg src (lift_rows h l k)

/-- The exact sum over the lane axis, at row r: the sum of row r. -/
theorem reduceAdd_lanes_apply {n w : ℕ} (src : (⟨2, ![n, w]⟩ : Shape).Idx → EReal)
    (h : (⟨2, ![n, w]⟩ : Shape).Reduces [1] ⟨1, ![n]⟩) (r : Fin n) :
    Ideal.reduceAdd h src (ix1 r) = ∑ l : Fin w, src (ix2 r l) := by
  rw [Ideal.reduceAdd_single h src (ix1 r)]
  exact Finset.sum_congr rfl fun l _ => congrArg src (lift_lanes h r l)

end AtIdeal

/-- N one-row arrays stacked along the row axis: row k of the stack is piece k's row. -/
theorem stack_rows_apply {N w : ℕ} (f : Fin N → ((⟨2, ![1, w]⟩ : Shape).Idx → α))
    (h : Shape.Concatenates ((List.ofFn fun n : Fin N => ((⟨⟨2, ![1, w]⟩, f n⟩ : (s : Shape) × (s.Idx → α)))).map (·.1)) ⟨2, ![N, w]⟩ 0)
    (k : Fin N) (l : Fin w) :
    concatenate ⟨2, ![N, w]⟩ 0 (List.ofFn fun n : Fin N => ((⟨⟨2, ![1, w]⟩, f n⟩ : (s : Shape) × (s.Idx → α)))) h (ix2 k l)
      = f k (ix2 (0 : Fin 1) l) := by
  refine concatenate_ofFn_unit_apply (t := ⟨2, ![N, w]⟩) (s₁ := ⟨2, ![1, w]⟩) (0 : Fin 2) f h rfl rfl
    (ix2 k l) k rfl (ix2 (0 : Fin 1) l) fun b hb => ?_
  match b with
  | ⟨0, _⟩ => exact absurd rfl hb
  | ⟨1, _⟩ => rfl

/-- A sum over 21 indices written out, first index first. -/
theorem sum21 {M : Type} [AddCommMonoid M] (f : Fin 21 → M) :
    ∑ k : Fin 21, f k = f 0 + f 1 + f 2 + f 3 + f 4 + f 5 + f 6 + f 7 + f 8 + f 9 + f 10 + f 11 + f 12 + f 13 + f 14 + f 15 + f 16 + f 17 + f 18 + f 19 + f 20 := by
  simp only [Fin.sum_univ_castSucc, Fin.sum_univ_zero, zero_add]
  rfl

end Cert.LaneOps

end
-- ==== Proof.KBase.lean ====
/-
  What every reading of the kernel body at one lane uses: the five named constants at their exact
  values, the pointwise operations and the two transposes read at an entry, and the scalar form of
  the wing chain folded into the one function it is.
-/
import proofs.«427709_j26388279067065_4_alg».proof.Proof.Gen.KernelIdeal.Frame
import proofs.«427709_j26388279067065_4_alg».proof.Proof.LibLaneOps
import proofs.«427709_j26388279067065_4_alg».proof.Proof.Spec

set_option maxRecDepth 16384

noncomputable section

namespace Cert.KernelIdeal.Gen

open Idealize.ShloMosaic Idealize.ShloMosaic.ValueIdx Cert.LaneOps Cert.JointLoss

/-! ## The named constants -/

theorem named_inv3 : Named.named (F := Ideal) Cert.KernelIdeal.κ "inv_3" (φ := .f32) 0x3EAAAAAB#32 = ((1 / 3 : ℝ) : EReal) :=
  IdealRules.named_const.ideal_named_scalar _ _ _ _ rfl
theorem named_inv441 : Named.named (F := Ideal) Cert.KernelIdeal.κ "inv_441" (φ := .f32) 0x3B149B93#32 = ((1 / 441 : ℝ) : EReal) :=
  IdealRules.named_const.ideal_named_scalar _ _ _ _ rfl
theorem named_inv21 : Named.named (F := Ideal) Cert.KernelIdeal.κ "inv_21" (φ := .f32) 0x3D430C31#32 = ((1 / 21 : ℝ) : EReal) :=
  IdealRules.named_const.ideal_named_scalar _ _ _ _ rfl
theorem named_inv22 : Named.named (F := Ideal) Cert.KernelIdeal.κ "inv_22" (φ := .f32) 0x3D3A2E8C#32 = ((1 / 22 : ℝ) : EReal) :=
  IdealRules.named_const.ideal_named_scalar _ _ _ _ rfl
theorem named_three_w_cov :
    Named.named (F := Ideal) Cert.KernelIdeal.κ "three_w_cov" (φ := .f32) 0x3F99999A#32 = ((40265319 / 33554432 : ℝ) : EReal) :=
  IdealRules.named_const.ideal_named_scalar _ _ _ _ rfl

/-! ## Operations at an entry -/

theorem hz2 : (![0, 0] : Fin 2 → Nat) = fun _ => 0 := funext fun a => by fin_cases a <;> rfl

/-- A whole input block loaded from its staging buffer is the block. -/
theorem load_block (a : Memref sig .tc .vmem S2048x63 .f32) (ha : a.IsWhole) (x : Vec Ideal S2048x63 .f32) :
    View.readAt (Elt Ideal) a.view (Rect.unit (s := S2048x63) ![0, 0] S2048x63.size inb_S2048x63_S2048x63_0_0).toLoadRect (ha.unread x) = x := by
  simp only [View.readAt_eq_ld, ha.read_unread, View.ld_unit_zero (S := S2048x63) hz2]

theorem absf_apply' {s : Shape} {φ : FTy} (a : FVec Ideal s φ) (i : s.Idx) : absf a i = max (a i) (-(a i)) := rfl
theorem log1p_apply' {s : Shape} {φ : FTy} (a : FVec Ideal s φ) (i : s.Idx) : log1p a i = Ideal.log1p (a i) := rfl

/-- The transposed block at (column j, lane l) is the block at (l, j). -/
theorem tr0 (perm : List (Fin S2048x63.rank)) (h : S2048x63.Transposes perm S63x2048) (hp : perm = [1, 0])
    (x : S2048x63.Idx → EReal) (j : Fin 63) (l : Fin 2048) :
    transpose S63x2048 perm x h (ix2 j l) = x (ix2 l j) := by
  subst hp
  exact transpose_ix2_apply x h j l

/-- The sum over the 21 rows, at lane l. -/
theorem colsum21 (src : S21x2048.Idx → EReal) (l : Fin 2048) :
    Ideal.reduceAdd reduces_S21x2048_S2048 src (ix1 l) = ∑ k : Fin 21, src (ix2 k l) :=
  reduceAdd_rows_apply src _ l

/-- The sum over the 2048 lanes of a one-row array. -/
theorem lanesum1 (src : S1x2048.Idx → EReal) (r : Fin 1) :
    Ideal.reduceAdd reduces_S1x2048_S1 src (ix1 r) = ∑ l : Fin 2048, src (ix2 r l) :=
  reduceAdd_lanes_apply src _ r

/-- The 21 one-row pieces stacked: row k of the stack is piece k's row. -/
theorem stack21 (p0 p1 p2 p3 p4 p5 p6 p7 p8 p9 p10 p11 p12 p13 p14 p15 p16 p17 p18 p19 p20 : S1x2048.Idx → EReal)
    (h : Shape.Concatenates [S1x2048, S1x2048, S1x2048, S1x2048, S1x2048, S1x2048, S1x2048, S1x2048, S1x2048, S1x2048, S1x2048, S1x2048, S1x2048, S1x2048, S1x2048, S1x2048, S1x2048, S1x2048, S1x2048, S1x2048, S1x2048] S21x2048 0) (k : Fin 21) (l : Fin 2048) :
    concatenate S21x2048 0 [⟨S1x2048, p0⟩, ⟨S1x2048, p1⟩, ⟨S1x2048, p2⟩, ⟨S1x2048, p3⟩, ⟨S1x2048, p4⟩, ⟨S1x2048, p5⟩, ⟨S1x2048, p6⟩, ⟨S1x2048, p7⟩, ⟨S1x2048, p8⟩, ⟨S1x2048, p9⟩, ⟨S1x2048, p10⟩, ⟨S1x2048, p11⟩, ⟨S1x2048, p12⟩, ⟨S1x2048, p13⟩, ⟨S1x2048, p14⟩, ⟨S1x2048, p15⟩, ⟨S1x2048, p16⟩, ⟨S1x2048, p17⟩, ⟨S1x2048, p18⟩, ⟨S1x2048, p19⟩, ⟨S1x2048, p20⟩] h (ix2 k l)
      = (![p0, p1, p2, p3, p4, p5, p6, p7, p8, p9, p10, p11, p12, p13, p14, p15, p16, p17, p18, p19, p20] : Fin 21 → S1x2048.Idx → EReal) k (ix2 0 l) :=
  stack_rows_apply (N := 21) (w := 2048) ![p0, p1, p2, p3, p4, p5, p6, p7, p8, p9, p10, p11, p12, p13, p14, p15, p16, p17, p18, p19, p20] h k l

/-! The 21-entry vector at row n, the row given by its number. -/
theorem vec21_0 {β : Type} (p0 p1 p2 p3 p4 p5 p6 p7 p8 p9 p10 p11 p12 p13 p14 p15 p16 p17 p18 p19 p20 : β) (h : 0 < 21) : (![p0, p1, p2, p3, p4, p5, p6, p7, p8, p9, p10, p11, p12, p13, p14, p15, p16, p17, p18, p19, p20] : Fin 21 → β) ⟨0, h⟩ = p0 := rfl
theorem vec21_1 {β : Type} (p0 p1 p2 p3 p4 p5 p6 p7 p8 p9 p10 p11 p12 p13 p14 p15 p16 p17 p18 p19 p20 : β) (h : 1 < 21) : (![p0, p1, p2, p3, p4, p5, p6, p7, p8, p9, p10, p11, p12, p13, p14, p15, p16, p17, p18, p19, p20] : Fin 21 → β) ⟨1, h⟩ = p1 := rfl
theorem vec21_2 {β : Type} (p0 p1 p2 p3 p4 p5 p6 p7 p8 p9 p10 p11 p12 p13 p14 p15 p16 p17 p18 p19 p20 : β) (h : 2 < 21) : (![p0, p1, p2, p3, p4, p5, p6, p7, p8, p9, p10, p11, p12, p13, p14, p15, p16, p17, p18, p19, p20] : Fin 21 → β) ⟨2, h⟩ = p2 := rfl
theorem vec21_3 {β : Type} (p0 p1 p2 p3 p4 p5 p6 p7 p8 p9 p10 p11 p12 p13 p14 p15 p16 p17 p18 p19 p20 : β) (h : 3 < 21) : (![p0, p1, p2, p3, p4, p5, p6, p7, p8, p9, p10, p11, p12, p13, p14, p15, p16, p17, p18, p19, p20] : Fin 21 → β) ⟨3, h⟩ = p3 := rfl
theorem vec21_4 {β : Type} (p0 p1 p2 p3 p4 p5 p6 p7 p8 p9 p10 p11 p12 p13 p14 p15 p16 p17 p18 p19 p20 : β) (h : 4 < 21) : (![p0, p1, p2, p3, p4, p5, p6, p7, p8, p9, p10, p11, p12, p13, p14, p15, p16, p17, p18, p19, p20] : Fin 21 → β) ⟨4, h⟩ = p4 := rfl
theorem vec21_5 {β : Type} (p0 p1 p2 p3 p4 p5 p6 p7 p8 p9 p10 p11 p12 p13 p14 p15 p16 p17 p18 p19 p20 : β) (h : 5 < 21) : (![p0, p1, p2, p3, p4, p5, p6, p7, p8, p9, p10, p11, p12, p13, p14, p15, p16, p17, p18, p19, p20] : Fin 21 → β) ⟨5, h⟩ = p5 := rfl
theorem vec21_6 {β : Type} (p0 p1 p2 p3 p4 p5 p6 p7 p8 p9 p10 p11 p12 p13 p14 p15 p16 p17 p18 p19 p20 : β) (h : 6 < 21) : (![p0, p1, p2, p3, p4, p5, p6, p7, p8, p9, p10, p11, p12, p13, p14, p15, p16, p17, p18, p19, p20] : Fin 21 → β) ⟨6, h⟩ = p6 := rfl
theorem vec21_7 {β : Type} (p0 p1 p2 p3 p4 p5 p6 p7 p8 p9 p10 p11 p12 p13 p14 p15 p16 p17 p18 p19 p20 : β) (h : 7 < 21) : (![p0, p1, p2, p3, p4, p5, p6, p7, p8, p9, p10, p11, p12, p13, p14, p15, p16, p17, p18, p19, p20] : Fin 21 → β) ⟨7, h⟩ = p7 := rfl
theorem vec21_8 {β : Type} (p0 p1 p2 p3 p4 p5 p6 p7 p8 p9 p10 p11 p12 p13 p14 p15 p16 p17 p18 p19 p20 : β) (h : 8 < 21) : (![p0, p1, p2, p3, p4, p5, p6, p7, p8, p9, p10, p11, p12, p13, p14, p15, p16, p17, p18, p19, p20] : Fin 21 → β) ⟨8, h⟩ = p8 := rfl
theorem vec21_9 {β : Type} (p0 p1 p2 p3 p4 p5 p6 p7 p8 p9 p10 p11 p12 p13 p14 p15 p16 p17 p18 p19 p20 : β) (h : 9 < 21) : (![p0, p1, p2, p3, p4, p5, p6, p7, p8, p9, p10, p11, p12, p13, p14, p15, p16, p17, p18, p19, p20] : Fin 21 → β) ⟨9, h⟩ = p9 := rfl
theorem vec21_10 {β : Type} (p0 p1 p2 p3 p4 p5 p6 p7 p8 p9 p10 p11 p12 p13 p14 p15 p16 p17 p18 p19 p20 : β) (h : 10 < 21) : (![p0, p1, p2, p3, p4, p5, p6, p7, p8, p9, p10, p11, p12, p13, p14, p15, p16, p17, p18, p19, p20] : Fin 21 → β) ⟨10, h⟩ = p10 := rfl
theorem vec21_11 {β : Type} (p0 p1 p2 p3 p4 p5 p6 p7 p8 p9 p10 p11 p12 p13 p14 p15 p16 p17 p18 p19 p20 : β) (h : 11 < 21) : (![p0, p1, p2, p3, p4, p5, p6, p7, p8, p9, p10, p11, p12, p13, p14, p15, p16, p17, p18, p19, p20] : Fin 21 → β) ⟨11, h⟩ = p11 := rfl
theorem vec21_12 {β : Type} (p0 p1 p2 p3 p4 p5 p6 p7 p8 p9 p10 p11 p12 p13 p14 p15 p16 p17 p18 p19 p20 : β) (h : 12 < 21) : (![p0, p1, p2, p3, p4, p5, p6, p7, p8, p9, p10, p11, p12, p13, p14, p15, p16, p17, p18, p19, p20] : Fin 21 → β) ⟨12, h⟩ = p12 := rfl
theorem vec21_13 {β : Type} (p0 p1 p2 p3 p4 p5 p6 p7 p8 p9 p10 p11 p12 p13 p14 p15 p16 p17 p18 p19 p20 : β) (h : 13 < 21) : (![p0, p1, p2, p3, p4, p5, p6, p7, p8, p9, p10, p11, p12, p13, p14, p15, p16, p17, p18, p19, p20] : Fin 21 → β) ⟨13, h⟩ = p13 := rfl
theorem vec21_14 {β : Type} (p0 p1 p2 p3 p4 p5 p6 p7 p8 p9 p10 p11 p12 p13 p14 p15 p16 p17 p18 p19 p20 : β) (h : 14 < 21) : (![p0, p1, p2, p3, p4, p5, p6, p7, p8, p9, p10, p11, p12, p13, p14, p15, p16, p17, p18, p19, p20] : Fin 21 → β) ⟨14, h⟩ = p14 := rfl
theorem vec21_15 {β : Type} (p0 p1 p2 p3 p4 p5 p6 p7 p8 p9 p10 p11 p12 p13 p14 p15 p16 p17 p18 p19 p20 : β) (h : 15 < 21) : (![p0, p1, p2, p3, p4, p5, p6, p7, p8, p9, p10, p11, p12, p13, p14, p15, p16, p17, p18, p19, p20] : Fin 21 → β) ⟨15, h⟩ = p15 := rfl
theorem vec21_16 {β : Type} (p0 p1 p2 p3 p4 p5 p6 p7 p8 p9 p10 p11 p12 p13 p14 p15 p16 p17 p18 p19 p20 : β) (h : 16 < 21) : (![p0, p1, p2, p3, p4, p5, p6, p7, p8, p9, p10, p11, p12, p13, p14, p15, p16, p17, p18, p19, p20] : Fin 21 → β) ⟨16, h⟩ = p16 := rfl
theorem vec21_17 {β : Type} (p0 p1 p2 p3 p4 p5 p6 p7 p8 p9 p10 p11 p12 p13 p14 p15 p16 p17 p18 p19 p20 : β) (h : 17 < 21) : (![p0, p1, p2, p3, p4, p5, p6, p7, p8, p9, p10, p11, p12, p13, p14, p15, p16, p17, p18, p19, p20] : Fin 21 → β) ⟨17, h⟩ = p17 := rfl
theorem vec21_18 {β : Type} (p0 p1 p2 p3 p4 p5 p6 p7 p8 p9 p10 p11 p12 p13 p14 p15 p16 p17 p18 p19 p20 : β) (h : 18 < 21) : (![p0, p1, p2, p3, p4, p5, p6, p7, p8, p9, p10, p11, p12, p13, p14, p15, p16, p17, p18, p19, p20] : Fin 21 → β) ⟨18, h⟩ = p18 := rfl
theorem vec21_19 {β : Type} (p0 p1 p2 p3 p4 p5 p6 p7 p8 p9 p10 p11 p12 p13 p14 p15 p16 p17 p18 p19 p20 : β) (h : 19 < 21) : (![p0, p1, p2, p3, p4, p5, p6, p7, p8, p9, p10, p11, p12, p13, p14, p15, p16, p17, p18, p19, p20] : Fin 21 → β) ⟨19, h⟩ = p19 := rfl
theorem vec21_20 {β : Type} (p0 p1 p2 p3 p4 p5 p6 p7 p8 p9 p10 p11 p12 p13 p14 p15 p16 p17 p18 p19 p20 : β) (h : 20 < 21) : (![p0, p1, p2, p3, p4, p5, p6, p7, p8, p9, p10, p11, p12, p13, p14, p15, p16, p17, p18, p19, p20] : Fin 21 → β) ⟨20, h⟩ = p20 := rfl

/-- The wing chain on a scalar is the wing function. -/
theorem wing_fold (x : EReal) :
    Scalar.select (Ideal.cmp .olt (max x (-x)) (Ideal.ofBits .f32 0x41200000#32))
      (Ideal.ofBits .f32 0x41200000#32 * Ideal.log1p (Ideal.div (max x (-x)) (Ideal.ofBits .f32 0x40000000#32)))
      (max x (-x) - Ideal.ofBits .f32 0xC0FD5CF0#32) = wing x := rfl

end Cert.KernelIdeal.Gen

end
-- ==== Proof.KTile.lean ====
/-
  What one grid point adds to the running total: the scratch's entry plus the sum over the block's
  2048 lanes of the grouped form of the lane's two rows.  The z coordinate's average is finished inside
  the last stretch of the body; the matrix average and the x and y averages enter as facts.
-/
import proofs.«427709_j26388279067065_4_alg».proof.Proof.KBase

set_option maxRecDepth 16384

noncomputable section

namespace Cert.KernelIdeal.Gen

open Idealize.ShloMosaic Idealize.ShloMosaic.ValueIdx Idealize.ShloMosaic.Tactic Cert.LaneOps Cert.JointLoss

variable (c : Dev nD) (arg2 : Memref sig .tc .vmem S2048x63 .f32) (harg2 : arg2.IsWhole)
  (arg3 : Memref sig .tc .vmem S2048x63 .f32) (harg3 : arg3.IsWhole)
  (x0 x1 : Vec Ideal S2048x63 .f32)

/-! ## The z coordinate at one lane

The body finishes the z coordinate's average in its last stretch from three earlier values: the running sum
of wings (the wing of the mean difference and the wings of joints 0 to 18), the absolute difference of
joint 19, and the difference of joint 20.  Each is read at lane l as a function of the lane's two rows. -/

/-- The running sum at lane l: the wing of the mean z difference, then the wings of the z differences of
    joints 0 to 18, added one by one.  The mean is the 21 differences added one by one, times 1/21. -/
theorem tile_zsum (l : Fin 2048) :
    kernelRun0_B.sl.r_366 c arg2 harg2 arg3 harg3 x0 x1 (ix2 0 l)
      = wing (centreK (rowAt x0 l) (rowAt x1 l) 2) + wing (dif (rowAt x0 l) (rowAt x1 l) 2 0) + wing (dif (rowAt x0 l) (rowAt x1 l) 2 1)
        + wing (dif (rowAt x0 l) (rowAt x1 l) 2 2) + wing (dif (rowAt x0 l) (rowAt x1 l) 2 3) + wing (dif (rowAt x0 l) (rowAt x1 l) 2 4)
        + wing (dif (rowAt x0 l) (rowAt x1 l) 2 5) + wing (dif (rowAt x0 l) (rowAt x1 l) 2 6) + wing (dif (rowAt x0 l) (rowAt x1 l) 2 7)
        + wing (dif (rowAt x0 l) (rowAt x1 l) 2 8) + wing (dif (rowAt x0 l) (rowAt x1 l) 2 9) + wing (dif (rowAt x0 l) (rowAt x1 l) 2 10)
        + wing (dif (rowAt x0 l) (rowAt x1 l) 2 11) + wing (dif (rowAt x0 l) (rowAt x1 l) 2 12) + wing (dif (rowAt x0 l) (rowAt x1 l) 2 13)
        + wing (dif (rowAt x0 l) (rowAt x1 l) 2 14) + wing (dif (rowAt x0 l) (rowAt x1 l) 2 15) + wing (dif (rowAt x0 l) (rowAt x1 l) 2 16)
        + wing (dif (rowAt x0 l) (rowAt x1 l) 2 17) + wing (dif (rowAt x0 l) (rowAt x1 l) 2 18) := by
  sl_unfold_words
  simp only [k0_pay3, k0_pay4, k0_pay5, k0_pay6, k0_pay9, k0_pay12, k0_pay23, k0_pay24, k0_pay25, k0_pay28, k0_pay31, k0_pay44, k0_pay45, k0_pay46, k0_pay49, k0_pay52, k0_pay63, k0_pay64, k0_pay65, k0_pay68, k0_pay71, k0_pay82, k0_pay83, k0_pay84, k0_pay87, k0_pay90, k0_pay101, k0_pay102, k0_pay103, k0_pay106, k0_pay109, k0_pay120, k0_pay121, k0_pay122, k0_pay125, k0_pay128, k0_pay139, k0_pay140, k0_pay141, k0_pay144, k0_pay147, k0_pay158, k0_pay159, k0_pay160, k0_pay163, k0_pay166, k0_pay177, k0_pay178, k0_pay179, k0_pay182, k0_pay185, k0_pay196, k0_pay197, k0_pay198, k0_pay201, k0_pay204, k0_pay216, k0_pay217, k0_pay218, k0_pay221, k0_pay224, k0_pay235, k0_pay236, k0_pay237, k0_pay240, k0_pay243, k0_pay254, k0_pay255, k0_pay256, k0_pay259, k0_pay262, k0_pay273, k0_pay274, k0_pay275, k0_pay278, k0_pay281, k0_pay292, k0_pay293, k0_pay294, k0_pay297, k0_pay300, k0_pay311, k0_pay312, k0_pay313, k0_pay316, k0_pay319, k0_pay330, k0_pay331, k0_pay332, k0_pay335, k0_pay338, k0_pay349, k0_pay350, k0_pay351, k0_pay354, k0_pay357, k0_pay368, k0_pay369, k0_pay370, k0_pay373, k0_pay376, k0_pay382, k0_pay383, k0_pay384, k0_pay387, k0_pay390, k0_pay395, k0_pay518, k0_pay519, k0_pay520, k0_pay521, k0_pay522, k0_pay523, k0_pay524, k0_pay525, k0_pay526, k0_pay527, k0_pay528, k0_pay529, k0_pay530, k0_pay531, k0_pay532, k0_pay533, k0_pay534, k0_pay535, k0_pay536, k0_pay537, k0_pay538]
  simp only [addf_apply, mulf_apply, subf_apply, divf_apply, broadcast_apply, select_apply, cmpf_apply, absf_apply', log1p_apply', slice_rows_apply, tr0, named_inv21, Ideal.cmpf_def, Ideal.ofBits_def, wing_fold, Fin.val_zero, Nat.add_zero, Nat.zero_add, View.readAt_eq_ld, harg2.read_unread, harg3.read_unread, View.ld_unit_zero (S := S2048x63) hz2]
  simp only [centreK, dif, rowAt, jc]
  rw [sum21]
  rfl

/-- The absolute z difference of joint 19 at lane l. -/
theorem tile_zabs19 (l : Fin 2048) :
    kernelRun0_B.sl.r_367 c arg2 harg2 arg3 harg3 x0 x1 (ix2 0 l)
      = max (dif (rowAt x0 l) (rowAt x1 l) 2 19) (-(dif (rowAt x0 l) (rowAt x1 l) 2 19)) := by
  sl_unfold_words
  simp only [k0_pay3, k0_pay4, k0_pay369, k0_pay370, k0_pay373, k0_pay376, k0_pay382, k0_pay539]
  simp only [subf_apply, absf_apply', slice_rows_apply, tr0, Fin.val_zero, Nat.add_zero, View.readAt_eq_ld, harg2.read_unread, harg3.read_unread, View.ld_unit_zero (S := S2048x63) hz2]
  rfl

/-- The z difference of joint 20 at lane l. -/
theorem tile_zdif20 (l : Fin 2048) :
    kernelRun0_B.sl.r_230 c arg2 harg2 arg3 harg3 x0 x1 (ix2 0 l) = dif (rowAt x0 l) (rowAt x1 l) 2 20 := by
  sl_unfold_words
  simp only [k0_pay3, k0_pay4, k0_pay383, k0_pay384, k0_pay387, k0_pay390, k0_pay395]
  simp only [subf_apply, slice_rows_apply, tr0, Fin.val_zero, Nat.add_zero, View.readAt_eq_ld, harg2.read_unread, harg3.read_unread, View.ld_unit_zero (S := S2048x63) hz2]
  rfl

/-- The z coordinate's average at lane l: the running sum, the wing of joint 19's difference (taken of its
    absolute value, which changes nothing: the wing function takes the absolute value itself) and the wing of
    joint 20's difference, over 22.  On the grouped form's side the 21 wings are a sum over the joints;
    written out it is the same terms in the same order, grouped from the right instead of from the left. -/
theorem tile_lossZ (l : Fin 2048) :
    (kernelRun0_B.sl.r_366 c arg2 harg2 arg3 harg3 x0 x1 (ix2 0 l) +
        Scalar.select (Ideal.cmp .olt (kernelRun0_B.sl.r_367 c arg2 harg2 arg3 harg3 x0 x1 (ix2 0 l)) (Ideal.ofBits .f32 0x41200000#32))
          (Ideal.ofBits .f32 0x41200000#32 * Ideal.log1p (Ideal.div (kernelRun0_B.sl.r_367 c arg2 harg2 arg3 harg3 x0 x1 (ix2 0 l)) (Ideal.ofBits .f32 0x40000000#32)))
          (kernelRun0_B.sl.r_367 c arg2 harg2 arg3 harg3 x0 x1 (ix2 0 l) - Ideal.ofBits .f32 0xC0FD5CF0#32) +
      wing (kernelRun0_B.sl.r_230 c arg2 harg2 arg3 harg3 x0 x1 (ix2 0 l))) * ((1 / 22 : ℝ) : EReal)
      = lossK (rowAt x0 l) (rowAt x1 l) 2 := by
  rw [tile_zsum, tile_zabs19, tile_zdif20, wing_fold]
  unfold lossK
  rw [sum21]
  simp only [← add_assoc]

/-! ## The last stretch on arbitrary rows -/

/-- Per lane: 0.6 times the sum of the x average, the y average and the z average finished here, plus the
    named weight times the matrix average; the 2048 lanes are summed and the scratch's entry is added.  The
    one-entry result is read at its only index. -/
theorem tile_pay540 (v531 v1401 v1688 v1975 v2236 v2237 : FVec Ideal S1x2048 .f32) (xs : Vec Ideal S1x1 .f32) (j : S1x1.Idx) :
    k0_pay540 (F := Ideal) v531 v1401 v1688 v1975 v2236 v2237 kernelRun0_B.sl.cst_395 xs j
      = xs j + ∑ l : Fin 2048,
          (Ideal.ofBits .f32 0x3F19999A#32 *
              (v1688 (ix2 0 l) + v1975 (ix2 0 l) +
                (v2236 (ix2 0 l) +
                    Scalar.select (Ideal.cmp .olt (v2237 (ix2 0 l)) (Ideal.ofBits .f32 0x41200000#32))
                      (Ideal.ofBits .f32 0x41200000#32 * Ideal.log1p (Ideal.div (v2237 (ix2 0 l)) (Ideal.ofBits .f32 0x40000000#32)))
                      (v2237 (ix2 0 l) - Ideal.ofBits .f32 0xC0FD5CF0#32) +
                  wing (v531 (ix2 0 l))) * ((1 / 22 : ℝ) : EReal)) +
            ((40265319 / 33554432 : ℝ) : EReal) * v1401 (ix2 0 l)) := by
  obtain ⟨u, i, rfl⟩ : ∃ (u i : Fin 1), j = ix2 u i := ⟨j 0, j 1, eq_ix2 j⟩
  obtain rfl : i = 0 := Subsingleton.elim _ _
  simp only [k0_pay540, kernelRun0_B.sl.cst_395]
  simp only [addf_apply, mulf_apply, subf_apply, divf_apply, broadcast_apply, select_apply, cmpf_apply, absf_apply', log1p_apply', multiReduction, Ideal.reduceAdd_def, lanesum1, shapeCast_a_1a_apply, shapeCast_self, named_inv22, named_three_w_cov, Ideal.cmpf_def, Ideal.ofBits_def, wing_fold]

/-! ## One grid point -/

/-- The block's sum over its lanes. -/
def tile (x0 x1 : Vec Ideal S2048x63 .f32) : EReal := ∑ l : Fin 2048, combK (rowAt x0 l) (rowAt x1 l)

theorem tile_lane
    (hcov : ∀ l : Fin 2048, kernelRun0_B.sl.r_311 c arg2 harg2 arg3 harg3 x0 x1 (ix2 0 l) = covLossK (rowAt x0 l) (rowAt x1 l))
    (hx : ∀ l : Fin 2048, kernelRun0_B.sl.r_329 c arg2 harg2 arg3 harg3 x0 x1 (ix2 0 l) = lossK (rowAt x0 l) (rowAt x1 l) 0)
    (hy : ∀ l : Fin 2048, kernelRun0_B.sl.r_349 c arg2 harg2 arg3 harg3 x0 x1 (ix2 0 l) = lossK (rowAt x0 l) (rowAt x1 l) 1)
    (xs : Vec Ideal S1x1 .f32) (j : S1x1.Idx) :
    k0_pay540 (F := Ideal) (kernelRun0_B.sl.r_230 c arg2 harg2 arg3 harg3 x0 x1) (kernelRun0_B.sl.r_311 c arg2 harg2 arg3 harg3 x0 x1) (kernelRun0_B.sl.r_329 c arg2 harg2 arg3 harg3 x0 x1) (kernelRun0_B.sl.r_349 c arg2 harg2 arg3 harg3 x0 x1)
        (kernelRun0_B.sl.r_366 c arg2 harg2 arg3 harg3 x0 x1) (kernelRun0_B.sl.r_367 c arg2 harg2 arg3 harg3 x0 x1) kernelRun0_B.sl.cst_395 xs j
      = xs j + tile x0 x1 := by
  rw [tile_pay540]
  refine congrArg (xs j + ·) (Finset.sum_congr rfl fun l _ => ?_)
  rw [hcov l, hx l, hy l, tile_lossZ]
  rfl

end Cert.KernelIdeal.Gen

end
-- ==== Proof.KConcat.lean ====
/-
  The six 21-row arrays the body stacks from the joints' centred coordinates, read at row k and lane l:
  coordinate c of joint k of the lane's row, centred on that joint's mean — three arrays from the first
  input block, three from the second.
-/
import proofs.«427709_j26388279067065_4_alg».proof.Proof.KBase

set_option maxRecDepth 16384

noncomputable section

namespace Cert.KernelIdeal.Gen

open Idealize.ShloMosaic Idealize.ShloMosaic.ValueIdx Idealize.ShloMosaic.Tactic Cert.LaneOps Cert.JointLoss

variable (c : Dev nD) (arg2 : Memref sig .tc .vmem S2048x63 .f32) (harg2 : arg2.IsWhole)
  (arg3 : Memref sig .tc .vmem S2048x63 .f32) (harg3 : arg3.IsWhole)
  (x0 x1 : Vec Ideal S2048x63 .f32)

/-- Row k, lane l of the first block's stack for the first coordinate: entry 3k of the lane's row
    minus the mean of entries 3k, 3k + 1, 3k + 2. -/
theorem stackXo (k : Fin 21) (l : Fin 2048) : kernelRun0_B.sl.r_231 c arg2 harg2 x0 (ix2 k l) = cenK (rowAt x0 l) k 0 := by
  sl_unfold_words
  simp only [k0_pay3, k0_pay5, k0_pay7, k0_pay8, k0_pay9, k0_pay13, k0_pay15, k0_pay24, k0_pay26, k0_pay27, k0_pay28,
    k0_pay32, k0_pay36, k0_pay45, k0_pay47, k0_pay48, k0_pay49, k0_pay53, k0_pay55, k0_pay64, k0_pay66, k0_pay67,
    k0_pay68, k0_pay72, k0_pay74, k0_pay83, k0_pay85, k0_pay86, k0_pay87, k0_pay91, k0_pay93, k0_pay102, k0_pay104,
    k0_pay105, k0_pay106, k0_pay110, k0_pay112, k0_pay121, k0_pay123, k0_pay124, k0_pay125, k0_pay129, k0_pay131,
    k0_pay140, k0_pay142, k0_pay143, k0_pay144, k0_pay148, k0_pay150, k0_pay159, k0_pay161, k0_pay162, k0_pay163,
    k0_pay167, k0_pay169, k0_pay178, k0_pay180, k0_pay181, k0_pay182, k0_pay186, k0_pay188, k0_pay197, k0_pay199,
    k0_pay200, k0_pay201, k0_pay205, k0_pay208, k0_pay217, k0_pay219, k0_pay220, k0_pay221, k0_pay225, k0_pay227,
    k0_pay236, k0_pay238, k0_pay239, k0_pay240, k0_pay244, k0_pay246, k0_pay255, k0_pay257, k0_pay258, k0_pay259,
    k0_pay263, k0_pay265, k0_pay274, k0_pay276, k0_pay277, k0_pay278, k0_pay282, k0_pay284, k0_pay293, k0_pay295,
    k0_pay296, k0_pay297, k0_pay301, k0_pay303, k0_pay312, k0_pay314, k0_pay315, k0_pay316, k0_pay320, k0_pay322,
    k0_pay331, k0_pay333, k0_pay334, k0_pay335, k0_pay339, k0_pay341, k0_pay350, k0_pay352, k0_pay353, k0_pay354,
    k0_pay358, k0_pay360, k0_pay369, k0_pay371, k0_pay372, k0_pay373, k0_pay377, k0_pay378, k0_pay383, k0_pay385,
    k0_pay386, k0_pay387, k0_pay391, k0_pay396]
  -- the stack read at row k is piece k's only row
  simp only [stack21]
  fin_cases k
  -- piece k is a row of the transposed block minus (the sum of three of its rows) · 1/3; at lane l
  -- these rows are entries of the lane's row, and the two sides are the same expression
  all_goals (
    dsimp only
    simp only [vec21_0, vec21_1, vec21_2, vec21_3, vec21_4, vec21_5, vec21_6, vec21_7, vec21_8, vec21_9, vec21_10, vec21_11,
      vec21_12, vec21_13, vec21_14, vec21_15, vec21_16, vec21_17, vec21_18, vec21_19, vec21_20]
    simp only [addf_apply, mulf_apply, subf_apply, broadcast_apply, slice_rows_apply, tr0, named_inv3, Fin.val_zero,
      Nat.add_zero, Nat.zero_add, View.readAt_eq_ld, harg2.read_unread, View.ld_unit_zero (S := S2048x63) hz2]
    rfl)

/-- Row k, lane l of the first block's stack for the second coordinate: entry 3k + 1 of the lane's row
    minus the mean of entries 3k, 3k + 1, 3k + 2. -/
theorem stackYo (k : Fin 21) (l : Fin 2048) : kernelRun0_B.sl.r_232 c arg2 harg2 x0 (ix2 k l) = cenK (rowAt x0 l) k 1 := by
  sl_unfold_words
  simp only [k0_pay3, k0_pay5, k0_pay7, k0_pay8, k0_pay9, k0_pay13, k0_pay16, k0_pay24, k0_pay26, k0_pay27, k0_pay28,
    k0_pay32, k0_pay37, k0_pay45, k0_pay47, k0_pay48, k0_pay49, k0_pay53, k0_pay56, k0_pay64, k0_pay66, k0_pay67,
    k0_pay68, k0_pay72, k0_pay75, k0_pay83, k0_pay85, k0_pay86, k0_pay87, k0_pay91, k0_pay94, k0_pay102, k0_pay104,
    k0_pay105, k0_pay106, k0_pay110, k0_pay113, k0_pay121, k0_pay123, k0_pay124, k0_pay125, k0_pay129, k0_pay132,
    k0_pay140, k0_pay142, k0_pay143, k0_pay144, k0_pay148, k0_pay151, k0_pay159, k0_pay161, k0_pay162, k0_pay163,
    k0_pay167, k0_pay170, k0_pay178, k0_pay180, k0_pay181, k0_pay182, k0_pay186, k0_pay189, k0_pay197, k0_pay199,
    k0_pay200, k0_pay201, k0_pay205, k0_pay209, k0_pay217, k0_pay219, k0_pay220, k0_pay221, k0_pay225, k0_pay228,
    k0_pay236, k0_pay238, k0_pay239, k0_pay240, k0_pay244, k0_pay247, k0_pay255, k0_pay257, k0_pay258, k0_pay259,
    k0_pay263, k0_pay266, k0_pay274, k0_pay276, k0_pay277, k0_pay278, k0_pay282, k0_pay285, k0_pay293, k0_pay295,
    k0_pay296, k0_pay297, k0_pay301, k0_pay304, k0_pay312, k0_pay314, k0_pay315, k0_pay316, k0_pay320, k0_pay323,
    k0_pay331, k0_pay333, k0_pay334, k0_pay335, k0_pay339, k0_pay342, k0_pay350, k0_pay352, k0_pay353, k0_pay354,
    k0_pay358, k0_pay361, k0_pay369, k0_pay371, k0_pay372, k0_pay373, k0_pay377, k0_pay378, k0_pay383, k0_pay385,
    k0_pay386, k0_pay387, k0_pay391, k0_pay397]
  -- the stack read at row k is piece k's only row
  simp only [stack21]
  fin_cases k
  -- piece k is a row of the transposed block minus (the sum of three of its rows) · 1/3; at lane l
  -- these rows are entries of the lane's row, and the two sides are the same expression
  all_goals (
    dsimp only
    simp only [vec21_0, vec21_1, vec21_2, vec21_3, vec21_4, vec21_5, vec21_6, vec21_7, vec21_8, vec21_9, vec21_10, vec21_11,
      vec21_12, vec21_13, vec21_14, vec21_15, vec21_16, vec21_17, vec21_18, vec21_19, vec21_20]
    simp only [addf_apply, mulf_apply, subf_apply, broadcast_apply, slice_rows_apply, tr0, named_inv3, Fin.val_zero,
      Nat.add_zero, Nat.zero_add, View.readAt_eq_ld, harg2.read_unread, View.ld_unit_zero (S := S2048x63) hz2]
    rfl)

/-- Row k, lane l of the first block's stack for the third coordinate: entry 3k + 2 of the lane's row
    minus the mean of entries 3k, 3k + 1, 3k + 2. -/
theorem stackZo (k : Fin 21) (l : Fin 2048) : kernelRun0_B.sl.r_233 c arg2 harg2 x0 (ix2 k l) = cenK (rowAt x0 l) k 2 := by
  sl_unfold_words
  simp only [k0_pay3, k0_pay5, k0_pay7, k0_pay8, k0_pay9, k0_pay13, k0_pay17, k0_pay24, k0_pay26, k0_pay27, k0_pay28,
    k0_pay32, k0_pay38, k0_pay45, k0_pay47, k0_pay48, k0_pay49, k0_pay53, k0_pay57, k0_pay64, k0_pay66, k0_pay67,
    k0_pay68, k0_pay72, k0_pay76, k0_pay83, k0_pay85, k0_pay86, k0_pay87, k0_pay91, k0_pay95, k0_pay102, k0_pay104,
    k0_pay105, k0_pay106, k0_pay110, k0_pay114, k0_pay121, k0_pay123, k0_pay124, k0_pay125, k0_pay129, k0_pay133,
    k0_pay140, k0_pay142, k0_pay143, k0_pay144, k0_pay148, k0_pay152, k0_pay159, k0_pay161, k0_pay162, k0_pay163,
    k0_pay167, k0_pay171, k0_pay178, k0_pay180, k0_pay181, k0_pay182, k0_pay186, k0_pay190, k0_pay197, k0_pay199,
    k0_pay200, k0_pay201, k0_pay205, k0_pay210, k0_pay217, k0_pay219, k0_pay220, k0_pay221, k0_pay225, k0_pay229,
    k0_pay236, k0_pay238, k0_pay239, k0_pay240, k0_pay244, k0_pay248, k0_pay255, k0_pay257, k0_pay258, k0_pay259,
    k0_pay263, k0_pay267, k0_pay274, k0_pay276, k0_pay277, k0_pay278, k0_pay282, k0_pay286, k0_pay293, k0_pay295,
    k0_pay296, k0_pay297, k0_pay301, k0_pay305, k0_pay312, k0_pay314, k0_pay315, k0_pay316, k0_pay320, k0_pay324,
    k0_pay331, k0_pay333, k0_pay334, k0_pay335, k0_pay339, k0_pay343, k0_pay350, k0_pay352, k0_pay353, k0_pay354,
    k0_pay358, k0_pay362, k0_pay369, k0_pay371, k0_pay372, k0_pay373, k0_pay377, k0_pay378, k0_pay383, k0_pay385,
    k0_pay386, k0_pay387, k0_pay391, k0_pay398]
  -- the stack read at row k is piece k's only row
  simp only [stack21]
  fin_cases k
  -- piece k is a row of the transposed block minus (the sum of three of its rows) · 1/3; at lane l
  -- these rows are entries of the lane's row, and the two sides are the same expression
  all_goals (
    dsimp only
    simp only [vec21_0, vec21_1, vec21_2, vec21_3, vec21_4, vec21_5, vec21_6, vec21_7, vec21_8, vec21_9, vec21_10, vec21_11,
      vec21_12, vec21_13, vec21_14, vec21_15, vec21_16, vec21_17, vec21_18, vec21_19, vec21_20]
    simp only [addf_apply, mulf_apply, subf_apply, broadcast_apply, slice_rows_apply, tr0, named_inv3, Fin.val_zero,
      Nat.add_zero, Nat.zero_add, View.readAt_eq_ld, harg2.read_unread, View.ld_unit_zero (S := S2048x63) hz2]
    rfl)

/-- Row k, lane l of the second block's stack for the first coordinate: entry 3k of the lane's row
    minus the mean of entries 3k, 3k + 1, 3k + 2. -/
theorem stackXg (k : Fin 21) (l : Fin 2048) : kernelRun0_B.sl.r_234 c arg3 harg3 x1 (ix2 k l) = cenK (rowAt x1 l) k 0 := by
  sl_unfold_words
  simp only [k0_pay4, k0_pay6, k0_pay10, k0_pay11, k0_pay12, k0_pay14, k0_pay18, k0_pay25, k0_pay29, k0_pay30, k0_pay31,
    k0_pay33, k0_pay34, k0_pay35, k0_pay39, k0_pay46, k0_pay50, k0_pay51, k0_pay52, k0_pay54, k0_pay58, k0_pay65,
    k0_pay69, k0_pay70, k0_pay71, k0_pay73, k0_pay77, k0_pay84, k0_pay88, k0_pay89, k0_pay90, k0_pay92, k0_pay96,
    k0_pay103, k0_pay107, k0_pay108, k0_pay109, k0_pay111, k0_pay115, k0_pay122, k0_pay126, k0_pay127, k0_pay128,
    k0_pay130, k0_pay134, k0_pay141, k0_pay145, k0_pay146, k0_pay147, k0_pay149, k0_pay153, k0_pay160, k0_pay164,
    k0_pay165, k0_pay166, k0_pay168, k0_pay172, k0_pay179, k0_pay183, k0_pay184, k0_pay185, k0_pay187, k0_pay191,
    k0_pay198, k0_pay202, k0_pay203, k0_pay204, k0_pay206, k0_pay207, k0_pay211, k0_pay218, k0_pay222, k0_pay223,
    k0_pay224, k0_pay226, k0_pay230, k0_pay237, k0_pay241, k0_pay242, k0_pay243, k0_pay245, k0_pay249, k0_pay256,
    k0_pay260, k0_pay261, k0_pay262, k0_pay264, k0_pay268, k0_pay275, k0_pay279, k0_pay280, k0_pay281, k0_pay283,
    k0_pay287, k0_pay294, k0_pay298, k0_pay299, k0_pay300, k0_pay302, k0_pay306, k0_pay313, k0_pay317, k0_pay318,
    k0_pay319, k0_pay321, k0_pay325, k0_pay332, k0_pay336, k0_pay337, k0_pay338, k0_pay340, k0_pay344, k0_pay351,
    k0_pay355, k0_pay356, k0_pay357, k0_pay359, k0_pay363, k0_pay370, k0_pay374, k0_pay375, k0_pay376, k0_pay379,
    k0_pay384, k0_pay388, k0_pay389, k0_pay390, k0_pay392, k0_pay399]
  -- the stack read at row k is piece k's only row
  simp only [stack21]
  fin_cases k
  -- piece k is a row of the transposed block minus (the sum of three of its rows) · 1/3; at lane l
  -- these rows are entries of the lane's row, and the two sides are the same expression
  all_goals (
    dsimp only
    simp only [vec21_0, vec21_1, vec21_2, vec21_3, vec21_4, vec21_5, vec21_6, vec21_7, vec21_8, vec21_9, vec21_10, vec21_11,
      vec21_12, vec21_13, vec21_14, vec21_15, vec21_16, vec21_17, vec21_18, vec21_19, vec21_20]
    simp only [addf_apply, mulf_apply, subf_apply, broadcast_apply, slice_rows_apply, tr0, named_inv3, Fin.val_zero,
      Nat.add_zero, Nat.zero_add, View.readAt_eq_ld, harg3.read_unread, View.ld_unit_zero (S := S2048x63) hz2]
    rfl)

/-- Row k, lane l of the second block's stack for the second coordinate: entry 3k + 1 of the lane's row
    minus the mean of entries 3k, 3k + 1, 3k + 2. -/
theorem stackYg (k : Fin 21) (l : Fin 2048) : kernelRun0_B.sl.r_235 c arg3 harg3 x1 (ix2 k l) = cenK (rowAt x1 l) k 1 := by
  sl_unfold_words
  simp only [k0_pay4, k0_pay6, k0_pay10, k0_pay11, k0_pay12, k0_pay14, k0_pay19, k0_pay25, k0_pay29, k0_pay30, k0_pay31,
    k0_pay33, k0_pay34, k0_pay35, k0_pay40, k0_pay46, k0_pay50, k0_pay51, k0_pay52, k0_pay54, k0_pay59, k0_pay65,
    k0_pay69, k0_pay70, k0_pay71, k0_pay73, k0_pay78, k0_pay84, k0_pay88, k0_pay89, k0_pay90, k0_pay92, k0_pay97,
    k0_pay103, k0_pay107, k0_pay108, k0_pay109, k0_pay111, k0_pay116, k0_pay122, k0_pay126, k0_pay127, k0_pay128,
    k0_pay130, k0_pay135, k0_pay141, k0_pay145, k0_pay146, k0_pay147, k0_pay149, k0_pay154, k0_pay160, k0_pay164,
    k0_pay165, k0_pay166, k0_pay168, k0_pay173, k0_pay179, k0_pay183, k0_pay184, k0_pay185, k0_pay187, k0_pay192,
    k0_pay198, k0_pay202, k0_pay203, k0_pay204, k0_pay206, k0_pay207, k0_pay212, k0_pay218, k0_pay222, k0_pay223,
    k0_pay224, k0_pay226, k0_pay231, k0_pay237, k0_pay241, k0_pay242, k0_pay243, k0_pay245, k0_pay250, k0_pay256,
    k0_pay260, k0_pay261, k0_pay262, k0_pay264, k0_pay269, k0_pay275, k0_pay279, k0_pay280, k0_pay281, k0_pay283,
    k0_pay288, k0_pay294, k0_pay298, k0_pay299, k0_pay300, k0_pay302, k0_pay307, k0_pay313, k0_pay317, k0_pay318,
    k0_pay319, k0_pay321, k0_pay326, k0_pay332, k0_pay336, k0_pay337, k0_pay338, k0_pay340, k0_pay345, k0_pay351,
    k0_pay355, k0_pay356, k0_pay357, k0_pay359, k0_pay364, k0_pay370, k0_pay374, k0_pay375, k0_pay376, k0_pay379,
    k0_pay384, k0_pay388, k0_pay389, k0_pay390, k0_pay392, k0_pay400]
  -- the stack read at row k is piece k's only row
  simp only [stack21]
  fin_cases k
  -- piece k is a row of the transposed block minus (the sum of three of its rows) · 1/3; at lane l
  -- these rows are entries of the lane's row, and the two sides are the same expression
  all_goals (
    dsimp only
    simp only [vec21_0, vec21_1, vec21_2, vec21_3, vec21_4, vec21_5, vec21_6, vec21_7, vec21_8, vec21_9, vec21_10, vec21_11,
      vec21_12, vec21_13, vec21_14, vec21_15, vec21_16, vec21_17, vec21_18, vec21_19, vec21_20]
    simp only [addf_apply, mulf_apply, subf_apply, broadcast_apply, slice_rows_apply, tr0, named_inv3, Fin.val_zero,
      Nat.add_zero, Nat.zero_add, View.readAt_eq_ld, harg3.read_unread, View.ld_unit_zero (S := S2048x63) hz2]
    rfl)

/-- Row k, lane l of the second block's stack for the third coordinate: entry 3k + 2 of the lane's row
    minus the mean of entries 3k, 3k + 1, 3k + 2. -/
theorem stackZg (k : Fin 21) (l : Fin 2048) : kernelRun0_B.sl.r_236 c arg3 harg3 x1 (ix2 k l) = cenK (rowAt x1 l) k 2 := by
  sl_unfold_words
  simp only [k0_pay4, k0_pay6, k0_pay10, k0_pay11, k0_pay12, k0_pay14, k0_pay20, k0_pay25, k0_pay29, k0_pay30, k0_pay31,
    k0_pay33, k0_pay34, k0_pay35, k0_pay41, k0_pay46, k0_pay50, k0_pay51, k0_pay52, k0_pay54, k0_pay60, k0_pay65,
    k0_pay69, k0_pay70, k0_pay71, k0_pay73, k0_pay79, k0_pay84, k0_pay88, k0_pay89, k0_pay90, k0_pay92, k0_pay98,
    k0_pay103, k0_pay107, k0_pay108, k0_pay109, k0_pay111, k0_pay117, k0_pay122, k0_pay126, k0_pay127, k0_pay128,
    k0_pay130, k0_pay136, k0_pay141, k0_pay145, k0_pay146, k0_pay147, k0_pay149, k0_pay155, k0_pay160, k0_pay164,
    k0_pay165, k0_pay166, k0_pay168, k0_pay174, k0_pay179, k0_pay183, k0_pay184, k0_pay185, k0_pay187, k0_pay193,
    k0_pay198, k0_pay202, k0_pay203, k0_pay204, k0_pay206, k0_pay207, k0_pay213, k0_pay218, k0_pay222, k0_pay223,
    k0_pay224, k0_pay226, k0_pay232, k0_pay237, k0_pay241, k0_pay242, k0_pay243, k0_pay245, k0_pay251, k0_pay256,
    k0_pay260, k0_pay261, k0_pay262, k0_pay264, k0_pay270, k0_pay275, k0_pay279, k0_pay280, k0_pay281, k0_pay283,
    k0_pay289, k0_pay294, k0_pay298, k0_pay299, k0_pay300, k0_pay302, k0_pay308, k0_pay313, k0_pay317, k0_pay318,
    k0_pay319, k0_pay321, k0_pay327, k0_pay332, k0_pay336, k0_pay337, k0_pay338, k0_pay340, k0_pay346, k0_pay351,
    k0_pay355, k0_pay356, k0_pay357, k0_pay359, k0_pay365, k0_pay370, k0_pay374, k0_pay375, k0_pay376, k0_pay379,
    k0_pay384, k0_pay388, k0_pay389, k0_pay390, k0_pay392, k0_pay401]
  -- the stack read at row k is piece k's only row
  simp only [stack21]
  fin_cases k
  -- piece k is a row of the transposed block minus (the sum of three of its rows) · 1/3; at lane l
  -- these rows are entries of the lane's row, and the two sides are the same expression
  all_goals (
    dsimp only
    simp only [vec21_0, vec21_1, vec21_2, vec21_3, vec21_4, vec21_5, vec21_6, vec21_7, vec21_8, vec21_9, vec21_10, vec21_11,
      vec21_12, vec21_13, vec21_14, vec21_15, vec21_16, vec21_17, vec21_18, vec21_19, vec21_20]
    simp only [addf_apply, mulf_apply, subf_apply, broadcast_apply, slice_rows_apply, tr0, named_inv3, Fin.val_zero,
      Nat.add_zero, Nat.zero_add, View.readAt_eq_ld, harg3.read_unread, View.ld_unit_zero (S := S2048x63) hz2]
    rfl)

end Cert.KernelIdeal.Gen

end
-- ==== Proof.KCov.lean ====
/-
  The matrix part of the body at lane l: the 441 wings of the differences of half inner products of
  centred joints, summed row by row and averaged, is the specification's matrix average of the lane's
  two rows.

  The body keeps a running total, one value per lane, started at zero.  It goes through the 21 rows of
  the matrix in order; for row i it forms, at once for all 21 columns k, half the inner product of the
  centred joints i and k of the first block minus the same of the second block, takes the wing of each,
  sums the 21 wings and adds the sum to the total.  After row 20 the total is multiplied by 1/441.
  Each step is read at lane l over six arbitrary 21-row arrays and an arbitrary earlier total; the
  steps are then chained, and the six arrays are replaced by the centred coordinates they hold.
-/
import proofs.«427709_j26388279067065_4_alg».proof.Proof.KConcat

set_option maxRecDepth 16384

noncomputable section

namespace Cert.KernelIdeal.Gen

open Idealize.ShloMosaic Idealize.ShloMosaic.ValueIdx Idealize.ShloMosaic.Tactic Cert.LaneOps Cert.JointLoss

variable (c : Dev nD) (arg2 : Memref sig .tc .vmem S2048x63 .f32) (harg2 : arg2.IsWhole)
  (arg3 : Memref sig .tc .vmem S2048x63 .f32) (harg3 : arg3.IsWhole)
  (x0 x1 : Vec Ideal S2048x63 .f32)

/-! ## One row of the matrix over six arbitrary arrays -/

/-- Half the inner product of rows i and k of three 21-row arrays, at lane l. -/
def covG (X Y Z : FVec Ideal S21x2048 .f32) (i k : Fin 21) (l : Fin 2048) : EReal :=
  (X (ix2 i l) * X (ix2 k l) + Y (ix2 i l) * Y (ix2 k l) + Z (ix2 i l) * Z (ix2 k l)) * Ideal.ofBits .f32 0x3F000000#32

/-- Row i of the comparison of two triples of arrays, summed over its 21 entries, at lane l. -/
def rowG (Xo Yo Zo Xg Yg Zg : FVec Ideal S21x2048 .f32) (i : Fin 21) (l : Fin 2048) : EReal :=
  ∑ k : Fin 21, wing (covG Xo Yo Zo i k l - covG Xg Yg Zg i k l)

/-! ## The steps of the running total -/

/-- The step that adds row 0 to the running total T, at lane l. -/
theorem total_r243 (Xo Yo Zo Xg Yg Zg : FVec Ideal S21x2048 .f32) (T : FVec Ideal S1x2048 .f32) (l : Fin 2048) :
    k0_pay409 Yo Zo Xg Yg Zg T (extractStridedSlice S1x2048 ![0, 0] Zo slices_S21x2048_o0_0_S1x2048) (extractStridedSlice S1x2048 ![0, 0] Xg slices_S21x2048_o0_0_S1x2048) (extractStridedSlice S1x2048 ![0, 0] Yg slices_S21x2048_o0_0_S1x2048) (extractStridedSlice S1x2048 ![0, 0] Zg slices_S21x2048_o0_0_S1x2048) (mulf (broadcastTo S21x2048 (extractStridedSlice S1x2048 ![0, 0] Xo slices_S21x2048_o0_0_S1x2048) broadcasts_S1x2048_S21x2048) Xo) (broadcastTo S21x2048 (extractStridedSlice S1x2048 ![0, 0] Yo slices_S21x2048_o0_0_S1x2048) broadcasts_S1x2048_S21x2048) (ix2 0 l)
      = T (ix2 0 l) + rowG Xo Yo Zo Xg Yg Zg 0 l := by
  simp only [k0_pay409]
  simp only [addf_apply, mulf_apply, subf_apply, divf_apply, broadcast_apply, select_apply, cmpf_apply, absf_apply', log1p_apply', slice_rows_apply, broadcastTo_1b_ab_apply, multiReduction, Ideal.reduceAdd_def, colsum21, shapeCast_a_1a_apply, shapeCast_self, named_inv441, Ideal.cmpf_def, Ideal.ofBits_def, wing_fold, Fin.val_zero, Nat.add_zero, Nat.zero_add]
  rfl

/-- The step that adds row 1 to the running total T, at lane l. -/
theorem total_r248 (Xo Yo Zo Xg Yg Zg : FVec Ideal S21x2048 .f32) (T : FVec Ideal S1x2048 .f32) (l : Fin 2048) :
    k0_pay414 Zg T (k0_pay410 Zg) (k0_pay411 Xo Yo Zo) (k0_pay412 Xg) (k0_pay413 Yg) (ix2 0 l)
      = T (ix2 0 l) + rowG Xo Yo Zo Xg Yg Zg 1 l := by
  simp only [k0_pay414, k0_pay410, k0_pay411, k0_pay412, k0_pay413]
  simp only [addf_apply, mulf_apply, subf_apply, divf_apply, broadcast_apply, select_apply, cmpf_apply, absf_apply', log1p_apply', slice_rows_apply, broadcastTo_1b_ab_apply, multiReduction, Ideal.reduceAdd_def, colsum21, shapeCast_a_1a_apply, shapeCast_self, named_inv441, Ideal.cmpf_def, Ideal.ofBits_def, wing_fold, Fin.val_zero, Nat.add_zero, Nat.zero_add]
  rfl

/-- The step that adds row 2 to the running total T, at lane l. -/
theorem total_r251 (Xo Yo Zo Xg Yg Zg : FVec Ideal S21x2048 .f32) (T : FVec Ideal S1x2048 .f32) (l : Fin 2048) :
    k0_pay417 T (k0_pay415 Xo Yo Zo Xg Yg Zg) (k0_pay416 Xo Yo Zo Xg Yg Zg) (ix2 0 l)
      = T (ix2 0 l) + rowG Xo Yo Zo Xg Yg Zg 2 l := by
  simp only [k0_pay417, k0_pay415, k0_pay416]
  simp only [addf_apply, mulf_apply, subf_apply, divf_apply, broadcast_apply, select_apply, cmpf_apply, absf_apply', log1p_apply', slice_rows_apply, broadcastTo_1b_ab_apply, multiReduction, Ideal.reduceAdd_def, colsum21, shapeCast_a_1a_apply, shapeCast_self, named_inv441, Ideal.cmpf_def, Ideal.ofBits_def, wing_fold, Fin.val_zero, Nat.add_zero, Nat.zero_add]
  rfl

/-- The step that adds rows 3 and 4 to the running total T, at lane l. -/
theorem total_r253 (Xo Yo Zo Xg Yg Zg : FVec Ideal S21x2048 .f32) (T : FVec Ideal S1x2048 .f32) (l : Fin 2048) :
    k0_pay419 Xo Yo Zo Xg Yg Zg T (k0_pay418 Xo Yo Zo Xg Yg Zg) (ix2 0 l)
      = T (ix2 0 l) + rowG Xo Yo Zo Xg Yg Zg 3 l + rowG Xo Yo Zo Xg Yg Zg 4 l := by
  simp only [k0_pay419, k0_pay418]
  simp only [addf_apply, mulf_apply, subf_apply, divf_apply, broadcast_apply, select_apply, cmpf_apply, absf_apply', log1p_apply', slice_rows_apply, broadcastTo_1b_ab_apply, multiReduction, Ideal.reduceAdd_def, colsum21, shapeCast_a_1a_apply, shapeCast_self, named_inv441, Ideal.cmpf_def, Ideal.ofBits_def, wing_fold, Fin.val_zero, Nat.add_zero, Nat.zero_add]
  rfl

/-- The step that adds row 5 to the running total T, at lane l. -/
theorem total_r260 (Xo Yo Zo Xg Yg Zg : FVec Ideal S21x2048 .f32) (T : FVec Ideal S1x2048 .f32) (l : Fin 2048) :
    k0_pay426 Yo Zo Xg Yg Zg T (k0_pay420 Zo) (k0_pay421 Xg) (k0_pay422 Yg) (k0_pay423 Zg) (k0_pay424 Xo) (k0_pay425 Yo) (ix2 0 l)
      = T (ix2 0 l) + rowG Xo Yo Zo Xg Yg Zg 5 l := by
  simp only [k0_pay426, k0_pay420, k0_pay421, k0_pay422, k0_pay423, k0_pay424, k0_pay425]
  simp only [addf_apply, mulf_apply, subf_apply, divf_apply, broadcast_apply, select_apply, cmpf_apply, absf_apply', log1p_apply', slice_rows_apply, broadcastTo_1b_ab_apply, multiReduction, Ideal.reduceAdd_def, colsum21, shapeCast_a_1a_apply, shapeCast_self, named_inv441, Ideal.cmpf_def, Ideal.ofBits_def, wing_fold, Fin.val_zero, Nat.add_zero, Nat.zero_add]
  rfl

/-- The step that adds row 6 to the running total T, at lane l. -/
theorem total_r265 (Xo Yo Zo Xg Yg Zg : FVec Ideal S21x2048 .f32) (T : FVec Ideal S1x2048 .f32) (l : Fin 2048) :
    k0_pay431 Zg T (k0_pay427 Zg) (k0_pay428 Xo Yo Zo) (k0_pay429 Xg) (k0_pay430 Yg) (ix2 0 l)
      = T (ix2 0 l) + rowG Xo Yo Zo Xg Yg Zg 6 l := by
  simp only [k0_pay431, k0_pay427, k0_pay428, k0_pay429, k0_pay430]
  simp only [addf_apply, mulf_apply, subf_apply, divf_apply, broadcast_apply, select_apply, cmpf_apply, absf_apply', log1p_apply', slice_rows_apply, broadcastTo_1b_ab_apply, multiReduction, Ideal.reduceAdd_def, colsum21, shapeCast_a_1a_apply, shapeCast_self, named_inv441, Ideal.cmpf_def, Ideal.ofBits_def, wing_fold, Fin.val_zero, Nat.add_zero, Nat.zero_add]
  rfl

/-- The step that adds row 7 to the running total T, at lane l. -/
theorem total_r268 (Xo Yo Zo Xg Yg Zg : FVec Ideal S21x2048 .f32) (T : FVec Ideal S1x2048 .f32) (l : Fin 2048) :
    k0_pay434 T (k0_pay432 Xo Yo Zo Xg Yg Zg) (k0_pay433 Xo Yo Zo Xg Yg Zg) (ix2 0 l)
      = T (ix2 0 l) + rowG Xo Yo Zo Xg Yg Zg 7 l := by
  simp only [k0_pay434, k0_pay432, k0_pay433]
  simp only [addf_apply, mulf_apply, subf_apply, divf_apply, broadcast_apply, select_apply, cmpf_apply, absf_apply', log1p_apply', slice_rows_apply, broadcastTo_1b_ab_apply, multiReduction, Ideal.reduceAdd_def, colsum21, shapeCast_a_1a_apply, shapeCast_self, named_inv441, Ideal.cmpf_def, Ideal.ofBits_def, wing_fold, Fin.val_zero, Nat.add_zero, Nat.zero_add]
  rfl

/-- The step that adds rows 8 and 9 to the running total T, at lane l. -/
theorem total_r270 (Xo Yo Zo Xg Yg Zg : FVec Ideal S21x2048 .f32) (T : FVec Ideal S1x2048 .f32) (l : Fin 2048) :
    k0_pay436 Xo Yo Zo Xg Yg Zg T (k0_pay435 Xo Yo Zo Xg Yg Zg) (ix2 0 l)
      = T (ix2 0 l) + rowG Xo Yo Zo Xg Yg Zg 8 l + rowG Xo Yo Zo Xg Yg Zg 9 l := by
  simp only [k0_pay436, k0_pay435]
  simp only [addf_apply, mulf_apply, subf_apply, divf_apply, broadcast_apply, select_apply, cmpf_apply, absf_apply', log1p_apply', slice_rows_apply, broadcastTo_1b_ab_apply, multiReduction, Ideal.reduceAdd_def, colsum21, shapeCast_a_1a_apply, shapeCast_self, named_inv441, Ideal.cmpf_def, Ideal.ofBits_def, wing_fold, Fin.val_zero, Nat.add_zero, Nat.zero_add]
  rfl

/-- The step that adds row 10 to the running total T, at lane l. -/
theorem total_r277 (Xo Yo Zo Xg Yg Zg : FVec Ideal S21x2048 .f32) (T : FVec Ideal S1x2048 .f32) (l : Fin 2048) :
    k0_pay443 Yo Zo Xg Yg Zg T (k0_pay437 Zo) (k0_pay438 Xg) (k0_pay439 Yg) (k0_pay440 Zg) (k0_pay441 Xo) (k0_pay442 Yo) (ix2 0 l)
      = T (ix2 0 l) + rowG Xo Yo Zo Xg Yg Zg 10 l := by
  simp only [k0_pay443, k0_pay437, k0_pay438, k0_pay439, k0_pay440, k0_pay441, k0_pay442]
  simp only [addf_apply, mulf_apply, subf_apply, divf_apply, broadcast_apply, select_apply, cmpf_apply, absf_apply', log1p_apply', slice_rows_apply, broadcastTo_1b_ab_apply, multiReduction, Ideal.reduceAdd_def, colsum21, shapeCast_a_1a_apply, shapeCast_self, named_inv441, Ideal.cmpf_def, Ideal.ofBits_def, wing_fold, Fin.val_zero, Nat.add_zero, Nat.zero_add]
  rfl

/-- The step that adds row 11 to the running total T, at lane l. -/
theorem total_r282 (Xo Yo Zo Xg Yg Zg : FVec Ideal S21x2048 .f32) (T : FVec Ideal S1x2048 .f32) (l : Fin 2048) :
    k0_pay448 Zg T (k0_pay444 Zg) (k0_pay445 Xo Yo Zo) (k0_pay446 Xg) (k0_pay447 Yg) (ix2 0 l)
      = T (ix2 0 l) + rowG Xo Yo Zo Xg Yg Zg 11 l := by
  simp only [k0_pay448, k0_pay444, k0_pay445, k0_pay446, k0_pay447]
  simp only [addf_apply, mulf_apply, subf_apply, divf_apply, broadcast_apply, select_apply, cmpf_apply, absf_apply', log1p_apply', slice_rows_apply, broadcastTo_1b_ab_apply, multiReduction, Ideal.reduceAdd_def, colsum21, shapeCast_a_1a_apply, shapeCast_self, named_inv441, Ideal.cmpf_def, Ideal.ofBits_def, wing_fold, Fin.val_zero, Nat.add_zero, Nat.zero_add]
  rfl

/-- The step that adds row 12 to the running total T, at lane l. -/
theorem total_r285 (Xo Yo Zo Xg Yg Zg : FVec Ideal S21x2048 .f32) (T : FVec Ideal S1x2048 .f32) (l : Fin 2048) :
    k0_pay451 T (k0_pay449 Xo Yo Zo Xg Yg Zg) (k0_pay450 Xo Yo Zo Xg Yg Zg) (ix2 0 l)
      = T (ix2 0 l) + rowG Xo Yo Zo Xg Yg Zg 12 l := by
  simp only [k0_pay451, k0_pay449, k0_pay450]
  simp only [addf_apply, mulf_apply, subf_apply, divf_apply, broadcast_apply, select_apply, cmpf_apply, absf_apply', log1p_apply', slice_rows_apply, broadcastTo_1b_ab_apply, multiReduction, Ideal.reduceAdd_def, colsum21, shapeCast_a_1a_apply, shapeCast_self, named_inv441, Ideal.cmpf_def, Ideal.ofBits_def, wing_fold, Fin.val_zero, Nat.add_zero, Nat.zero_add]
  rfl

/-- The step that adds rows 13 and 14 to the running total T, at lane l. -/
theorem total_r287 (Xo Yo Zo Xg Yg Zg : FVec Ideal S21x2048 .f32) (T : FVec Ideal S1x2048 .f32) (l : Fin 2048) :
    k0_pay453 Xo Yo Zo Xg Yg Zg T (k0_pay452 Xo Yo Zo Xg Yg Zg) (ix2 0 l)
      = T (ix2 0 l) + rowG Xo Yo Zo Xg Yg Zg 13 l + rowG Xo Yo Zo Xg Yg Zg 14 l := by
  simp only [k0_pay453, k0_pay452]
  simp only [addf_apply, mulf_apply, subf_apply, divf_apply, broadcast_apply, select_apply, cmpf_apply, absf_apply', log1p_apply', slice_rows_apply, broadcastTo_1b_ab_apply, multiReduction, Ideal.reduceAdd_def, colsum21, shapeCast_a_1a_apply, shapeCast_self, named_inv441, Ideal.cmpf_def, Ideal.ofBits_def, wing_fold, Fin.val_zero, Nat.add_zero, Nat.zero_add]
  rfl

/-- The step that adds row 15 to the running total T, at lane l. -/
theorem total_r294 (Xo Yo Zo Xg Yg Zg : FVec Ideal S21x2048 .f32) (T : FVec Ideal S1x2048 .f32) (l : Fin 2048) :
    k0_pay460 Yo Zo Xg Yg Zg T (k0_pay454 Zo) (k0_pay455 Xg) (k0_pay456 Yg) (k0_pay457 Zg) (k0_pay458 Xo) (k0_pay459 Yo) (ix2 0 l)
      = T (ix2 0 l) + rowG Xo Yo Zo Xg Yg Zg 15 l := by
  simp only [k0_pay460, k0_pay454, k0_pay455, k0_pay456, k0_pay457, k0_pay458, k0_pay459]
  simp only [addf_apply, mulf_apply, subf_apply, divf_apply, broadcast_apply, select_apply, cmpf_apply, absf_apply', log1p_apply', slice_rows_apply, broadcastTo_1b_ab_apply, multiReduction, Ideal.reduceAdd_def, colsum21, shapeCast_a_1a_apply, shapeCast_self, named_inv441, Ideal.cmpf_def, Ideal.ofBits_def, wing_fold, Fin.val_zero, Nat.add_zero, Nat.zero_add]
  rfl

/-- The step that adds row 16 to the running total T, at lane l. -/
theorem total_r299 (Xo Yo Zo Xg Yg Zg : FVec Ideal S21x2048 .f32) (T : FVec Ideal S1x2048 .f32) (l : Fin 2048) :
    k0_pay465 Zg T (k0_pay461 Zg) (k0_pay462 Xo Yo Zo) (k0_pay463 Xg) (k0_pay464 Yg) (ix2 0 l)
      = T (ix2 0 l) + rowG Xo Yo Zo Xg Yg Zg 16 l := by
  simp only [k0_pay465, k0_pay461, k0_pay462, k0_pay463, k0_pay464]
  simp only [addf_apply, mulf_apply, subf_apply, divf_apply, broadcast_apply, select_apply, cmpf_apply, absf_apply', log1p_apply', slice_rows_apply, broadcastTo_1b_ab_apply, multiReduction, Ideal.reduceAdd_def, colsum21, shapeCast_a_1a_apply, shapeCast_self, named_inv441, Ideal.cmpf_def, Ideal.ofBits_def, wing_fold, Fin.val_zero, Nat.add_zero, Nat.zero_add]
  rfl

/-- The step that adds row 17 to the running total T, at lane l. -/
theorem total_r302 (Xo Yo Zo Xg Yg Zg : FVec Ideal S21x2048 .f32) (T : FVec Ideal S1x2048 .f32) (l : Fin 2048) :
    k0_pay468 T (k0_pay466 Xo Yo Zo Xg Yg Zg) (k0_pay467 Xo Yo Zo Xg Yg Zg) (ix2 0 l)
      = T (ix2 0 l) + rowG Xo Yo Zo Xg Yg Zg 17 l := by
  simp only [k0_pay468, k0_pay466, k0_pay467]
  simp only [addf_apply, mulf_apply, subf_apply, divf_apply, broadcast_apply, select_apply, cmpf_apply, absf_apply', log1p_apply', slice_rows_apply, broadcastTo_1b_ab_apply, multiReduction, Ideal.reduceAdd_def, colsum21, shapeCast_a_1a_apply, shapeCast_self, named_inv441, Ideal.cmpf_def, Ideal.ofBits_def, wing_fold, Fin.val_zero, Nat.add_zero, Nat.zero_add]
  rfl

/-- The step that adds rows 18 and 19 to the running total T, at lane l. -/
theorem total_r304 (Xo Yo Zo Xg Yg Zg : FVec Ideal S21x2048 .f32) (T : FVec Ideal S1x2048 .f32) (l : Fin 2048) :
    k0_pay470 Xo Yo Zo Xg Yg Zg T (k0_pay469 Xo Yo Zo Xg Yg Zg) (ix2 0 l)
      = T (ix2 0 l) + rowG Xo Yo Zo Xg Yg Zg 18 l + rowG Xo Yo Zo Xg Yg Zg 19 l := by
  simp only [k0_pay470, k0_pay469]
  simp only [addf_apply, mulf_apply, subf_apply, divf_apply, broadcast_apply, select_apply, cmpf_apply, absf_apply', log1p_apply', slice_rows_apply, broadcastTo_1b_ab_apply, multiReduction, Ideal.reduceAdd_def, colsum21, shapeCast_a_1a_apply, shapeCast_self, named_inv441, Ideal.cmpf_def, Ideal.ofBits_def, wing_fold, Fin.val_zero, Nat.add_zero, Nat.zero_add]
  rfl

/-- The last step adds row 20 to the running total and takes the average over the 441 entries. -/
theorem total_r311 (Xo Yo Zo Xg Yg Zg : FVec Ideal S21x2048 .f32) (T : FVec Ideal S1x2048 .f32) (l : Fin 2048) :
    k0_pay477 Yo Zo Xg Yg Zg T (k0_pay471 Zo) (k0_pay472 Xg) (k0_pay473 Yg) (k0_pay474 Zg) (k0_pay475 Xo) (k0_pay476 Yo) (ix2 0 l)
      = (T (ix2 0 l) + rowG Xo Yo Zo Xg Yg Zg 20 l) * ((1 / 441 : ℝ) : EReal) := by
  simp only [k0_pay477, k0_pay471, k0_pay472, k0_pay473, k0_pay474, k0_pay475, k0_pay476]
  simp only [addf_apply, mulf_apply, subf_apply, divf_apply, broadcast_apply, select_apply, cmpf_apply, absf_apply', log1p_apply', slice_rows_apply, broadcastTo_1b_ab_apply, multiReduction, Ideal.reduceAdd_def, colsum21, shapeCast_a_1a_apply, shapeCast_self, named_inv441, Ideal.cmpf_def, Ideal.ofBits_def, wing_fold, Fin.val_zero, Nat.add_zero, Nat.zero_add]
  rfl

/-! ## The chain -/

/-- Where the six arrays hold the centred coordinates of the rows a and b, row i of the comparison is the
    specification's. -/
theorem rowG_eq (a b : Row) (Xo Yo Zo Xg Yg Zg : FVec Ideal S21x2048 .f32) (l : Fin 2048)
    (hXo : ∀ k : Fin 21, Xo (ix2 k l) = cenK a k 0) (hYo : ∀ k : Fin 21, Yo (ix2 k l) = cenK a k 1)
    (hZo : ∀ k : Fin 21, Zo (ix2 k l) = cenK a k 2) (hXg : ∀ k : Fin 21, Xg (ix2 k l) = cenK b k 0)
    (hYg : ∀ k : Fin 21, Yg (ix2 k l) = cenK b k 1) (hZg : ∀ k : Fin 21, Zg (ix2 k l) = cenK b k 2)
    (i : Fin 21) : rowG Xo Yo Zo Xg Yg Zg i l = rowK a b i := by
  simp only [rowG, covG, rowK, covK, hXo, hYo, hZo, hXg, hYg, hZg]

theorem covLoss_lane (l : Fin 2048) : kernelRun0_B.sl.r_311 c arg2 harg2 arg3 harg3 x0 x1 (ix2 0 l) = covLossK (rowAt x0 l) (rowAt x1 l) := by
  have hXo := stackXo c arg2 harg2 x0
  have hYo := stackYo c arg2 harg2 x0
  have hZo := stackZo c arg2 harg2 x0
  have hXg := stackXg c arg3 harg3 x1
  have hYg := stackYg c arg3 harg3 x1
  have hZg := stackZg c arg3 harg3 x1
  simp only [kernelRun0_B.sl.r_231] at hXo
  simp only [kernelRun0_B.sl.r_232] at hYo
  simp only [kernelRun0_B.sl.r_233] at hZo
  simp only [kernelRun0_B.sl.r_234] at hXg
  simp only [kernelRun0_B.sl.r_235] at hYg
  simp only [kernelRun0_B.sl.r_236] at hZg
  -- the names of the matrix part, down to the six stacked arrays
  simp only [kernelRun0_B.sl.r_231, kernelRun0_B.sl.r_232, kernelRun0_B.sl.r_233, kernelRun0_B.sl.r_234, kernelRun0_B.sl.r_235, kernelRun0_B.sl.r_236, kernelRun0_B.sl.r_237, kernelRun0_B.sl.r_238, kernelRun0_B.sl.r_239, kernelRun0_B.sl.r_240, kernelRun0_B.sl.r_241, kernelRun0_B.sl.r_242, kernelRun0_B.sl.r_243, kernelRun0_B.sl.r_244, kernelRun0_B.sl.r_245, kernelRun0_B.sl.r_246, kernelRun0_B.sl.r_247, kernelRun0_B.sl.r_248, kernelRun0_B.sl.r_249, kernelRun0_B.sl.r_250, kernelRun0_B.sl.r_251, kernelRun0_B.sl.r_252, kernelRun0_B.sl.r_253, kernelRun0_B.sl.r_254, kernelRun0_B.sl.r_255, kernelRun0_B.sl.r_256, kernelRun0_B.sl.r_257, kernelRun0_B.sl.r_258, kernelRun0_B.sl.r_259, kernelRun0_B.sl.r_260, kernelRun0_B.sl.r_261, kernelRun0_B.sl.r_262, kernelRun0_B.sl.r_263, kernelRun0_B.sl.r_264, kernelRun0_B.sl.r_265, kernelRun0_B.sl.r_266, kernelRun0_B.sl.r_267, kernelRun0_B.sl.r_268, kernelRun0_B.sl.r_269, kernelRun0_B.sl.r_270, kernelRun0_B.sl.r_271, kernelRun0_B.sl.r_272, kernelRun0_B.sl.r_273, kernelRun0_B.sl.r_274, kernelRun0_B.sl.r_275, kernelRun0_B.sl.r_276, kernelRun0_B.sl.r_277, kernelRun0_B.sl.r_278, kernelRun0_B.sl.r_279, kernelRun0_B.sl.r_280, kernelRun0_B.sl.r_281, kernelRun0_B.sl.r_282, kernelRun0_B.sl.r_283, kernelRun0_B.sl.r_284, kernelRun0_B.sl.r_285, kernelRun0_B.sl.r_286, kernelRun0_B.sl.r_287, kernelRun0_B.sl.r_288, kernelRun0_B.sl.r_289, kernelRun0_B.sl.r_290, kernelRun0_B.sl.r_291, kernelRun0_B.sl.r_292, kernelRun0_B.sl.r_293, kernelRun0_B.sl.r_294, kernelRun0_B.sl.r_295, kernelRun0_B.sl.r_296, kernelRun0_B.sl.r_297, kernelRun0_B.sl.r_298, kernelRun0_B.sl.r_299, kernelRun0_B.sl.r_300, kernelRun0_B.sl.r_301, kernelRun0_B.sl.r_302, kernelRun0_B.sl.r_303, kernelRun0_B.sl.r_304, kernelRun0_B.sl.r_305, kernelRun0_B.sl.r_306, kernelRun0_B.sl.r_307, kernelRun0_B.sl.r_308, kernelRun0_B.sl.r_309, kernelRun0_B.sl.r_310, kernelRun0_B.sl.r_311]
  simp only [k0_pay403, k0_pay404, k0_pay405, k0_pay406, k0_pay407, k0_pay408]
  -- the six stacked arrays as variables
  generalize k0_pay396 (F := Ideal) _ _ _ _ _ _ _ _ _ _ _ _ _ _ _ _ _ _ _ _ _ _ _ = Xo at hXo ⊢
  generalize k0_pay397 (F := Ideal) _ _ _ _ _ _ _ _ _ _ _ _ _ _ _ _ _ _ _ _ _ _ _ = Yo at hYo ⊢
  generalize k0_pay398 (F := Ideal) _ _ _ _ _ _ _ _ _ _ _ _ _ _ _ _ _ _ _ _ _ _ _ = Zo at hZo ⊢
  generalize k0_pay399 (F := Ideal) _ _ _ _ _ _ _ _ _ _ _ _ _ _ _ _ _ _ _ _ _ _ _ = Xg at hXg ⊢
  generalize k0_pay400 (F := Ideal) _ _ _ _ _ _ _ _ _ _ _ _ _ _ _ _ _ _ _ _ _ _ _ = Yg at hYg ⊢
  generalize k0_pay401 (F := Ideal) _ _ _ _ _ _ _ _ _ _ _ _ _ _ _ _ _ _ _ _ _ _ _ = Zg at hZg ⊢
  -- the running total, step by step from the last
  rw [total_r311, total_r304, total_r302, total_r299, total_r294, total_r287, total_r285, total_r282, total_r277, total_r270, total_r268, total_r265, total_r260, total_r253, total_r251, total_r248, total_r243]
  have h0 : k0_pay402 (F := Ideal) (ix2 0 l) = 0 := by
    simp only [k0_pay402, broadcast_apply, Ideal.ofBits_def, Ideal.ofBits_zero_f32]
  have hrow := rowG_eq (rowAt x0 l) (rowAt x1 l) Xo Yo Zo Xg Yg Zg l
    (fun k => hXo k l) (fun k => hYo k l) (fun k => hZo k l) (fun k => hXg k l) (fun k => hYg k l) (fun k => hZg k l)
  simp only [h0, zero_add, hrow]
  unfold covLossK
  rw [sum21]

end Cert.KernelIdeal.Gen

end
-- ==== Proof.KLoss.lean ====
/-
  The x and y coordinate averages of the body at lane l: the wing of the mean joint difference and the
  21 wings of the joint differences, over 22.
-/
import proofs.«427709_j26388279067065_4_alg».proof.Proof.KBase

set_option maxRecDepth 16384

noncomputable section

namespace Cert.KernelIdeal.Gen

open Idealize.ShloMosaic Idealize.ShloMosaic.ValueIdx Idealize.ShloMosaic.Tactic Cert.LaneOps Cert.JointLoss

/-- The coordinate average with both sums written out, the 22 wings added one by one from the left. -/
theorem lossK_unroll (a b : Row) (cc : Fin 3) :
    lossK a b cc
      = (wing ((
            dif a b cc 0 + dif a b cc 1 + dif a b cc 2 + dif a b cc 3 + dif a b cc 4 + dif a b cc 5 +
            dif a b cc 6 + dif a b cc 7 + dif a b cc 8 + dif a b cc 9 + dif a b cc 10 + dif a b cc 11 +
            dif a b cc 12 + dif a b cc 13 + dif a b cc 14 + dif a b cc 15 + dif a b cc 16 + dif a b cc 17 +
            dif a b cc 18 + dif a b cc 19 + dif a b cc 20) * ((1 / 21 : ℝ) : EReal))
          + wing (dif a b cc 0) + wing (dif a b cc 1) + wing (dif a b cc 2) + wing (dif a b cc 3)
          + wing (dif a b cc 4) + wing (dif a b cc 5) + wing (dif a b cc 6) + wing (dif a b cc 7)
          + wing (dif a b cc 8) + wing (dif a b cc 9) + wing (dif a b cc 10) + wing (dif a b cc 11)
          + wing (dif a b cc 12) + wing (dif a b cc 13) + wing (dif a b cc 14) + wing (dif a b cc 15)
          + wing (dif a b cc 16) + wing (dif a b cc 17) + wing (dif a b cc 18) + wing (dif a b cc 19)
          + wing (dif a b cc 20)) * ((1 / 22 : ℝ) : EReal) := by
  unfold lossK centreK
  rw [sum21, sum21]
  simp only [add_assoc]

variable (c : Dev nD) (arg2 : Memref sig .tc .vmem S2048x63 .f32) (harg2 : arg2.IsWhole)
  (arg3 : Memref sig .tc .vmem S2048x63 .f32) (harg3 : arg3.IsWhole)
  (x0 x1 : Vec Ideal S2048x63 .f32)

/-- The body's x average at lane l: every operation read at the entry leaves the mean difference of the 21 x
    coordinates times 1/21 under the wing, the 21 wings of the differences added to it in order, and the
    product with 1/22; the entries of the two blocks are the lane's two rows at columns 3k. -/
theorem lossX_lane (l : Fin 2048) : kernelRun0_B.sl.r_329 c arg2 harg2 arg3 harg3 x0 x1 (ix2 0 l) = lossK (rowAt x0 l) (rowAt x1 l) 0 := by
  sl_unfold_words
  simp only [
    k0_pay1, k0_pay2, k0_pay3, k0_pay4, k0_pay5, k0_pay6, k0_pay7, k0_pay8, k0_pay9, k0_pay10, k0_pay11,
    k0_pay12, k0_pay13, k0_pay14, k0_pay15, k0_pay16, k0_pay17, k0_pay18, k0_pay19, k0_pay20, k0_pay21,
    k0_pay22, k0_pay23, k0_pay24, k0_pay25, k0_pay26, k0_pay27, k0_pay28, k0_pay29, k0_pay30, k0_pay31,
    k0_pay32, k0_pay33, k0_pay34, k0_pay35, k0_pay36, k0_pay37, k0_pay38, k0_pay39, k0_pay40, k0_pay41,
    k0_pay42, k0_pay43, k0_pay44, k0_pay45, k0_pay46, k0_pay47, k0_pay48, k0_pay49, k0_pay50, k0_pay51,
    k0_pay52, k0_pay53, k0_pay54, k0_pay55, k0_pay56, k0_pay57, k0_pay58, k0_pay59, k0_pay60, k0_pay61,
    k0_pay62, k0_pay63, k0_pay64, k0_pay65, k0_pay66, k0_pay67, k0_pay68, k0_pay69, k0_pay70, k0_pay71,
    k0_pay72, k0_pay73, k0_pay74, k0_pay75, k0_pay76, k0_pay77, k0_pay78, k0_pay79, k0_pay80, k0_pay81,
    k0_pay82, k0_pay83, k0_pay84, k0_pay85, k0_pay86, k0_pay87, k0_pay88, k0_pay89, k0_pay90, k0_pay91,
    k0_pay92, k0_pay93, k0_pay94, k0_pay95, k0_pay96, k0_pay97, k0_pay98, k0_pay99, k0_pay100, k0_pay101,
    k0_pay102, k0_pay103, k0_pay104, k0_pay105, k0_pay106, k0_pay107, k0_pay108, k0_pay109, k0_pay110,
    k0_pay111, k0_pay112, k0_pay113, k0_pay114, k0_pay115, k0_pay116, k0_pay117, k0_pay118, k0_pay119,
    k0_pay120, k0_pay121, k0_pay122, k0_pay123, k0_pay124, k0_pay125, k0_pay126, k0_pay127, k0_pay128,
    k0_pay129, k0_pay130, k0_pay131, k0_pay132, k0_pay133, k0_pay134, k0_pay135, k0_pay136, k0_pay137,
    k0_pay138, k0_pay139, k0_pay140, k0_pay141, k0_pay142, k0_pay143, k0_pay144, k0_pay145, k0_pay146,
    k0_pay147, k0_pay148, k0_pay149, k0_pay150, k0_pay151, k0_pay152, k0_pay153, k0_pay154, k0_pay155,
    k0_pay156, k0_pay157, k0_pay158, k0_pay159, k0_pay160, k0_pay161, k0_pay162, k0_pay163, k0_pay164,
    k0_pay165, k0_pay166, k0_pay167, k0_pay168, k0_pay169, k0_pay170, k0_pay171, k0_pay172, k0_pay173,
    k0_pay174, k0_pay175, k0_pay176, k0_pay177, k0_pay178, k0_pay179, k0_pay180, k0_pay181, k0_pay182,
    k0_pay183, k0_pay184, k0_pay185, k0_pay186, k0_pay187, k0_pay188, k0_pay189, k0_pay190, k0_pay191,
    k0_pay192, k0_pay193, k0_pay194, k0_pay195, k0_pay196, k0_pay197, k0_pay198, k0_pay199, k0_pay200,
    k0_pay201, k0_pay202, k0_pay203, k0_pay204, k0_pay205, k0_pay206, k0_pay207, k0_pay208, k0_pay209,
    k0_pay210, k0_pay211, k0_pay212, k0_pay213, k0_pay214, k0_pay215, k0_pay216, k0_pay217, k0_pay218,
    k0_pay219, k0_pay220, k0_pay221, k0_pay222, k0_pay223, k0_pay224, k0_pay225, k0_pay226, k0_pay227,
    k0_pay228, k0_pay229, k0_pay230, k0_pay231, k0_pay232, k0_pay233, k0_pay234, k0_pay235, k0_pay236,
    k0_pay237, k0_pay238, k0_pay239, k0_pay240, k0_pay241, k0_pay242, k0_pay243, k0_pay244, k0_pay245,
    k0_pay246, k0_pay247, k0_pay248, k0_pay249, k0_pay250, k0_pay251, k0_pay252, k0_pay253, k0_pay254,
    k0_pay255, k0_pay256, k0_pay257, k0_pay258, k0_pay259, k0_pay260, k0_pay261, k0_pay262, k0_pay263,
    k0_pay264, k0_pay265, k0_pay266, k0_pay267, k0_pay268, k0_pay269, k0_pay270, k0_pay271, k0_pay272,
    k0_pay273, k0_pay274, k0_pay275, k0_pay276, k0_pay277, k0_pay278, k0_pay279, k0_pay280, k0_pay281,
    k0_pay282, k0_pay283, k0_pay284, k0_pay285, k0_pay286, k0_pay287, k0_pay288, k0_pay289, k0_pay290,
    k0_pay291, k0_pay292, k0_pay293, k0_pay294, k0_pay295, k0_pay296, k0_pay297, k0_pay298, k0_pay299,
    k0_pay300, k0_pay301, k0_pay302, k0_pay303, k0_pay304, k0_pay305, k0_pay306, k0_pay307, k0_pay308,
    k0_pay309, k0_pay310, k0_pay311, k0_pay312, k0_pay313, k0_pay314, k0_pay315, k0_pay316, k0_pay317,
    k0_pay318, k0_pay319, k0_pay320, k0_pay321, k0_pay322, k0_pay323, k0_pay324, k0_pay325, k0_pay326,
    k0_pay327, k0_pay328, k0_pay329, k0_pay330, k0_pay331, k0_pay332, k0_pay333, k0_pay334, k0_pay335,
    k0_pay336, k0_pay337, k0_pay338, k0_pay339, k0_pay340, k0_pay341, k0_pay342, k0_pay343, k0_pay344,
    k0_pay345, k0_pay346, k0_pay347, k0_pay348, k0_pay349, k0_pay350, k0_pay351, k0_pay352, k0_pay353,
    k0_pay354, k0_pay355, k0_pay356, k0_pay357, k0_pay358, k0_pay359, k0_pay360, k0_pay361, k0_pay362,
    k0_pay363, k0_pay364, k0_pay365, k0_pay366, k0_pay367, k0_pay368, k0_pay369, k0_pay370, k0_pay371,
    k0_pay372, k0_pay373, k0_pay374, k0_pay375, k0_pay376, k0_pay377, k0_pay378, k0_pay379, k0_pay380,
    k0_pay381, k0_pay382, k0_pay383, k0_pay384, k0_pay385, k0_pay386, k0_pay387, k0_pay388, k0_pay389,
    k0_pay390, k0_pay391, k0_pay392, k0_pay393, k0_pay394, k0_pay395, k0_pay396, k0_pay397, k0_pay398,
    k0_pay399, k0_pay400, k0_pay401, k0_pay402, k0_pay403, k0_pay404, k0_pay405, k0_pay406, k0_pay407,
    k0_pay408, k0_pay409, k0_pay410, k0_pay411, k0_pay412, k0_pay413, k0_pay414, k0_pay415, k0_pay416,
    k0_pay417, k0_pay418, k0_pay419, k0_pay420, k0_pay421, k0_pay422, k0_pay423, k0_pay424, k0_pay425,
    k0_pay426, k0_pay427, k0_pay428, k0_pay429, k0_pay430, k0_pay431, k0_pay432, k0_pay433, k0_pay434,
    k0_pay435, k0_pay436, k0_pay437, k0_pay438, k0_pay439, k0_pay440, k0_pay441, k0_pay442, k0_pay443,
    k0_pay444, k0_pay445, k0_pay446, k0_pay447, k0_pay448, k0_pay449, k0_pay450, k0_pay451, k0_pay452,
    k0_pay453, k0_pay454, k0_pay455, k0_pay456, k0_pay457, k0_pay458, k0_pay459, k0_pay460, k0_pay461,
    k0_pay462, k0_pay463, k0_pay464, k0_pay465, k0_pay466, k0_pay467, k0_pay468, k0_pay469, k0_pay470,
    k0_pay471, k0_pay472, k0_pay473, k0_pay474, k0_pay475, k0_pay476, k0_pay477, k0_pay478, k0_pay479,
    k0_pay480, k0_pay481, k0_pay482, k0_pay483, k0_pay484, k0_pay485, k0_pay486, k0_pay487, k0_pay488,
    k0_pay489, k0_pay490, k0_pay491, k0_pay492, k0_pay493, k0_pay494, k0_pay495, k0_pay496, k0_pay497,
    k0_pay498, k0_pay499, k0_pay500, k0_pay501, k0_pay502, k0_pay503, k0_pay504, k0_pay505, k0_pay506,
    k0_pay507, k0_pay508, k0_pay509, k0_pay510, k0_pay511, k0_pay512, k0_pay513, k0_pay514, k0_pay515,
    k0_pay516, k0_pay517, k0_pay518, k0_pay519, k0_pay520, k0_pay521, k0_pay522, k0_pay523, k0_pay524,
    k0_pay525, k0_pay526, k0_pay527, k0_pay528, k0_pay529, k0_pay530, k0_pay531, k0_pay532, k0_pay533,
    k0_pay534, k0_pay535, k0_pay536, k0_pay537, k0_pay538, k0_pay539, k0_pay540]
  simp only [
    addf_apply, mulf_apply, subf_apply, divf_apply, broadcast_apply, select_apply, cmpf_apply, absf_apply',
    log1p_apply', slice_rows_apply, broadcastTo_1b_ab_apply, multiReduction, Ideal.reduceAdd_def, colsum21,
    lanesum1, shapeCast_a_1a_apply, shapeCast_self, tr0, named_inv3, named_inv441, named_inv21, named_inv22,
    named_three_w_cov, Ideal.cmpf_def, Ideal.ofBits_def, wing_fold, Fin.val_zero, Nat.add_zero, Nat.zero_add,
    stack21, Matrix.cons_val, View.readAt_eq_ld, harg2.read_unread, harg3.read_unread,
    View.ld_unit_zero (S := S2048x63) hz2]
  rw [lossK_unroll]
  rfl

/-- The same for the y coordinates, columns 3k + 1. -/
theorem lossY_lane (l : Fin 2048) : kernelRun0_B.sl.r_349 c arg2 harg2 arg3 harg3 x0 x1 (ix2 0 l) = lossK (rowAt x0 l) (rowAt x1 l) 1 := by
  sl_unfold_words
  simp only [
    k0_pay1, k0_pay2, k0_pay3, k0_pay4, k0_pay5, k0_pay6, k0_pay7, k0_pay8, k0_pay9, k0_pay10, k0_pay11,
    k0_pay12, k0_pay13, k0_pay14, k0_pay15, k0_pay16, k0_pay17, k0_pay18, k0_pay19, k0_pay20, k0_pay21,
    k0_pay22, k0_pay23, k0_pay24, k0_pay25, k0_pay26, k0_pay27, k0_pay28, k0_pay29, k0_pay30, k0_pay31,
    k0_pay32, k0_pay33, k0_pay34, k0_pay35, k0_pay36, k0_pay37, k0_pay38, k0_pay39, k0_pay40, k0_pay41,
    k0_pay42, k0_pay43, k0_pay44, k0_pay45, k0_pay46, k0_pay47, k0_pay48, k0_pay49, k0_pay50, k0_pay51,
    k0_pay52, k0_pay53, k0_pay54, k0_pay55, k0_pay56, k0_pay57, k0_pay58, k0_pay59, k0_pay60, k0_pay61,
    k0_pay62, k0_pay63, k0_pay64, k0_pay65, k0_pay66, k0_pay67, k0_pay68, k0_pay69, k0_pay70, k0_pay71,
    k0_pay72, k0_pay73, k0_pay74, k0_pay75, k0_pay76, k0_pay77, k0_pay78, k0_pay79, k0_pay80, k0_pay81,
    k0_pay82, k0_pay83, k0_pay84, k0_pay85, k0_pay86, k0_pay87, k0_pay88, k0_pay89, k0_pay90, k0_pay91,
    k0_pay92, k0_pay93, k0_pay94, k0_pay95, k0_pay96, k0_pay97, k0_pay98, k0_pay99, k0_pay100, k0_pay101,
    k0_pay102, k0_pay103, k0_pay104, k0_pay105, k0_pay106, k0_pay107, k0_pay108, k0_pay109, k0_pay110,
    k0_pay111, k0_pay112, k0_pay113, k0_pay114, k0_pay115, k0_pay116, k0_pay117, k0_pay118, k0_pay119,
    k0_pay120, k0_pay121, k0_pay122, k0_pay123, k0_pay124, k0_pay125, k0_pay126, k0_pay127, k0_pay128,
    k0_pay129, k0_pay130, k0_pay131, k0_pay132, k0_pay133, k0_pay134, k0_pay135, k0_pay136, k0_pay137,
    k0_pay138, k0_pay139, k0_pay140, k0_pay141, k0_pay142, k0_pay143, k0_pay144, k0_pay145, k0_pay146,
    k0_pay147, k0_pay148, k0_pay149, k0_pay150, k0_pay151, k0_pay152, k0_pay153, k0_pay154, k0_pay155,
    k0_pay156, k0_pay157, k0_pay158, k0_pay159, k0_pay160, k0_pay161, k0_pay162, k0_pay163, k0_pay164,
    k0_pay165, k0_pay166, k0_pay167, k0_pay168, k0_pay169, k0_pay170, k0_pay171, k0_pay172, k0_pay173,
    k0_pay174, k0_pay175, k0_pay176, k0_pay177, k0_pay178, k0_pay179, k0_pay180, k0_pay181, k0_pay182,
    k0_pay183, k0_pay184, k0_pay185, k0_pay186, k0_pay187, k0_pay188, k0_pay189, k0_pay190, k0_pay191,
    k0_pay192, k0_pay193, k0_pay194, k0_pay195, k0_pay196, k0_pay197, k0_pay198, k0_pay199, k0_pay200,
    k0_pay201, k0_pay202, k0_pay203, k0_pay204, k0_pay205, k0_pay206, k0_pay207, k0_pay208, k0_pay209,
    k0_pay210, k0_pay211, k0_pay212, k0_pay213, k0_pay214, k0_pay215, k0_pay216, k0_pay217, k0_pay218,
    k0_pay219, k0_pay220, k0_pay221, k0_pay222, k0_pay223, k0_pay224, k0_pay225, k0_pay226, k0_pay227,
    k0_pay228, k0_pay229, k0_pay230, k0_pay231, k0_pay232, k0_pay233, k0_pay234, k0_pay235, k0_pay236,
    k0_pay237, k0_pay238, k0_pay239, k0_pay240, k0_pay241, k0_pay242, k0_pay243, k0_pay244, k0_pay245,
    k0_pay246, k0_pay247, k0_pay248, k0_pay249, k0_pay250, k0_pay251, k0_pay252, k0_pay253, k0_pay254,
    k0_pay255, k0_pay256, k0_pay257, k0_pay258, k0_pay259, k0_pay260, k0_pay261, k0_pay262, k0_pay263,
    k0_pay264, k0_pay265, k0_pay266, k0_pay267, k0_pay268, k0_pay269, k0_pay270, k0_pay271, k0_pay272,
    k0_pay273, k0_pay274, k0_pay275, k0_pay276, k0_pay277, k0_pay278, k0_pay279, k0_pay280, k0_pay281,
    k0_pay282, k0_pay283, k0_pay284, k0_pay285, k0_pay286, k0_pay287, k0_pay288, k0_pay289, k0_pay290,
    k0_pay291, k0_pay292, k0_pay293, k0_pay294, k0_pay295, k0_pay296, k0_pay297, k0_pay298, k0_pay299,
    k0_pay300, k0_pay301, k0_pay302, k0_pay303, k0_pay304, k0_pay305, k0_pay306, k0_pay307, k0_pay308,
    k0_pay309, k0_pay310, k0_pay311, k0_pay312, k0_pay313, k0_pay314, k0_pay315, k0_pay316, k0_pay317,
    k0_pay318, k0_pay319, k0_pay320, k0_pay321, k0_pay322, k0_pay323, k0_pay324, k0_pay325, k0_pay326,
    k0_pay327, k0_pay328, k0_pay329, k0_pay330, k0_pay331, k0_pay332, k0_pay333, k0_pay334, k0_pay335,
    k0_pay336, k0_pay337, k0_pay338, k0_pay339, k0_pay340, k0_pay341, k0_pay342, k0_pay343, k0_pay344,
    k0_pay345, k0_pay346, k0_pay347, k0_pay348, k0_pay349, k0_pay350, k0_pay351, k0_pay352, k0_pay353,
    k0_pay354, k0_pay355, k0_pay356, k0_pay357, k0_pay358, k0_pay359, k0_pay360, k0_pay361, k0_pay362,
    k0_pay363, k0_pay364, k0_pay365, k0_pay366, k0_pay367, k0_pay368, k0_pay369, k0_pay370, k0_pay371,
    k0_pay372, k0_pay373, k0_pay374, k0_pay375, k0_pay376, k0_pay377, k0_pay378, k0_pay379, k0_pay380,
    k0_pay381, k0_pay382, k0_pay383, k0_pay384, k0_pay385, k0_pay386, k0_pay387, k0_pay388, k0_pay389,
    k0_pay390, k0_pay391, k0_pay392, k0_pay393, k0_pay394, k0_pay395, k0_pay396, k0_pay397, k0_pay398,
    k0_pay399, k0_pay400, k0_pay401, k0_pay402, k0_pay403, k0_pay404, k0_pay405, k0_pay406, k0_pay407,
    k0_pay408, k0_pay409, k0_pay410, k0_pay411, k0_pay412, k0_pay413, k0_pay414, k0_pay415, k0_pay416,
    k0_pay417, k0_pay418, k0_pay419, k0_pay420, k0_pay421, k0_pay422, k0_pay423, k0_pay424, k0_pay425,
    k0_pay426, k0_pay427, k0_pay428, k0_pay429, k0_pay430, k0_pay431, k0_pay432, k0_pay433, k0_pay434,
    k0_pay435, k0_pay436, k0_pay437, k0_pay438, k0_pay439, k0_pay440, k0_pay441, k0_pay442, k0_pay443,
    k0_pay444, k0_pay445, k0_pay446, k0_pay447, k0_pay448, k0_pay449, k0_pay450, k0_pay451, k0_pay452,
    k0_pay453, k0_pay454, k0_pay455, k0_pay456, k0_pay457, k0_pay458, k0_pay459, k0_pay460, k0_pay461,
    k0_pay462, k0_pay463, k0_pay464, k0_pay465, k0_pay466, k0_pay467, k0_pay468, k0_pay469, k0_pay470,
    k0_pay471, k0_pay472, k0_pay473, k0_pay474, k0_pay475, k0_pay476, k0_pay477, k0_pay478, k0_pay479,
    k0_pay480, k0_pay481, k0_pay482, k0_pay483, k0_pay484, k0_pay485, k0_pay486, k0_pay487, k0_pay488,
    k0_pay489, k0_pay490, k0_pay491, k0_pay492, k0_pay493, k0_pay494, k0_pay495, k0_pay496, k0_pay497,
    k0_pay498, k0_pay499, k0_pay500, k0_pay501, k0_pay502, k0_pay503, k0_pay504, k0_pay505, k0_pay506,
    k0_pay507, k0_pay508, k0_pay509, k0_pay510, k0_pay511, k0_pay512, k0_pay513, k0_pay514, k0_pay515,
    k0_pay516, k0_pay517, k0_pay518, k0_pay519, k0_pay520, k0_pay521, k0_pay522, k0_pay523, k0_pay524,
    k0_pay525, k0_pay526, k0_pay527, k0_pay528, k0_pay529, k0_pay530, k0_pay531, k0_pay532, k0_pay533,
    k0_pay534, k0_pay535, k0_pay536, k0_pay537, k0_pay538, k0_pay539, k0_pay540]
  simp only [
    addf_apply, mulf_apply, subf_apply, divf_apply, broadcast_apply, select_apply, cmpf_apply, absf_apply',
    log1p_apply', slice_rows_apply, broadcastTo_1b_ab_apply, multiReduction, Ideal.reduceAdd_def, colsum21,
    lanesum1, shapeCast_a_1a_apply, shapeCast_self, tr0, named_inv3, named_inv441, named_inv21, named_inv22,
    named_three_w_cov, Ideal.cmpf_def, Ideal.ofBits_def, wing_fold, Fin.val_zero, Nat.add_zero, Nat.zero_add,
    stack21, Matrix.cons_val, View.readAt_eq_ld, harg2.read_unread, harg3.read_unread,
    View.ld_unit_zero (S := S2048x63) hz2]
  rw [lossK_unroll]
  rfl

end Cert.KernelIdeal.Gen

end
-- ==== Proof.KPieces.lean ====
/-
  What one grid point leaves behind, in each of the body's three control cases: the scratch entry
  becomes the entry the point found (zero at a core's first point, which resets it) plus the sum over
  the block's lanes; at a core's last point the output block holds that entry everywhere.
-/
import proofs.«427709_j26388279067065_4_alg».proof.Proof.KTile
import proofs.«427709_j26388279067065_4_alg».proof.Proof.KCov
import proofs.«427709_j26388279067065_4_alg».proof.Proof.KLoss

set_option maxRecDepth 16384

noncomputable section

namespace Cert.KernelIdeal.Gen

open Idealize.ShloMosaic Idealize.ShloMosaic.ValueIdx Idealize.ShloMosaic.Tactic Cert.LaneOps Cert.JointLoss

variable (c : Dev nD) (i : grid0.Coords) (arg2 : Memref sig .tc .vmem S2048x63 .f32) (harg2 : arg2.IsWhole)
  (arg3 : Memref sig .tc .vmem S2048x63 .f32) (harg3 : arg3.IsWhole)
  (arg4 : Memref sig .tc .vmem S8x128 .f32) (harg4 : arg4.IsWhole)
  (arg5 : Memref sig .tc .vmem S1x1 .f32) (harg5 : arg5.IsWhole)
  (x0 x1 : Vec Ideal S2048x63 .f32)

/-- The body's last stretch over any scratch contents: the entry plus the block's sum. -/
theorem upd (xs : Vec Ideal S1x1 .f32) (j : S1x1.Idx) :
    k0_pay540 (F := Ideal) (kernelRun0_B.sl.r_230 c arg2 harg2 arg3 harg3 x0 x1) (kernelRun0_B.sl.r_311 c arg2 harg2 arg3 harg3 x0 x1) (kernelRun0_B.sl.r_329 c arg2 harg2 arg3 harg3 x0 x1) (kernelRun0_B.sl.r_349 c arg2 harg2 arg3 harg3 x0 x1) (kernelRun0_B.sl.r_366 c arg2 harg2 arg3 harg3 x0 x1) (kernelRun0_B.sl.r_367 c arg2 harg2 arg3 harg3 x0 x1) kernelRun0_B.sl.cst_395 xs j = xs j + tile x0 x1 :=
  tile_lane c arg2 harg2 arg3 harg3 x0 x1 (covLoss_lane c arg2 harg2 arg3 harg3 x0 x1)
    (lossX_lane c arg2 harg2 arg3 harg3 x0 x1) (lossY_lane c arg2 harg2 arg3 harg3 x0 x1) xs j

/-- The reset value is zero everywhere. -/
theorem reset_zero (j : S1x1.Idx) : k0_pay2 (F := Ideal) j = 0 := by
  simp only [k0_pay2, shapeCast_self, broadcast_apply, Ideal.ofBits_def, Ideal.ofBits_zero_f32]

/-- A middle point: the scratch entry plus the block's sum. -/
theorem scratch_B (hc0 : ¬cond0_0 i) (hc1 : ¬cond0_1 i) (xs0 : Vec Ideal S1x1 .f32) :
    sout0_B_0 c i arg2 harg2 arg3 harg3 arg4 harg4 arg5 harg5 hc0 hc1 x0 x1 xs0 = fun j => xs0 j + tile x0 x1 := by
  unfold sout0_B_0
  rw [View.read_writes_eq_canon _ _ _ (scover0_B_0 c i arg2 harg2 arg3 harg3 arg4 harg4 arg5 harg5 hc0 hc1 x0 x1 xs0)]
  unfold kernelRun0_B
  dsimp only
  rw [View.canon_unit_zero hz2]
  simp only [View.readAt_eq_ld, harg5.read_unread, View.ld_unit_zero (S := S1x1) hz2]
  funext j
  exact upd c arg2 harg2 arg3 harg3 x0 x1 xs0 j

/-- A core's first point: the scratch is reset, so it ends at the block's sum. -/
theorem scratch_A (hc0 : cond0_0 i) (hc1 : ¬cond0_1 i) :
    sout0_A_0 c i arg2 harg2 arg3 harg3 arg4 harg4 arg5 harg5 hc0 hc1 x0 x1 = fun _ => tile x0 x1 := by
  unfold sout0_A_0
  rw [View.read_writes_eq_canon _ _ _ (scover0_A_0 c i arg2 harg2 arg3 harg3 arg4 harg4 arg5 harg5 hc0 hc1 x0 x1)]
  unfold kernelRun0_A
  dsimp only
  rw [View.canon_cons_unit_zero hz2]
  unfold kernelRun0_A.sl.v2272 kernelRun0_A.sl.HS0_1
  rw [View.readCov_unit_zero _ hz2]
  funext j
  show k0_pay540 (F := Ideal) (kernelRun0_B.sl.r_230 c arg2 harg2 arg3 harg3 x0 x1) (kernelRun0_B.sl.r_311 c arg2 harg2 arg3 harg3 x0 x1) (kernelRun0_B.sl.r_329 c arg2 harg2 arg3 harg3 x0 x1) (kernelRun0_B.sl.r_349 c arg2 harg2 arg3 harg3 x0 x1) (kernelRun0_B.sl.r_366 c arg2 harg2 arg3 harg3 x0 x1) (kernelRun0_B.sl.r_367 c arg2 harg2 arg3 harg3 x0 x1) kernelRun0_B.sl.cst_395 (k0_pay2 (F := Ideal)) j = _
  rw [upd c arg2 harg2 arg3 harg3 x0 x1, reset_zero, zero_add]

/-- A core's last point: the scratch entry plus the block's sum, as at a middle point. -/
theorem scratch_C (hc0 : ¬cond0_0 i) (hc1 : cond0_1 i) (xs0 : Vec Ideal S1x1 .f32) :
    sout0_C_0 c i arg2 harg2 arg3 harg3 arg4 harg4 arg5 harg5 hc0 hc1 x0 x1 xs0 = fun j => xs0 j + tile x0 x1 := by
  unfold sout0_C_0
  rw [View.read_writes_eq_canon _ _ _ (scover0_C_0 c i arg2 harg2 arg3 harg3 arg4 harg4 arg5 harg5 hc0 hc1 x0 x1 xs0)]
  unfold kernelRun0_C
  dsimp only
  unfold kernelRun0_C.sl.HS0_1
  rw [View.canon_unit_zero hz2]
  simp only [View.readAt_eq_ld, harg5.read_unread, View.ld_unit_zero (S := S1x1) hz2]
  funext j
  show k0_pay540 (F := Ideal) (kernelRun0_B.sl.r_230 c arg2 harg2 arg3 harg3 x0 x1) (kernelRun0_B.sl.r_311 c arg2 harg2 arg3 harg3 x0 x1) (kernelRun0_B.sl.r_329 c arg2 harg2 arg3 harg3 x0 x1) (kernelRun0_B.sl.r_349 c arg2 harg2 arg3 harg3 x0 x1) (kernelRun0_B.sl.r_366 c arg2 harg2 arg3 harg3 x0 x1) (kernelRun0_B.sl.r_367 c arg2 harg2 arg3 harg3 x0 x1) kernelRun0_B.sl.cst_395 xs0 j = _
  exact upd c arg2 harg2 arg3 harg3 x0 x1 xs0 j

/-- The scratch's one entry spread over the output block. -/
theorem spread (v : Vec Ideal S1x1 .f32) (j : S8x128.Idx) : k0_pay1 (F := Ideal) v j = v (ix2 0 0) := by
  simp only [k0_pay1, shapeCast_self]
  refine broadcastTo_apply v _ j (ix2 0 0) fun a => ?_
  match a with
  | ⟨0, _⟩ => rfl
  | ⟨1, _⟩ => rfl

/-- A core's last point writes the new scratch entry into every entry of the output block. -/
theorem out_C (hc0 : ¬cond0_0 i) (hc1 : cond0_1 i) (xs0 : Vec Ideal S1x1 .f32) :
    out0_C_2 c i arg2 harg2 arg3 harg3 arg4 harg4 arg5 harg5 hc0 hc1 x0 x1 xs0 = fun _ => xs0 (ix2 0 0) + tile x0 x1 := by
  unfold out0_C_2
  rw [View.read_writes_eq_canon _ _ _ (cover0_C_2 c i arg2 harg2 arg3 harg3 arg4 harg4 arg5 harg5 hc0 hc1 x0 x1 xs0)]
  unfold kernelRun0_C
  dsimp only
  rw [View.canon_unit_zero hz2]
  have hv : kernelRun0_C.sl.v2280 (F := Ideal) c arg2 harg2 arg3 harg3 arg5 harg5 x0 x1 xs0
      = k0_pay540 (F := Ideal) (kernelRun0_B.sl.r_230 c arg2 harg2 arg3 harg3 x0 x1) (kernelRun0_B.sl.r_311 c arg2 harg2 arg3 harg3 x0 x1) (kernelRun0_B.sl.r_329 c arg2 harg2 arg3 harg3 x0 x1) (kernelRun0_B.sl.r_349 c arg2 harg2 arg3 harg3 x0 x1) (kernelRun0_B.sl.r_366 c arg2 harg2 arg3 harg3 x0 x1) (kernelRun0_B.sl.r_367 c arg2 harg2 arg3 harg3 x0 x1) kernelRun0_B.sl.cst_395 (View.readAt (Elt Ideal) arg5.view (Rect.unit (s := S1x1) ![0, 0] S1x1.size inb_S1x1_S1x1_0_0).toLoadRect (harg5.unread xs0)) := by
    unfold kernelRun0_C.sl.v2280 kernelRun0_C.sl.HS0_1
    exact View.readCov_unit_zero _ hz2 _ _
  rw [hv]
  simp only [View.readAt_eq_ld, harg5.read_unread, View.ld_unit_zero (S := S1x1) hz2]
  funext j
  rw [spread, upd c arg2 harg2 arg3 harg3 x0 x1]

end Cert.KernelIdeal.Gen

end
-- ==== Proof.KValue.lean ====
/-
  The kernel program's result.  Point by point the scratch holds a running total of block sums, started
  afresh at each core's first point; each core's last point copies its total into the core's block of
  the output array; the host lines after the region add entries (0, 0) and (8, 0) of that array — the
  two cores' totals — and divide by 786432.
-/
import proofs.«427709_j26388279067065_4_alg».proof.Proof.KPieces

set_option maxRecDepth 16384

noncomputable section

namespace Cert.KernelIdeal.Gen

open Idealize.ShloMosaic Idealize.ShloMosaic.ValueIdx Idealize.ShloMosaic.Tactic Cert.LaneOps Cert.JointLoss
open Idealize.SL Idealize.SL.Sem
open Idealize.ShloMosaic.Pipeline (Dat Cfg Window)

variable (m : (ℓ : Loc nD τ sig) → Buf (Elt Ideal) ℓ) (ρ : Dev nD → PrngReg)

/-- The sum point t's two input blocks contribute (zero past the grid). -/
def tileN (c : Dev nD) (t : ℕ) : EReal :=
  if h : t < cfg0.N then tile (iblk m c 0 ⟨t, h⟩) (iblk m c 1 ⟨t, h⟩) else 0

/-- The running total after point n: restarted at each multiple of 64. -/
def runN (c : Dev nD) : ℕ → EReal
  | 0 => tileN m c 0
  | n + 1 => if (n + 1) % 64 = 0 then tileN m c (n + 1) else runN c n + tileN m c (n + 1)

/-! ## One point -/

theorem step_A (c : Dev nD) (t : Fin cfg0.N) (h0 : t.val % 64 = 0) (h1 : ¬t.val % 64 = 63) :
    (outsAt0 m c t.val t.isLt).2 = fun _ => tile (iblk m c 0 t) (iblk m c 1 t) := by
  rw [outsAt0_A m c t h0 h1]
  dsimp only
  exact scratch_A c (grid0.coords t) (ms0_0 t) (hs0_0 t) (ms0_1 t) (hs0_1 t) (ms0_2 t) (hs0_2 t) scM0_0 (Memref.isWhole_whole _) (iblk m c 0 t) (iblk m c 1 t) ((hcond0_0 t).mpr h0) (fun h => h1 ((hcond0_1 t).mp h))

theorem step_B (c : Dev nD) (t : Fin cfg0.N) (h0 : ¬t.val % 64 = 0) (h1 : ¬t.val % 64 = 63) :
    (outsAt0 m c t.val t.isLt).2
      = fun j => (outsAt0 m c (t.val - 1) (Nat.lt_of_le_of_lt (Nat.sub_le _ _) t.isLt)).2 j + tile (iblk m c 0 t) (iblk m c 1 t) := by
  rw [outsAt0_B m c t h0 h1]
  dsimp only
  exact scratch_B c (grid0.coords t) (ms0_0 t) (hs0_0 t) (ms0_1 t) (hs0_1 t) (ms0_2 t) (hs0_2 t) scM0_0 (Memref.isWhole_whole _) (iblk m c 0 t) (iblk m c 1 t) (fun h => h0 ((hcond0_0 t).mp h)) (fun h => h1 ((hcond0_1 t).mp h))
    (outsAt0 m c (t.val - 1) (Nat.lt_of_le_of_lt (Nat.sub_le _ _) t.isLt)).2

theorem step_C (c : Dev nD) (t : Fin cfg0.N) (h0 : ¬t.val % 64 = 0) (h1 : t.val % 64 = 63) :
    (outsAt0 m c t.val t.isLt).2
      = fun j => (outsAt0 m c (t.val - 1) (Nat.lt_of_le_of_lt (Nat.sub_le _ _) t.isLt)).2 j + tile (iblk m c 0 t) (iblk m c 1 t) := by
  rw [outsAt0_C m c t h0 h1]
  dsimp only
  exact scratch_C c (grid0.coords t) (ms0_0 t) (hs0_0 t) (ms0_1 t) (hs0_1 t) (ms0_2 t) (hs0_2 t) scM0_0 (Memref.isWhole_whole _) (iblk m c 0 t) (iblk m c 1 t) (fun h => h0 ((hcond0_0 t).mp h)) ((hcond0_1 t).mpr h1)
    (outsAt0 m c (t.val - 1) (Nat.lt_of_le_of_lt (Nat.sub_le _ _) t.isLt)).2

theorem stepo_C (c : Dev nD) (t : Fin cfg0.N) (h0 : ¬t.val % 64 = 0) (h1 : t.val % 64 = 63) :
    (outsAt0 m c t.val t.isLt).1
      = fun _ => (outsAt0 m c (t.val - 1) (Nat.lt_of_le_of_lt (Nat.sub_le _ _) t.isLt)).2 (ix2 0 0) + tile (iblk m c 0 t) (iblk m c 1 t) := by
  rw [outsAt0_C m c t h0 h1]
  dsimp only
  exact out_C c (grid0.coords t) (ms0_0 t) (hs0_0 t) (ms0_1 t) (hs0_1 t) (ms0_2 t) (hs0_2 t) scM0_0 (Memref.isWhole_whole _) (iblk m c 0 t) (iblk m c 1 t) (fun h => h0 ((hcond0_0 t).mp h)) ((hcond0_1 t).mpr h1)
    (outsAt0 m c (t.val - 1) (Nat.lt_of_le_of_lt (Nat.sub_le _ _) t.isLt)).2

/-! ## All points -/

/-- After point n the scratch's entry is the running total. -/
theorem scratch_eq (c : Dev nD) : ∀ (n : ℕ) (h : n < cfg0.N), (outsAt0 m c n h).2 = fun _ => runN m c n
  | 0, h => by
    rw [step_A m c ⟨0, h⟩ (Nat.zero_mod 64) (by show ¬(0 % 64 = 63); decide)]
    simp only [runN, tileN, dif_pos h]
  | n + 1, h => by
    have ih := scratch_eq c n (Nat.lt_of_succ_lt h)
    by_cases h0 : (n + 1) % 64 = 0
    · have h1 : ¬(n + 1) % 64 = 63 := by omega
      rw [step_A m c ⟨n + 1, h⟩ h0 h1]
      simp only [runN, if_pos h0, tileN, dif_pos h]
    · by_cases h1 : (n + 1) % 64 = 63
      · rw [step_C m c ⟨n + 1, h⟩ h0 h1]
        show (fun j => (outsAt0 m c n _).2 j + _) = _
        rw [ih]
        simp only [runN, if_neg h0, tileN, dif_pos h]
      · rw [step_B m c ⟨n + 1, h⟩ h0 h1]
        show (fun j => (outsAt0 m c n _).2 j + _) = _
        rw [ih]
        simp only [runN, if_neg h0, tileN, dif_pos h]

/-- At a core's last point the output block holds the running total everywhere. -/
theorem out_eq (c : Dev nD) (n : ℕ) (h : n < cfg0.N) (h63 : n % 64 = 63) : (outsAt0 m c n h).1 = fun _ => runN m c n := by
  obtain ⟨k, rfl⟩ : ∃ k, n = k + 1 := ⟨n - 1, by omega⟩
  have h0 : ¬(k + 1) % 64 = 0 := by omega
  rw [stepo_C m c ⟨k + 1, h⟩ h0 h63]
  show (fun _ => (outsAt0 m c k _).2 (ix2 0 0) + _) = _
  rw [scratch_eq m c k (Nat.lt_of_succ_lt h)]
  simp only [runN, if_neg h0, tileN, dif_pos h]

/-! ## The output array -/

/-- The output array at the end: rows 8k … 8k + 7 hold core k's total. -/
def res (c : Dev nD) : S16x128.Idx → EReal := fun i => runN m c (64 * ((i 0).val / 8) + 63)

theorem flushed_eq (c : Dev nD) (t : Fin cfg0.N) (hf : (cfg0.win 2).flush t = true) :
    (dats m 0 c).flushed 2 t = ((cfg0.win 2).blk t).view.read (Elt Ideal) (res m c) := by
  have h63 : t.val % 64 = 63 := (flush0_2 t).mp hf
  show (cfg0.win 2).cut (grid0.coords t) ((dats m 0 c).after 2 t) = _
  rw [after0_2, out_eq m c t.val t.isLt h63]
  funext y
  show runN m c t.val = res m c (((cfg0.win 2).blk t).view.emb y)
  unfold res
  have hi : (((cfg0.win 2).blk t).view.emb y 0).val = win0_2.index t 0 * 8 + 1 * (y 0).val := rfl
  have hidx : ∀ t : Fin cfg0.N, win0_2.index t 0 = t.val / 64 :=
    (by decide +kernel : ∀ t : Fin grid0.N, win0_2.index t 0 = t.val / 64)
  have hy : (y 0).val < 8 := (y 0).isLt
  have hN : t.val < 128 := lt_of_lt_of_eq t.isLt (show cfg0.N = 128 from N_0)
  congr 1
  rw [hi, hidx]
  omega

/-- Every entry of the output array is written back by its core's last point, so the array ends at the totals. -/
theorem final_o (c : Dev nD) : (dats m 0 c).arrAt 2 cfg0.N = res m c :=
  (dats m 0 c).arrAt_eq_of_cover 2 (res m c) (flushed_eq m c) fun i => by
    have h0 : (i 0 : Nat) < 16 := (i 0).isLt
    have h1 : (i 1 : Nat) < 128 := (i 1).isLt
    have hN : cfg0.N = 128 := N_0
    have ht : 64 * ((i 0 : Nat) / 8) + 63 < cfg0.N := by rw [hN]; omega
    refine ⟨⟨64 * ((i 0 : Nat) / 8) + 63, ht⟩, (flush0_2 _).mpr (by show (64 * ((i 0 : Nat) / 8) + 63) % 64 = 63; omega), ?_⟩
    show i ∈ ((View.whole main_v0).slice (win0_2.rect ⟨64 * ((i 0 : Nat) / 8) + 63, ht⟩)).set
    rw [View.set_slice_whole, Rect.mem_set_unit]
    have hx0 : ∀ t : Fin cfg0.N, win0_2.index t 0 * win0_2.size 0 = t.val / 64 * 8 :=
      (by decide +kernel : ∀ t : Fin grid0.N, win0_2.index t 0 * win0_2.size 0 = t.val / 64 * 8)
    have hs0 : ∀ t : Fin cfg0.N, win0_2.xsize (grid0.coords t) 0 = 8 :=
      (by decide +kernel : ∀ t : Fin grid0.N, win0_2.xsize (grid0.coords t) 0 = 8)
    have hx1 : ∀ t : Fin cfg0.N, win0_2.index t 1 * win0_2.size 1 = 0 :=
      (by decide +kernel : ∀ t : Fin grid0.N, win0_2.index t 1 * win0_2.size 1 = 0)
    have hs1 : ∀ t : Fin cfg0.N, win0_2.xsize (grid0.coords t) 1 = 128 :=
      (by decide +kernel : ∀ t : Fin grid0.N, win0_2.xsize (grid0.coords t) 1 = 128)
    intro a
    match a with
    | ⟨0, _⟩ =>
      show win0_2.index ⟨64 * ((i 0 : Nat) / 8) + 63, ht⟩ 0 * win0_2.size 0 ≤ (i 0 : Nat)
        ∧ (i 0 : Nat) < win0_2.index ⟨64 * ((i 0 : Nat) / 8) + 63, ht⟩ 0 * win0_2.size 0 + win0_2.xsize (grid0.coords ⟨64 * ((i 0 : Nat) / 8) + 63, ht⟩) 0
      rw [hx0, hs0]
      show (64 * ((i 0 : Nat) / 8) + 63) / 64 * 8 ≤ (i 0 : Nat) ∧ (i 0 : Nat) < (64 * ((i 0 : Nat) / 8) + 63) / 64 * 8 + 8
      omega
    | ⟨1, _⟩ =>
      show win0_2.index ⟨64 * ((i 0 : Nat) / 8) + 63, ht⟩ 1 * win0_2.size 1 ≤ (i 1 : Nat)
        ∧ (i 1 : Nat) < win0_2.index ⟨64 * ((i 0 : Nat) / 8) + 63, ht⟩ 1 * win0_2.size 1 + win0_2.xsize (grid0.coords ⟨64 * ((i 0 : Nat) / 8) + 63, ht⟩) 1
      rw [hx1, hs1]
      omega

/-! ## The host lines after the region -/

/-- The result buffer after the tail: the two cores' totals added, over 786432. -/
theorem tail_eq (c : Dev nD) :
    Pipeline.afterTail₀ cfgs (dats m) 0 (V0 m) [hostOps1] c main_v6
      = fun _ => Ideal.div (runN m c 63 + runN m c 127) (Ideal.ofBits .f32 0x49400000#32) := by
  unfold Pipeline.afterTail₀
  show StableHlo.after hostOps1 _ (Proc.devRef .tc main_v6) = _
  after_results
  have hw : Pipeline.withArrays (cfgs 0).spec c (V0 m c) (fun w => (dats m 0 c).arrAt w (cfgs 0).N) (Proc.devRef .tc main_v0)
      = res m c := (Pipeline.withArrays_arr spec0 launch0.win.arr_inj c _ _ 2).trans (final_o m c)
  rw [hw]
  funext i
  -- entry (0, 0) of the output array is core 0's total, entry (8, 0) core 1's
  have e0 : shapeCast S_ (extractStridedSlice S1x1 ![0, 0] (res m c) slices_S16x128_S1x1_0_0) shapeCasts_S1x1_S_ i = runN m c 63 := by
    rw [shapeCast_apply _ _ i (ix2 0 0) rfl, extractStridedSlice_apply _ _ _ (ix2 0 0) (ix2 0 0) (fun a => by fin_cases a <;> rfl)]
    rfl
  have e8 : shapeCast S_ (extractStridedSlice S1x1 ![8, 0] (res m c) slices_S16x128_S1x1_8_0) shapeCasts_S1x1_S_ i = runN m c 127 := by
    rw [shapeCast_apply _ _ i (ix2 0 0) rfl, extractStridedSlice_apply _ _ _ (ix2 0 0) (ix2 8 0) (fun a => by fin_cases a <;> rfl)]
    rfl
  show Ideal.div (shapeCast S_ (extractStridedSlice S1x1 ![0, 0] (res m c) slices_S16x128_S1x1_0_0) shapeCasts_S1x1_S_ i
      + shapeCast S_ (extractStridedSlice S1x1 ![8, 0] (res m c) slices_S16x128_S1x1_8_0) shapeCasts_S1x1_S_ i) _ = _
  rw [e0, e8]
  rfl

/-! ## The run -/

/-- Every weakly fair execution of the idealized kernel program ends with the result buffer at the two cores'
    totals added, over 786432, and the two argument arrays as they were. -/
theorem run_value :
    θ_run defs (onTc (τ := τ) (main (F := Ideal))) ⟨m, fun _ => 0, ρ⟩ (fun r => ∀ c : Dev nD,
      r.2.mem ((c.tc : Thread nD τ).loc main_v6)
          = (fun _ => Ideal.div (runN m c 63 + runN m c 127) (Ideal.ofBits .f32 0x49400000#32))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨((h c).2 main_v6 (Pipeline.mem_restRefs_of main_v6 (by decide) (by decide))).trans (tail_eq m c),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c)))⟩)
    (run_main m ρ)

end Cert.KernelIdeal.Gen

end
-- ==== Proof.KBlocks.lean ====
/-
  An input window's block at grid point t is rows t·2048 … t·2048 + 2047 of the window's argument array, all 63
  columns.  So lane l of the block is row t·2048 + l of the array, and the block's sum over its 2048 lanes is
  the sum of the grouped form over those samples of the two arrays.
-/
import proofs.«427709_j26388279067065_4_alg».proof.Proof.KTile

set_option maxRecDepth 16384

noncomputable section

namespace Cert.KernelIdeal.Gen

open Idealize.ShloMosaic Idealize.ShloMosaic.ValueIdx Idealize.ShloMosaic.Tactic Cert.LaneOps Cert.JointLoss
open Idealize.SL Idealize.SL.Sem
open Idealize.ShloMosaic.Pipeline (Dat Cfg Window)

variable (m : (ℓ : Loc nD τ sig) → Buf (Elt Ideal) ℓ)

/-- Sample r of the two argument arrays in grouped form (zero past the last sample). -/
def sampleN (c : Dev nD) (r : ℕ) : EReal :=
  if h : r < 262144 then combK (rowAt (V m c main_arg0) ⟨r, h⟩) (rowAt (V m c main_arg1) ⟨r, h⟩) else 0

/-! ## Where a block sits in its array -/

/-- The two input windows' block indices at linear point t, decided over the grid: block t along the rows,
    block 0 along the columns. -/
theorem idx_in : ∀ t : Fin cfg0.N, win0_0.index t 0 = t.val ∧ win0_0.index t 1 = 0
    ∧ win0_1.index t 0 = t.val ∧ win0_1.index t 1 = 0 :=
  (by decide +kernel : ∀ t : Fin grid0.N, win0_0.index t 0 = t.val ∧ win0_0.index t 1 = 0
    ∧ win0_1.index t 0 = t.val ∧ win0_1.index t 1 = 0)

/-- Row t·2048 + l exists: there are 128 points. -/
theorem row_lt (t : Fin cfg0.N) (l : Fin 2048) : t.val * 2048 + l.val < 262144 := by
  have hN : t.val < 128 := lt_of_lt_of_eq t.isLt (show cfg0.N = 128 from N_0)
  have hl : l.val < 2048 := l.isLt
  omega

/-- Window 0's block at point t, entry (l, j), is entry (t·2048 + l, j) of the first array. -/
theorem iblk0_apply (c : Dev nD) (t : Fin cfg0.N) (l : Fin 2048) (j : Fin 63) :
    (iblk m c 0 t : Vec Ideal S2048x63 .f32) (ix2 l j) = V m c main_arg0 (ix2 ⟨t.val * 2048 + l.val, row_lt t l⟩ j) := by
  show V m c main_arg0 (((cfg0.win 0).blk t).view.emb (ix2 l j)) = V m c main_arg0 (ix2 ⟨t.val * 2048 + l.val, row_lt t l⟩ j)
  obtain ⟨e0, e1, -, -⟩ := idx_in t
  refine congrArg _ (funext fun a => Fin.ext ?_)
  match a with
  | ⟨0, _⟩ =>
    show win0_0.index t 0 * 2048 + 1 * l.val = t.val * 2048 + l.val
    rw [e0]; omega
  | ⟨1, _⟩ =>
    show win0_0.index t 1 * 63 + 1 * j.val = j.val
    rw [e1]; omega

/-- Window 1's block at point t, entry (l, j), is entry (t·2048 + l, j) of the second array. -/
theorem iblk1_apply (c : Dev nD) (t : Fin cfg0.N) (l : Fin 2048) (j : Fin 63) :
    (iblk m c 1 t : Vec Ideal S2048x63 .f32) (ix2 l j) = V m c main_arg1 (ix2 ⟨t.val * 2048 + l.val, row_lt t l⟩ j) := by
  show V m c main_arg1 (((cfg0.win 1).blk t).view.emb (ix2 l j)) = V m c main_arg1 (ix2 ⟨t.val * 2048 + l.val, row_lt t l⟩ j)
  obtain ⟨-, -, e0, e1⟩ := idx_in t
  refine congrArg _ (funext fun a => Fin.ext ?_)
  match a with
  | ⟨0, _⟩ =>
    show win0_1.index t 0 * 2048 + 1 * l.val = t.val * 2048 + l.val
    rw [e0]; omega
  | ⟨1, _⟩ =>
    show win0_1.index t 1 * 63 + 1 * j.val = j.val
    rw [e1]; omega

/-! ## Rows -/

/-- Lane l of window 0's block is row t·2048 + l of the first array. -/
theorem row0 (c : Dev nD) (t : Fin cfg0.N) (l : Fin 2048) :
    rowAt (iblk m c 0 t : Vec Ideal S2048x63 .f32) l = rowAt (V m c main_arg0) ⟨t.val * 2048 + l.val, row_lt t l⟩ :=
  funext fun j => iblk0_apply m c t l j

/-- Lane l of window 1's block is row t·2048 + l of the second array. -/
theorem row1 (c : Dev nD) (t : Fin cfg0.N) (l : Fin 2048) :
    rowAt (iblk m c 1 t : Vec Ideal S2048x63 .f32) l = rowAt (V m c main_arg1) ⟨t.val * 2048 + l.val, row_lt t l⟩ :=
  funext fun j => iblk1_apply m c t l j

/-! ## The block's lane sum -/

/-- The sum over point t's two blocks is the sum of samples t·2048 … t·2048 + 2047. -/
theorem tile_blocks (c : Dev nD) (t : Fin cfg0.N) :
    tile (iblk m c 0 t) (iblk m c 1 t) = ∑ l : Fin 2048, sampleN m c (t.val * 2048 + l.val) := by
  unfold tile
  refine Finset.sum_congr rfl fun l _ => ?_
  unfold sampleN
  rw [dif_pos (row_lt t l)]
  exact congrArg₂ combK (row0 m c t l) (row1 m c t l)

end Cert.KernelIdeal.Gen

end
-- ==== Proof.LibSumBlocks.lean ====
/-
  A finite sum taken block by block.

  A sum over the `a * b` positions `0, 1, …, a * b - 1` is the sum, over the `a` consecutive blocks of `b` positions,
  of each block's own sum: position `q` is `b * s + r` for exactly one block number `s < a` and one place `r < b` in
  the block. The monoid is any commutative additive one, so the statement serves the extended reals, where the sum of
  `+∞` and `-∞` is defined and addition is still commutative and associative: regrouping a sum needs nothing finite.
-/
import Mathlib.Algebra.BigOperators.Fin
import Mathlib.Logic.Equiv.Fin.Basic

namespace SumBlocks

/-- The sum over `Fin (a * b)` of a function of the position is the sum over the `a` blocks of the sums over each
    block's `b` places, the place `r` of block `s` being position `b * s + r`. -/
theorem sum_fin_mul {β : Type*} [AddCommMonoid β] (a b : ℕ) (f : ℕ → β) :
    ∑ q : Fin (a * b), f q.val = ∑ s ∈ Finset.range a, ∑ r : Fin b, f (b * s + r.val) := by
  rw [Finset.sum_range, ← Equiv.sum_comp finProdFinEquiv (fun q : Fin (a * b) => f q.val), Fintype.sum_prod_type]
  refine Finset.sum_congr rfl fun s _ => Finset.sum_congr rfl fun r _ => ?_
  show f (r.val + b * s.val) = f (b * s.val + r.val)
  rw [Nat.add_comm]

end SumBlocks
-- ==== Proof.SumCores.lean ====
/-
  Two running totals, each reset at the first of its 64 consecutive tiles and increased by one tile per
  step, add up — after steps 63 and 127 — to the sum over all 128 × 2048 items, when tile t is the sum
  of items t · 2048, …, t · 2048 + 2047.
-/
import Mathlib.Algebra.BigOperators.Fin
import Mathlib.Algebra.BigOperators.Intervals
import proofs.«427709_j26388279067065_4_alg».proof.Proof.LibSumBlocks

namespace Cert.SumCores

open Finset

/-- A running total that equals tile `b` at step `b` and gains the next tile at each of the following 63 steps
    is, `k` steps later, the sum of the tiles `b, b + 1, …, b + k`. Induction on `k`: one more step adds one more
    term at the end of the range. -/
theorem run_sum {M : Type} [AddCommMonoid M] (T R : ℕ → M) (b : ℕ)
    (h0 : R b = T b)
    (hs : ∀ k, k < 63 → R (b + (k + 1)) = R (b + k) + T (b + (k + 1))) :
    ∀ k, k ≤ 63 → R (b + k) = ∑ t ∈ range (k + 1), T (b + t) := by
  intro k
  induction k with
  | zero =>
    intro _
    rw [sum_range_one]
    exact h0
  | succ k ih =>
    intro hk
    rw [hs k (by omega), ih (by omega), sum_range_succ _ (k + 1)]

/-- The two cores' totals are the sum over every item. -/
theorem two_cores_sum {M : Type} [AddCommMonoid M] (f T R : ℕ → M)
    (hT : ∀ t, t < 128 → T t = ∑ l : Fin 2048, f (t * 2048 + l.val))
    (hR0 : R 0 = T 0)
    (hRs : ∀ n, R (n + 1) = if (n + 1) % 64 = 0 then T (n + 1) else R n + T (n + 1)) :
    R 63 + R 127 = ∑ r : Fin 262144, f r.val := by
  -- First core: steps 1 … 63 are not multiples of 64, so each adds its tile to the total begun at step 0.
  have hA : ∀ k, k ≤ 63 → R (0 + k) = ∑ t ∈ range (k + 1), T (0 + t) :=
    run_sum T R 0 hR0 (fun k hk => by
      rw [Nat.zero_add, Nat.zero_add, hRs k, if_neg (by omega)])
  -- Second core: step 64 is a multiple of 64, so the total restarts at tile 64 …
  have h64 : R 64 = T 64 := by
    have h := hRs 63
    rw [if_pos (by omega)] at h
    exact h
  -- … and steps 65 … 127 are not, so each adds its tile.
  have hB : ∀ k, k ≤ 63 → R (64 + k) = ∑ t ∈ range (k + 1), T (64 + t) :=
    run_sum T R 64 h64 (fun k hk => by
      rw [← Nat.add_assoc, hRs (64 + k), if_neg (by omega)])
  have e63 : R 63 = ∑ t ∈ range 64, T t := by
    have h := hA 63 (le_refl _)
    simp only [Nat.zero_add] at h
    exact h
  have e127 : R 127 = ∑ t ∈ range 64, T (64 + t) := hB 63 (le_refl _)
  -- The two halves make the sum of all 128 tiles, and the tiles are the 128 consecutive blocks of 2048 items.
  rw [e63, e127, ← sum_range_add T 64 64]
  have hN : ∑ r : Fin 262144, f r.val = ∑ q : Fin (128 * 2048), f q.val := rfl
  rw [hN, SumBlocks.sum_fin_mul 128 2048 f]
  refine sum_congr rfl fun t ht => ?_
  rw [hT t (mem_range.mp ht), Nat.mul_comm t 2048]

end Cert.SumCores
-- ==== Proof.KTotal.lean ====
/-
  The two cores' totals together are the sum over all 262144 samples: point t's block is rows
  t · 2048 … t · 2048 + 2047 of the two arrays, the running total restarts at points 0 and 64, and the
  128 blocks tile the rows.
-/
import proofs.«427709_j26388279067065_4_alg».proof.Proof.KValue
import proofs.«427709_j26388279067065_4_alg».proof.Proof.KBlocks
import proofs.«427709_j26388279067065_4_alg».proof.Proof.SumCores

set_option maxRecDepth 16384

noncomputable section

namespace Cert.KernelIdeal.Gen

open Idealize.ShloMosaic Idealize.ShloMosaic.ValueIdx Cert.JointLoss
open Idealize.SL Idealize.SL.Sem

variable (m : (ℓ : Loc nD τ sig) → Buf (Elt Ideal) ℓ) (ρ : Dev nD → PrngReg)

/-- A point's contribution is the sum of its 2048 samples. -/
theorem tileN_eq (c : Dev nD) (t : ℕ) (ht : t < 128) :
    tileN m c t = ∑ l : Fin 2048, sampleN m c (t * 2048 + l.val) := by
  have h : t < cfg0.N := lt_of_lt_of_eq ht (show cfg0.N = 128 from N_0).symm
  unfold tileN
  rw [dif_pos h]
  exact tile_blocks m c ⟨t, h⟩

/-- The totals after points 63 and 127 add up to the sum over every sample. -/
theorem totals_eq (c : Dev nD) :
    runN m c 63 + runN m c 127
      = ∑ r : Fin 262144, combK (rowAt (V m c main_arg0) r) (rowAt (V m c main_arg1) r) := by
  rw [Cert.SumCores.two_cores_sum (sampleN m c) (tileN m c) (runN m c) (tileN_eq m c) rfl (fun _ => rfl)]
  refine Finset.sum_congr rfl fun r _ => ?_
  unfold sampleN
  rw [dif_pos r.isLt]

end Cert.KernelIdeal.Gen

end
-- ==== Proof.lean ====
/-
  A per-sample wing loss over 262144 samples of 21 three-dimensional joints: the kernel sums, tile by
  tile on two cores, one number per sample — 0.6 times the three coordinate averages of wings of joint
  differences plus a weight times the average of 441 wings of covariance differences — and divides the
  total by 786432; the reference averages the same quantity coordinate by coordinate.  The kernel's
  weight on the covariance average is the constant named three_w_cov, three times the reference's 0.4
  as printed, so that on finite inputs the two results are one extended real.
-/
import proofs.«427709_j26388279067065_4_alg».proof.Defs
import proofs.«427709_j26388279067065_4_alg».proof.Proof.Gen.Kernel
import proofs.«427709_j26388279067065_4_alg».proof.Proof.Gen.Kernel.Frame
import proofs.«427709_j26388279067065_4_alg».proof.Proof.Gen.KernelIdeal
import proofs.«427709_j26388279067065_4_alg».proof.Proof.Gen.KernelIdeal.Frame
import proofs.«427709_j26388279067065_4_alg».proof.Proof.Gen.ReferenceIdeal
import proofs.«427709_j26388279067065_4_alg».proof.Proof.Gen.Pre_finite_inputs
import proofs.«427709_j26388279067065_4_alg».proof.Proof.RefRead
import proofs.«427709_j26388279067065_4_alg».proof.Proof.RefValue
import proofs.«427709_j26388279067065_4_alg».proof.Proof.SampleEq
import proofs.«427709_j26388279067065_4_alg».proof.Proof.Finite
import proofs.«427709_j26388279067065_4_alg».proof.Proof.KTotal
import Idealize.ShloMosaic.Adequacy
import Idealize.ShloMosaic.Init

noncomputable section

namespace Cert.Proof

open Idealize.ShloMosaic Idealize.SL.Sem

section
variable [hKernel : Cert.Kernel.Facts] [hKernelIdeal : Cert.KernelIdeal.Facts] [hReferenceIdeal : Cert.ReferenceIdeal.Facts]
  [hPre_finite_inputs : Cert.Pre_finite_inputs.Facts]

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)
end

/-- Each named constant of the idealized kernel has the value its table gives it. -/
theorem preserves : Cert.preserves_Kernel_KernelIdeal :=
  ⟨IdealRules.named_const.statement Cert.KernelIdeal.κ "inv_3" .f32 0x3EAAAAAB#32 ((1 / 3 : ℝ) : EReal) rfl,
   IdealRules.named_const.statement Cert.KernelIdeal.κ "inv_3" .f32 0x3EAAAAAB#32 ((1 / 3 : ℝ) : EReal) rfl,
   IdealRules.named_const.statement Cert.KernelIdeal.κ "inv_3" .f32 0x3EAAAAAB#32 ((1 / 3 : ℝ) : EReal) rfl,
   IdealRules.named_const.statement Cert.KernelIdeal.κ "inv_3" .f32 0x3EAAAAAB#32 ((1 / 3 : ℝ) : EReal) rfl,
   IdealRules.named_const.statement Cert.KernelIdeal.κ "inv_3" .f32 0x3EAAAAAB#32 ((1 / 3 : ℝ) : EReal) rfl,
   IdealRules.named_const.statement Cert.KernelIdeal.κ "inv_3" .f32 0x3EAAAAAB#32 ((1 / 3 : ℝ) : EReal) rfl,
   IdealRules.named_const.statement Cert.KernelIdeal.κ "inv_3" .f32 0x3EAAAAAB#32 ((1 / 3 : ℝ) : EReal) rfl,
   IdealRules.named_const.statement Cert.KernelIdeal.κ "inv_3" .f32 0x3EAAAAAB#32 ((1 / 3 : ℝ) : EReal) rfl,
   IdealRules.named_const.statement Cert.KernelIdeal.κ "inv_3" .f32 0x3EAAAAAB#32 ((1 / 3 : ℝ) : EReal) rfl,
   IdealRules.named_const.statement Cert.KernelIdeal.κ "inv_3" .f32 0x3EAAAAAB#32 ((1 / 3 : ℝ) : EReal) rfl,
   IdealRules.named_const.statement Cert.KernelIdeal.κ "inv_3" .f32 0x3EAAAAAB#32 ((1 / 3 : ℝ) : EReal) rfl,
   IdealRules.named_const.statement Cert.KernelIdeal.κ "inv_3" .f32 0x3EAAAAAB#32 ((1 / 3 : ℝ) : EReal) rfl,
   IdealRules.named_const.statement Cert.KernelIdeal.κ "inv_3" .f32 0x3EAAAAAB#32 ((1 / 3 : ℝ) : EReal) rfl,
   IdealRules.named_const.statement Cert.KernelIdeal.κ "inv_3" .f32 0x3EAAAAAB#32 ((1 / 3 : ℝ) : EReal) rfl,
   IdealRules.named_const.statement Cert.KernelIdeal.κ "inv_3" .f32 0x3EAAAAAB#32 ((1 / 3 : ℝ) : EReal) rfl,
   IdealRules.named_const.statement Cert.KernelIdeal.κ "inv_3" .f32 0x3EAAAAAB#32 ((1 / 3 : ℝ) : EReal) rfl,
   IdealRules.named_const.statement Cert.KernelIdeal.κ "inv_3" .f32 0x3EAAAAAB#32 ((1 / 3 : ℝ) : EReal) rfl,
   IdealRules.named_const.statement Cert.KernelIdeal.κ "inv_3" .f32 0x3EAAAAAB#32 ((1 / 3 : ℝ) : EReal) rfl,
   IdealRules.named_const.statement Cert.KernelIdeal.κ "inv_3" .f32 0x3EAAAAAB#32 ((1 / 3 : ℝ) : EReal) rfl,
   IdealRules.named_const.statement Cert.KernelIdeal.κ "inv_3" .f32 0x3EAAAAAB#32 ((1 / 3 : ℝ) : EReal) rfl,
   IdealRules.named_const.statement Cert.KernelIdeal.κ "inv_3" .f32 0x3EAAAAAB#32 ((1 / 3 : ℝ) : EReal) rfl,
   IdealRules.named_const.statement Cert.KernelIdeal.κ "inv_3" .f32 0x3EAAAAAB#32 ((1 / 3 : ℝ) : EReal) rfl,
   IdealRules.named_const.statement Cert.KernelIdeal.κ "inv_3" .f32 0x3EAAAAAB#32 ((1 / 3 : ℝ) : EReal) rfl,
   IdealRules.named_const.statement Cert.KernelIdeal.κ "inv_3" .f32 0x3EAAAAAB#32 ((1 / 3 : ℝ) : EReal) rfl,
   IdealRules.named_const.statement Cert.KernelIdeal.κ "inv_3" .f32 0x3EAAAAAB#32 ((1 / 3 : ℝ) : EReal) rfl,
   IdealRules.named_const.statement Cert.KernelIdeal.κ "inv_3" .f32 0x3EAAAAAB#32 ((1 / 3 : ℝ) : EReal) rfl,
   IdealRules.named_const.statement Cert.KernelIdeal.κ "inv_3" .f32 0x3EAAAAAB#32 ((1 / 3 : ℝ) : EReal) rfl,
   IdealRules.named_const.statement Cert.KernelIdeal.κ "inv_3" .f32 0x3EAAAAAB#32 ((1 / 3 : ℝ) : EReal) rfl,
   IdealRules.named_const.statement Cert.KernelIdeal.κ "inv_3" .f32 0x3EAAAAAB#32 ((1 / 3 : ℝ) : EReal) rfl,
   IdealRules.named_const.statement Cert.KernelIdeal.κ "inv_3" .f32 0x3EAAAAAB#32 ((1 / 3 : ℝ) : EReal) rfl,
   IdealRules.named_const.statement Cert.KernelIdeal.κ "inv_3" .f32 0x3EAAAAAB#32 ((1 / 3 : ℝ) : EReal) rfl,
   IdealRules.named_const.statement Cert.KernelIdeal.κ "inv_3" .f32 0x3EAAAAAB#32 ((1 / 3 : ℝ) : EReal) rfl,
   IdealRules.named_const.statement Cert.KernelIdeal.κ "inv_3" .f32 0x3EAAAAAB#32 ((1 / 3 : ℝ) : EReal) rfl,
   IdealRules.named_const.statement Cert.KernelIdeal.κ "inv_3" .f32 0x3EAAAAAB#32 ((1 / 3 : ℝ) : EReal) rfl,
   IdealRules.named_const.statement Cert.KernelIdeal.κ "inv_3" .f32 0x3EAAAAAB#32 ((1 / 3 : ℝ) : EReal) rfl,
   IdealRules.named_const.statement Cert.KernelIdeal.κ "inv_3" .f32 0x3EAAAAAB#32 ((1 / 3 : ℝ) : EReal) rfl,
   IdealRules.named_const.statement Cert.KernelIdeal.κ "inv_3" .f32 0x3EAAAAAB#32 ((1 / 3 : ℝ) : EReal) rfl,
   IdealRules.named_const.statement Cert.KernelIdeal.κ "inv_3" .f32 0x3EAAAAAB#32 ((1 / 3 : ℝ) : EReal) rfl,
   IdealRules.named_const.statement Cert.KernelIdeal.κ "inv_3" .f32 0x3EAAAAAB#32 ((1 / 3 : ℝ) : EReal) rfl,
   IdealRules.named_const.statement Cert.KernelIdeal.κ "inv_3" .f32 0x3EAAAAAB#32 ((1 / 3 : ℝ) : EReal) rfl,
   IdealRules.named_const.statement Cert.KernelIdeal.κ "inv_3" .f32 0x3EAAAAAB#32 ((1 / 3 : ℝ) : EReal) rfl,
   IdealRules.named_const.statement Cert.KernelIdeal.κ "inv_3" .f32 0x3EAAAAAB#32 ((1 / 3 : ℝ) : EReal) rfl,
   IdealRules.named_const.statement Cert.KernelIdeal.κ "inv_441" .f32 0x3B149B93#32 ((1 / 441 : ℝ) : EReal) rfl,
   IdealRules.named_const.statement Cert.KernelIdeal.κ "inv_21" .f32 0x3D430C31#32 ((1 / 21 : ℝ) : EReal) rfl,
   IdealRules.named_const.statement Cert.KernelIdeal.κ "inv_22" .f32 0x3D3A2E8C#32 ((1 / 22 : ℝ) : EReal) rfl,
   IdealRules.named_const.statement Cert.KernelIdeal.κ "inv_21" .f32 0x3D430C31#32 ((1 / 21 : ℝ) : EReal) rfl,
   IdealRules.named_const.statement Cert.KernelIdeal.κ "inv_22" .f32 0x3D3A2E8C#32 ((1 / 22 : ℝ) : EReal) rfl,
   IdealRules.named_const.statement Cert.KernelIdeal.κ "inv_21" .f32 0x3D430C31#32 ((1 / 21 : ℝ) : EReal) rfl,
   IdealRules.named_const.statement Cert.KernelIdeal.κ "inv_22" .f32 0x3D3A2E8C#32 ((1 / 22 : ℝ) : EReal) rfl,
   IdealRules.named_const.statement Cert.KernelIdeal.κ "three_w_cov" .f32 0x3F99999A#32 ((40265319 / 33554432 : ℝ) : EReal) rfl⟩

section
variable [hKernelIdeal : Cert.KernelIdeal.Facts] [hReferenceIdeal : Cert.ReferenceIdeal.Facts]
  [hPre_finite_inputs : Cert.Pre_finite_inputs.Facts]

open Cert.JointLoss in
/-- On finite inputs both programs end at the sum, over all 262144 samples, of the grouped form of the
    sample's two rows, over 786432.  The kernel: its two cores' totals are that sum, block by block.  The
    reference: its sum over samples and coordinates of the coordinate terms, started at zero, is the same
    sum sample by sample, every entry being a real number. -/
theorem algebraic : Cert.algebraic_KernelIdeal_ReferenceIdeal := by
  intro m ρ m' ρ' hpre hagree
  refine ⟨fun c _ => Ideal.div
      (∑ r : Fin 262144, combK
        (rowAt (m ((c.tc : Thread Cert.KernelIdeal.nD Cert.KernelIdeal.τ).loc Cert.KernelIdeal.main_arg0)) r)
        (rowAt (m ((c.tc : Thread Cert.KernelIdeal.nD Cert.KernelIdeal.τ).loc Cert.KernelIdeal.main_arg1)) r))
      (Ideal.ofBits .f32 0x49400000#32), ?_, ?_⟩
  · refine (θ_run Cert.KernelIdeal.defs _ _).mono (fun _ h c => ⟨(h c).1.trans ?_, (h c).2⟩)
      (Cert.KernelIdeal.Gen.run_value m ρ)
    funext _
    rw [Cert.KernelIdeal.Gen.totals_eq m c]
    rfl
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v69_eq, (hagree c).1, (hagree c).2]
    funext i
    rw [Cert.ReferenceIdeal.RefValue.ref_value, Ideal.ofBits_zero_f32, zero_add]
    obtain ⟨h0, h1⟩ := real_of_pre _ _ (hpre c)
    have hs : ∀ r : Fin 262144,
        ∑ k : Fin 3, termR
          (rowAt (m ((c.tc : Thread Cert.KernelIdeal.nD Cert.KernelIdeal.τ).loc Cert.KernelIdeal.main_arg0)) r)
          (rowAt (m ((c.tc : Thread Cert.KernelIdeal.nD Cert.KernelIdeal.τ).loc Cert.KernelIdeal.main_arg1)) r) k
        = combK
          (rowAt (m ((c.tc : Thread Cert.KernelIdeal.nD Cert.KernelIdeal.τ).loc Cert.KernelIdeal.main_arg0)) r)
          (rowAt (m ((c.tc : Thread Cert.KernelIdeal.nD Cert.KernelIdeal.τ).loc Cert.KernelIdeal.main_arg1)) r) :=
      fun r => sample_eq _ _ (fun j => h0 _) (fun j => h1 _)
    rw [Finset.sum_congr rfl fun r _ => hs r]
end

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
